-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x150 : Shape := ⟨2, ![128, 150]⟩
abbrev S150 : Shape := ⟨1, ![150]⟩
abbrev S150x100 : Shape := ⟨2, ![150, 100]⟩
abbrev S100 : Shape := ⟨1, ![100]⟩
abbrev S100x64 : Shape := ⟨2, ![100, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x150 : S_.BroadcastsInDim S128x150 (![] : Fin 0 → Fin S128x150.rank)
  reducesTo_S128x150_S_d0_1 : S128x150.ReducesTo [0, 1] S_
  bcast_S_S150 : S_.BroadcastsInDim S150 (![] : Fin 0 → Fin S150.rank)
  reducesTo_S150_S_d0 : S150.ReducesTo [0] S_
  bcast_S_S150x100 : S_.BroadcastsInDim S150x100 (![] : Fin 0 → Fin S150x100.rank)
  reducesTo_S150x100_S_d0_1 : S150x100.ReducesTo [0, 1] S_
  bcast_S_S100 : S_.BroadcastsInDim S100 (![] : Fin 0 → Fin S100.rank)
  reducesTo_S100_S_d0 : S100.ReducesTo [0] S_
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S150x100 .f32) (main_arg7 : FVec F S100 .f32) (main_arg8 : FVec F S100x64 .f32) (main_arg9 : FVec F S64 .f32) (main_v13 : IVec S_ 1) (main_v16 : IVec S150x100 1) : IVec S_ 1 :=
  let main_c_5 : IVec S_ 1 := constantI S_ 1 1#1
  let main_v17 : IVec S_ 1 := (fun x v => Host.reduce IntOp.andi x v reducesTo_S150x100_S_d0_1 h_S_) main_v16 main_c_5
  let main_v18 : IVec S_ 1 := andi main_v13 main_v17
  let main_v19 : FVec F S150x100 .f32 := Host.absf main_arg6
  let main_cst_6 : FVec F S_ .f32 := constant S_ .f32 0x7F800000#32
  let main_v20 : FVec F S150x100 .f32 := broadcastInDim S150x100 ![] bcast_S_S150x100 main_cst_6
  let main_v21 : IVec S150x100 1 := cmpf .olt main_v19 main_v20
  let main_c_7 : IVec S_ 1 := constantI S_ 1 1#1
  let main_v22 : IVec S_ 1 := (fun x v => Host.reduce IntOp.andi x v reducesTo_S150x100_S_d0_1 h_S_) main_v21 main_c_7
  let main_v23 : IVec S_ 1 := andi main_v18 main_v22
  let main_v24 : FVec F S100 .f32 := Host.absf main_arg7
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100x64 .f32 := Host.absf main_arg8
  let main_cst_10 : FVec F S_ .f32 := constant S_ .f32 0x7F800000#32
  let main_v30 : FVec F S100x64 .f32 := broadcastInDim S100x64 ![] bcast_S_S100x64 main_cst_10
  let main_v31 : IVec S100x64 1 := cmpf .olt main_v29 main_v30
  let main_c_11 : IVec S_ 1 := constantI S_ 1 1#1
  let main_v32 : IVec S_ 1 := (fun x v => Host.reduce IntOp.andi x v reducesTo_S100x64_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S800000 32) (main_arg2 : IVec S800000 32) (main_arg3 : FVec F S128x150 .f32) (main_arg4 : FVec F S150 .f32) (main_arg5 : FVec F S150x100 .f32) (main_arg6 : FVec F S150x100 .f32) (main_arg7 : FVec F S100 .f32) (main_arg8 : FVec F S100x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x150 .f32 := Host.absf main_arg3
  let main_cst_0 : FVec F S_ .f32 := constant S_ .f32 0x7F800000#32
  let main_v5 : FVec F S128x150 .f32 := broadcastInDim S128x150 ![] bcast_S_S128x150 main_cst_0
  let main_v6 : IVec S128x150 1 := cmpf .olt main_v4 main_v5
  let main_c_1 : IVec S_ 1 := constantI S_ 1 1#1
  let main_v7 : IVec S_ 1 := (fun x v => Host.reduce IntOp.andi x v reducesTo_S128x150_S_d0_1 h_S_) main_v6 main_c_1
  let main_v8 : IVec S_ 1 := andi main_v3 main_v7
  let main_v9 : FVec F S150 .f32 := Host.absf main_arg4
  let main_cst_2 : FVec F S_ .f32 := constant S_ .f32 0x7F800000#32
  let main_v10 : FVec F S150 .f32 := broadcastInDim S150 ![] bcast_S_S150 main_cst_2
  let main_v11 : IVec S150 1 := cmpf .olt main_v9 main_v10
  let main_c_3 : IVec S_ 1 := constantI S_ 1 1#1
  let main_v12 : IVec S_ 1 := (fun x v => Host.reduce IntOp.andi x v reducesTo_S150_S_d0 h_S_) main_v11 main_c_3
  let main_v13 : IVec S_ 1 := andi main_v8 main_v12
  let main_v14 : FVec F S150x100 .f32 := Host.absf main_arg5
  let main_cst_4 : FVec F S_ .f32 := constant S_ .f32 0x7F800000#32
  let main_v15 : FVec F S150x100 .f32 := broadcastInDim S150x100 ![] bcast_S_S150x100 main_cst_4
  let main_v16 : IVec S150x100 1 := cmpf .olt main_v14 main_v15
  fn_part1 (F := F) main_arg6 main_arg7 main_arg8 main_arg9 main_v13 main_v16
-- ==== Kernel.lean ====
abbrev S50000x128 : Shape := ⟨2, ![50000, 128]⟩
abbrev S800000 : Shape := ⟨1, ![800000]⟩
abbrev S128x150 : Shape := ⟨2, ![128, 150]⟩
abbrev S150 : Shape := ⟨1, ![150]⟩
abbrev S150x100 : Shape := ⟨2, ![150, 100]⟩
abbrev S100 : Shape := ⟨1, ![100]⟩
abbrev S100x64 : Shape := ⟨2, ![100, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x150 : Shape := ⟨2, ![1, 150]⟩
abbrev S50000x150 : Shape := ⟨2, ![50000, 150]⟩
abbrev S50000x100 : Shape := ⟨2, ![50000, 100]⟩
abbrev S5000x128 : Shape := ⟨2, ![5000, 128]⟩
abbrev S5000x1 : Shape := ⟨2, ![5000, 1]⟩
abbrev S5000x150 : Shape := ⟨2, ![5000, 150]⟩
abbrev S5000x100 : Shape := ⟨2, ![5000, 100]⟩
abbrev S800000x100 : Shape := ⟨2, ![800000, 100]⟩
abbrev S1x100 : Shape := ⟨2, ![1, 100]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 65
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x150, .f32⟩
  | .hbm, ⟨4, _⟩ => ⟨S150, .f32⟩
  | .hbm, ⟨5, _⟩ => ⟨S150x100, .f32⟩
  | .hbm, ⟨6, _⟩ => ⟨S150x100, .f32⟩
  | .hbm, ⟨7, _⟩ => ⟨S100, .f32⟩
  | .hbm, ⟨8, _⟩ => ⟨S100x64, .f32⟩
  | .hbm, ⟨9, _⟩ => ⟨S64, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x1, .f32⟩
  | .hbm, ⟨45, _⟩ => ⟨S1x150, .f32⟩
  | .hbm, ⟨46, _⟩ => ⟨S50000x150, .f32⟩
  | .hbm, ⟨47, _⟩ => ⟨S50000x100, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x100, .f32⟩
  | .hbm, ⟨57, _⟩ => ⟨S_, .f32⟩
  | .hbm, ⟨58, _⟩ => ⟨S50000x100, .f32⟩
  | .hbm, ⟨59, _⟩ => ⟨S800000x1, .i32⟩
  | .hbm, ⟨60, _⟩ => ⟨S50000x100, .f32⟩
  | .hbm, ⟨61, _⟩ => ⟨S50000x1, .f32⟩
  | .hbm, ⟨62, _⟩ => ⟨S1x100, .f32⟩
  | .hbm, ⟨63, _⟩ => ⟨S1x64, .f32⟩
  | .hbm, ⟨64, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x150, .f32⟩
  | .local _ .vmem, ⟨5, _⟩ => ⟨S1x150, .f32⟩
  | .local _ .vmem, ⟨6, _⟩ => ⟨S150x100, .f32⟩
  | .local _ .vmem, ⟨7, _⟩ => ⟨S5000x150, .f32⟩
  | .local _ .vmem, ⟨8, _⟩ => ⟨S5000x150, .f32⟩
  | .local _ .vmem, ⟨9, _⟩ => ⟨S5000x100, .f32⟩
  | .local _ .vmem, ⟨10, _⟩ => ⟨S5000x100, .f32⟩
  | .local _ .vmem, ⟨11, _⟩ => ⟨S5000x150, .f32⟩
  | .local _ .vmem, ⟨12, _⟩ => ⟨S5000x150, .f32⟩
  | .local _ .vmem, ⟨13, _⟩ => ⟨S5000x100, .f32⟩
  | .local _ .vmem, ⟨14, _⟩ => ⟨S5000x100, .f32⟩
  | .local _ .vmem, ⟨15, _⟩ => ⟨S5000x1, .f32⟩
  | .local _ .vmem, ⟨16, _⟩ => ⟨S5000x1, .f32⟩
  | .local _ .vmem, ⟨17, _⟩ => ⟨S150x100, .f32⟩
  | .local _ .vmem, ⟨18, _⟩ => ⟨S1x100, .f32⟩
  | .local _ .vmem, ⟨19, _⟩ => ⟨S100x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x150 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x150 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S150x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x150 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x100 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x150 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S150x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S100x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  shapeCasts_S150_S1x150 : S150.ShapeCasts S1x150
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x150_S128x150_0_0 : ∀ a, (![0, 0] : Fin 2 → Nat) a + S128x150.size a ≤ S128x150.size a
  h_S128x150 : 0 < S128x150.numel
  inb_S1x150_S1x150_0_0 : ∀ a, (![0, 0] : Fin 2 → Nat) a + S1x150.size a ≤ S1x150.size a
  h_S1x150 : 0 < S1x150.numel
  shapeCasts_S1x150_S1x150 : S1x150.ShapeCasts S1x150
  broadcasts_S1x150_S5000x150 : S1x150.Broadcasts S5000x150
  inb_S150x100_S150x100_0_0 : ∀ a, (![0, 0] : Fin 2 → Nat) a + S150x100.size a ≤ S150x100.size a
  h_S150x100 : 0 < S150x100.numel
  inb_S5000x150_S5000x150_0_0 : ∀ a, (![0, 0] : Fin 2 → Nat) a + S5000x150.size a ≤ S5000x150.size a
  h_S5000x150 : 0 < S5000x150.numel
  inb_S5000x100_S5000x100_0_0 : ∀ a, (![0, 0] : Fin 2 → Nat) a + S5000x100.size a ≤ S5000x100.size a
  h_S5000x100 : 0 < S5000x100.numel
  bcast_S_S50000x100 : S_.BroadcastsInDim S50000x100 (![] : Fin 0 → Fin S50000x100.rank)
  shapeCasts_S100_S1x100 : S100.ShapeCasts S1x100
  shapeCasts_S64_S1x64 : S64.ShapeCasts S1x64
  shapeCasts_S5000x150_S5000x150 : S5000x150.ShapeCasts S5000x150
  shapeCasts_S5000x100_S5000x100 : S5000x100.ShapeCasts S5000x100
  broadcasts_S5000x1_S5000x100 : S5000x1.Broadcasts S5000x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S5000x100 : S1x100.Broadcasts S5000x100
  inb_S100x64_S100x64_0_0 : ∀ a, (![0, 0] : Fin 2 → Nat) a + S100x64.size a ≤ S100x64.size a
  h_S100x64 : 0 < S100x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x150_S5000x150_1_0_0_1_n_n_wf : DotDims.WF S5000x128 S128x150 S5000x150 [1] [0] [0] [1] [] []
  dot_S5000x150_S150x100_S5000x100_1_0_0_1_n_n_wf : DotDims.WF S5000x150 S150x100 S5000x100 [1] [0] [0] [1] [] []
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S5000x100_S100x64_S5000x64_1_0_0_1_n_n_wf : DotDims.WF S5000x100 S100x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x150.size a ≤ S128x150.size a
  hwx0_2 : ∀ i : grid0.Coords, EltTy.bits .f32 = 32 ∨ (Rect.block (s := S128x150) S128x150.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x150.size a ≤ S1x150.size a
  hwx0_3 : ∀ i : grid0.Coords, EltTy.bits .f32 = 32 ∨ (Rect.block (s := S1x150) S1x150.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S150x100.size a ≤ S150x100.size a
  hwx0_4 : ∀ i : grid0.Coords, EltTy.bits .f32 = 32 ∨ (Rect.block (s := S150x100) S150x100.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x150.size a ≤ S50000x150.size a
  hwx0_5 : ∀ i : grid0.Coords, EltTy.bits .f32 = 32 ∨ (Rect.block (s := S50000x150) S5000x150.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x100.size a ≤ S50000x100.size a
  hwx0_6 : ∀ i : grid0.Coords, EltTy.bits .f32 = 32 ∨ (Rect.block (s := S50000x100) S5000x100.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x150.size a ≤ S50000x150.size a
  hwx1_0 : ∀ i : grid1.Coords, EltTy.bits .f32 = 32 ∨ (Rect.block (s := S50000x150) S5000x150.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x100.size a ≤ S50000x100.size a
  hwx1_1 : ∀ i : grid1.Coords, EltTy.bits .f32 = 32 ∨ (Rect.block (s := S50000x100) S5000x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S150x100.size a ≤ S150x100.size a
  hwx1_3 : ∀ i : grid1.Coords, EltTy.bits .f32 = 32 ∨ (Rect.block (s := S150x100) S150x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x100.size a ≤ S1x100.size a
  hwx1_4 : ∀ i : grid1.Coords, EltTy.bits .f32 = 32 ∨ (Rect.block (s := S1x100) S1x100.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S100x64.size a ≤ S100x64.size a
  hwx1_5 : ∀ i : grid1.Coords, EltTy.bits .f32 = 32 ∨ (Rect.block (s := S100x64) S100x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x150_S5000x150_1_0_0_1_n_n : DotDims S5000x128 S128x150 S5000x150 where
  lhsContracting := [1]
  rhsContracting := [0]
  lhsNonContracting := [0]
  rhsNonContracting := [1]
  lhsBatch := []
  rhsBatch := []
  wf := dot_S5000x128_S128x150_S5000x150_1_0_0_1_n_n_wf
def dot_S5000x150_S150x100_S5000x100_1_0_0_1_n_n : DotDims S5000x150 S150x100 S5000x100 where
  lhsContracting := [1]
  rhsContracting := [0]
  lhsNonContracting := [0]
  rhsNonContracting := [1]
  lhsBatch := []
  rhsBatch := []
  wf := dot_S5000x150_S150x100_S5000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S5000x100_S100x64_S5000x64_1_0_0_1_n_n : DotDims S5000x100 S100x64 S5000x64 where
  lhsContracting := [1]
  rhsContracting := [0]
  lhsNonContracting := [0]
  rhsNonContracting := [1]
  lhsBatch := []
  rhsBatch := []
  wf := dot_S5000x100_S100x64_S5000x64_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x150.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x150.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S150x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28_0) S5000x150.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28_1) S5000x100.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28_0) S5000x150.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S150x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S100x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x150 : Shape := ⟨2, ![128, 150]⟩
abbrev S150 : Shape := ⟨1, ![150]⟩
abbrev S150x100 : Shape := ⟨2, ![150, 100]⟩
abbrev S100 : Shape := ⟨1, ![100]⟩
abbrev S100x64 : Shape := ⟨2, ![100, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x150 : Shape := ⟨2, ![50000, 150]⟩
abbrev S1x150 : Shape := ⟨2, ![1, 150]⟩
abbrev S800000x150 : Shape := ⟨2, ![800000, 150]⟩
abbrev S50000x100 : Shape := ⟨2, ![50000, 100]⟩
abbrev S1x100 : Shape := ⟨2, ![1, 100]⟩
abbrev S50000x64 : Shape := ⟨2, ![50000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x150, .f32⟩
  | .hbm, ⟨4, _⟩ => ⟨S150, .f32⟩
  | .hbm, ⟨5, _⟩ => ⟨S150x100, .f32⟩
  | .hbm, ⟨6, _⟩ => ⟨S150x100, .f32⟩
  | .hbm, ⟨7, _⟩ => ⟨S100, .f32⟩
  | .hbm, ⟨8, _⟩ => ⟨S100x64, .f32⟩
  | .hbm, ⟨9, _⟩ => ⟨S64, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S50000x150, .f32⟩
  | .hbm, ⟨48, _⟩ => ⟨S1x150, .f32⟩
  | .hbm, ⟨49, _⟩ => ⟨S50000x150, .f32⟩
  | .hbm, ⟨50, _⟩ => ⟨S50000x150, .f32⟩
  | .hbm, ⟨51, _⟩ => ⟨S_, .f32⟩
  | .hbm, ⟨52, _⟩ => ⟨S50000x150, .f32⟩
  | .hbm, ⟨53, _⟩ => ⟨S50000x150, .i1⟩
  | .hbm, ⟨54, _⟩ => ⟨S_, .f32⟩
  | .hbm, ⟨55, _⟩ => ⟨S50000x150, .f32⟩
  | .hbm, ⟨56, _⟩ => ⟨S50000x150, .i1⟩
  | .hbm, ⟨57, _⟩ => ⟨S_, .f32⟩
  | .hbm, ⟨58, _⟩ => ⟨S_, .f32⟩
  | .hbm, ⟨59, _⟩ => ⟨S50000x150, .f32⟩
  | .hbm, ⟨60, _⟩ => ⟨S50000x150, .f32⟩
  | .hbm, ⟨61, _⟩ => ⟨S50000x150, .f32⟩
  | .hbm, ⟨62, _⟩ => ⟨S_, .f32⟩
  | .hbm, ⟨63, _⟩ => ⟨S50000x150, .f32⟩
  | .hbm, ⟨64, _⟩ => ⟨S50000x150, .f32⟩
  | .hbm, ⟨65, _⟩ => ⟨S50000x150, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x150, .f32⟩
  | .hbm, ⟨75, _⟩ => ⟨S_, .f32⟩
  | .hbm, ⟨76, _⟩ => ⟨S50000x150, .f32⟩
  | .hbm, ⟨77, _⟩ => ⟨S800000x1, .i32⟩
  | .hbm, ⟨78, _⟩ => ⟨S50000x150, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000x1, .f32⟩
  | .hbm, ⟨83, _⟩ => ⟨S50000x150, .f32⟩
  | .hbm, ⟨84, _⟩ => ⟨S50000x150, .f32⟩
  | .hbm, ⟨85, _⟩ => ⟨S50000x100, .f32⟩
  | .hbm, ⟨86, _⟩ => ⟨S50000x100, .f32⟩
  | .hbm, ⟨87, _⟩ => ⟨S50000x100, .f32⟩
  | .hbm, ⟨88, _⟩ => ⟨S1x100, .f32⟩
  | .hbm, ⟨89, _⟩ => ⟨S50000x100, .f32⟩
  | .hbm, ⟨90, _⟩ => ⟨S50000x100, .f32⟩
  | .hbm, ⟨91, _⟩ => ⟨S_, .f32⟩
  | .hbm, ⟨92, _⟩ => ⟨S50000x100, .f32⟩
  | .hbm, ⟨93, _⟩ => ⟨S50000x100, .i1⟩
  | .hbm, ⟨94, _⟩ => ⟨S_, .f32⟩
  | .hbm, ⟨95, _⟩ => ⟨S50000x100, .f32⟩
  | .hbm, ⟨96, _⟩ => ⟨S50000x100, .i1⟩
  | .hbm, ⟨97, _⟩ => ⟨S_, .f32⟩
  | .hbm, ⟨98, _⟩ => ⟨S_, .f32⟩
  | .hbm, ⟨99, _⟩ => ⟨S50000x100, .f32⟩
  | .hbm, ⟨100, _⟩ => ⟨S50000x100, .f32⟩
  | .hbm, ⟨101, _⟩ => ⟨S50000x100, .f32⟩
  | .hbm, ⟨102, _⟩ => ⟨S_, .f32⟩
  | .hbm, ⟨103, _⟩ => ⟨S50000x100, .f32⟩
  | .hbm, ⟨104, _⟩ => ⟨S50000x100, .f32⟩
  | .hbm, ⟨105, _⟩ => ⟨S50000x100, .f32⟩
  | .hbm, ⟨106, _⟩ => ⟨S50000x64, .f32⟩
  | .hbm, ⟨107, _⟩ => ⟨S1x64, .f32⟩
  | .hbm, ⟨108, _⟩ => ⟨S50000x64, .f32⟩
  | .hbm, ⟨109, _⟩ => ⟨S50000x64, .f32⟩
  | .hbm, ⟨110, _⟩ => ⟨S_, .f32⟩
  | .hbm, ⟨111, _⟩ => ⟨S50000x64, .f32⟩
  | .hbm, ⟨112, _⟩ => ⟨S50000x64, .i1⟩
  | .hbm, ⟨113, _⟩ => ⟨S_, .f32⟩
  | .hbm, ⟨114, _⟩ => ⟨S50000x64, .f32⟩
  | .hbm, ⟨115, _⟩ => ⟨S50000x64, .i1⟩
  | .hbm, ⟨116, _⟩ => ⟨S_, .f32⟩
  | .hbm, ⟨117, _⟩ => ⟨S_, .f32⟩
  | .hbm, ⟨118, _⟩ => ⟨S50000x64, .f32⟩
  | .hbm, ⟨119, _⟩ => ⟨S50000x64, .f32⟩
  | .hbm, ⟨120, _⟩ => ⟨S50000x64, .f32⟩
  | .hbm, ⟨121, _⟩ => ⟨S_, .f32⟩
  | .hbm, ⟨122, _⟩ => ⟨S50000x64, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_cst_1 : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_v4 : Ref sig .tc := ⟨.hbm, 60, rfl⟩
abbrev main_call0_v5 : Ref sig .tc := ⟨.hbm, 61, rfl⟩
abbrev main_call0_cst_2 : Ref sig .tc := ⟨.hbm, 62, rfl⟩
abbrev main_call0_v6 : Ref sig .tc := ⟨.hbm, 63, rfl⟩
abbrev main_call0_v7 : Ref sig .tc := ⟨.hbm, 64, rfl⟩
abbrev main_v33 : Ref sig .tc := ⟨.hbm, 65, rfl⟩
abbrev main_c_6 : Ref sig .tc := ⟨.hbm, 66, rfl⟩
abbrev main_v34 : Ref sig .tc := ⟨.hbm, 67, rfl⟩
abbrev main_v35 : Ref sig .tc := ⟨.hbm, 68, rfl⟩
abbrev main_c_7 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_9 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_cst_0 : Ref sig .tc := ⟨.hbm, 94, rfl⟩
abbrev main_call1_v2 : Ref sig .tc := ⟨.hbm, 95, rfl⟩
abbrev main_call1_v3 : Ref sig .tc := ⟨.hbm, 96, rfl⟩
abbrev main_call1_cst_1 : Ref sig .tc := ⟨.hbm, 97, rfl⟩
abbrev main_call1_call0_v0 : Ref sig .tc := ⟨.hbm, 98, rfl⟩
abbrev main_call1_call0_v1 : Ref sig .tc := ⟨.hbm, 99, rfl⟩
abbrev main_call1_v4 : Ref sig .tc := ⟨.hbm, 100, rfl⟩
abbrev main_call1_v5 : Ref sig .tc := ⟨.hbm, 101, rfl⟩
abbrev main_call1_cst_2 : Ref sig .tc := ⟨.hbm, 102, rfl⟩
abbrev main_call1_v6 : Ref sig .tc := ⟨.hbm, 103, rfl⟩
abbrev main_call1_v7 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_call2_cst : Ref sig .tc := ⟨.hbm, 110, rfl⟩
abbrev main_call2_v0 : Ref sig .tc := ⟨.hbm, 111, rfl⟩
abbrev main_call2_v1 : Ref sig .tc := ⟨.hbm, 112, rfl⟩
abbrev main_call2_cst_0 : Ref sig .tc := ⟨.hbm, 113, rfl⟩
abbrev main_call2_v2 : Ref sig .tc := ⟨.hbm, 114, rfl⟩
abbrev main_call2_v3 : Ref sig .tc := ⟨.hbm, 115, rfl⟩
abbrev main_call2_cst_1 : Ref sig .tc := ⟨.hbm, 116, rfl⟩
abbrev main_call2_call0_v0 : Ref sig .tc := ⟨.hbm, 117, rfl⟩
abbrev main_call2_call0_v1 : Ref sig .tc := ⟨.hbm, 118, rfl⟩
abbrev main_call2_v4 : Ref sig .tc := ⟨.hbm, 119, rfl⟩
abbrev main_call2_v5 : Ref sig .tc := ⟨.hbm, 120, rfl⟩
abbrev main_call2_cst_2 : Ref sig .tc := ⟨.hbm, 121, rfl⟩
abbrev main_call2_v6 : Ref sig .tc := ⟨.hbm, 122, rfl⟩
abbrev main_call2_v7 : Ref sig .tc := ⟨.hbm, 123, rfl⟩
abbrev main_v60 : Ref sig .tc := ⟨.hbm, 124, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S150_S1x150_1 : S150.BroadcastsInDim S1x150 (![1] : Fin 1 → Fin S1x150.rank)
  bcast_S1x150_S50000x150_0_1 : S1x150.BroadcastsInDim S50000x150 (![0, 1] : Fin 2 → Fin S50000x150.rank)
  bcast_S_S50000x150 : S_.BroadcastsInDim S50000x150 (![] : Fin 0 → Fin S50000x150.rank)
  bcast_S50000x1_S50000x150_0_1 : S50000x1.BroadcastsInDim S50000x150 (![0, 1] : Fin 2 → Fin S50000x150.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S50000x100 : S_.BroadcastsInDim S50000x100 (![] : Fin 0 → Fin S50000x100.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x150_S50000x150_1_0_0_1_n_n_wf : DotDims.WF S50000x128 S128x150 S50000x150 [1] [0] [0] [1] [] []
  gather_S50000x150_S800000x1_S800000x150_1_0_n_n_0_1_1150_wf : GatherDims.WF S50000x150 S800000x1 S800000x150 [1] [0] [] [0] [] 1 ![1, 150]
  scatter_S50000x150_S800000x1_S800000x150_1_0_0_1_wf : ScatterDims.WF S50000x150 S800000x1 S800000x150 [1] [0] [0] 1
  dot_S50000x150_S150x100_S50000x100_1_0_0_1_n_n_wf : DotDims.WF S50000x150 S150x100 S50000x100 [1] [0] [0] [1] [] []
  dot_S50000x100_S100x64_S50000x64_1_0_0_1_n_n_wf : DotDims.WF S50000x100 S100x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x150_S50000x150_1_0_0_1_n_n : DotDims S50000x128 S128x150 S50000x150 where
  lhsContracting := [1]
  rhsContracting := [0]
  lhsNonContracting := [0]
  rhsNonContracting := [1]
  lhsBatch := []
  rhsBatch := []
  wf := dot_S50000x128_S128x150_S50000x150_1_0_0_1_n_n_wf
def gather_S50000x150_S800000x1_S800000x150_1_0_n_n_0_1_1150 : GatherDims S50000x150 S800000x1 S800000x150 where
  offsetDims := [1]
  collapsedSliceDims := [0]
  operandBatchingDims := []
  startIndicesBatchingDims := []
  startIndexMap := [0]
  indexVectorDim := 1
  sliceSizes := ![1, 150]
  wf := gather_S50000x150_S800000x1_S800000x150_1_0_n_n_0_1_1150_wf
def scatter_S50000x150_S800000x1_S800000x150_1_0_0_1 : ScatterDims S50000x150 S800000x1 S800000x150 where
  updateWindowDims := [1]
  insertedWindowDims := [0]
  scatterDimsToOperandDims := [0]
  indexVectorDim := 1
  wf := scatter_S50000x150_S800000x1_S800000x150_1_0_0_1_wf
def dot_S50000x150_S150x100_S50000x100_1_0_0_1_n_n : DotDims S50000x150 S150x100 S50000x100 where
  lhsContracting := [1]
  rhsContracting := [0]
  lhsNonContracting := [0]
  rhsNonContracting := [1]
  lhsBatch := []
  rhsBatch := []
  wf := dot_S50000x150_S150x100_S50000x100_1_0_0_1_n_n_wf
def dot_S50000x100_S100x64_S50000x64_1_0_0_1_n_n : DotDims S50000x100 S100x64 S50000x64 where
  lhsContracting := [1]
  rhsContracting := [0]
  lhsNonContracting := [0]
  rhsNonContracting := [1]
  lhsBatch := []
  rhsBatch := []
  wf := dot_S50000x100_S100x64_S50000x64_1_0_0_1_n_n_wf

class Facts : Prop extends Facts₀ where

variable [Facts]
-- ==== Proof.Spec.lean ====
/-
  The mathematics of the two programs, index by index, with no program in sight.

  A graph of 50000 nodes and 800000 directed edges (src e → dst e) carries a 128-wide feature row per node. Both
  programs compute, per node, three dense layers with the exponential-linear unit between them, the first two fed by
  sums over incoming edges:
    deg idx p   the number of edges whose index is p (as a sum of ones), dd = max deg 1, norm = dd^(-1/2);
    agg p k     the sum over edges into p of x[row e, k] · norm_out[row e], row e the source row of edge e;
    h1  n j     elu (Σ_k (agg n k · norm_in n) · W1 k j + b1 j);
    out n j     elu (Σ_k elu ((Σ_k' h1 n k' · Ws k' k) + mid n k + b2 k) · W3 k j + b3 j).
  The two programs differ in the middle addend only. One projects first and aggregates afterwards,
    midProj n k = (Σ_{e into n} Σ_k' h1 (row e) k' · Wn k' k) / dd n,
  the other aggregates first, takes the mean, and projects afterwards,
    midMean n k = Σ_k' ((Σ_{e into n} h1 (row e) k') / dd n) · Wn k' k.
  Where every h1 entry and every Wn entry is a real number and dd n is a real number other than zero these agree:
  a finite sum of reals times a real distributes, finite sums commute, and division by a real other than zero is a
  product with its inverse.
-/
import Idealize.ShloMosaic.PureOps.Ideal
import Idealize.ShloMosaic.PureOps.Ideal.Laws
import Idealize.ShloMosaic.Lib.ValueIdx

noncomputable section

open scoped BigOperators

namespace Gnn

open Idealize.ShloMosaic Idealize.ShloMosaic.ValueIdx

/-- A matrix of extended reals with r rows and c columns. -/
abbrev Mat (r c : ℕ) : Type := (⟨2, ![r, c]⟩ : Shape).Idx → EReal
/-- A vector of n extended reals. -/
abbrev Arr (n : ℕ) : Type := (⟨1, ![n]⟩ : Shape).Idx → EReal
/-- One 32-bit index per edge. -/
abbrev Ids : Type := (⟨1, ![800000]⟩ : Shape).Idx → BitVec 32

/-- The exponential-linear unit as both programs spell its outer choice: y where the comparison y > 0 holds,
    e^y - 1 elsewhere. -/
def elu (y : EReal) : EReal :=
  Scalar.select (FloatOps.cmpf (F := Ideal) (φ := .f32) .ogt y 0) y (Ideal.exp y - 1)

/-- The edges whose index, read signed and not clamped, is the node p: the updates a scatter lands at row p. -/
def edgesAt (idx : Ids) (p : Fin 50000) : Finset (Fin 800000) :=
  Finset.univ.filter fun e => (idx (ix1 e)).toInt = (p.val : Int)

/-- The degree: zero plus a one for every edge at p. -/
def degAt (idx : Ids) (p : Fin 50000) : EReal := 0 + ∑ _e ∈ edgesAt idx p, (1 : EReal)
/-- The degree clamped below by one. -/
def ddAt (idx : Ids) (p : Fin 50000) : EReal := max (degAt idx p) 1
/-- The inverse square root of the clamped degree. -/
def normAt (idx : Ids) (p : Fin 50000) : EReal := Ideal.rsqrt (ddAt idx p)

/-- A negative index counts from the end: s + 50000 where s < 0 (signed), s elsewhere. -/
def wrap (s : BitVec 32) : BitVec 32 :=
  Scalar.select (IntOp.cmpi .slt s 0#32) (IntOp.addi s 50000#32) s

/-- The row a gather reads for edge e: the wrapped index read signed and clamped into [0, 49999]. -/
def rowOf (src : Ids) (e : Fin 800000) : Fin 50000 :=
  ⟨min (wrap (src (ix1 e))).toInt.toNat (50000 - 1), by omega⟩

/-- The first aggregation: over the edges into p, the source row of x scaled by its out-norm. -/
def aggAt (x : Mat 50000 128) (src dst : Ids) (p : Fin 50000) (k : Fin 128) : EReal :=
  0 + ∑ e ∈ edgesAt dst p, x (ix2 (rowOf src e) k) * normAt src (rowOf src e)

/-- The first layer at (n, j). -/
def h1At (x : Mat 50000 128) (src dst : Ids) (W1 : Mat 128 150) (b1 : Arr 150) (n : Fin 50000) (j : Fin 150) : EReal :=
  elu ((∑ k : Fin 128, (aggAt x src dst n k * normAt dst n) * W1 (ix2 k j)) + b1 (ix1 j))

/-- The projected first layer at (n, j). -/
def projAt (H : Fin 50000 → Fin 150 → EReal) (Wn : Mat 150 100) (n : Fin 50000) (j : Fin 100) : EReal :=
  ∑ k : Fin 150, H n k * Wn (ix2 k j)

/-- Project, aggregate over incoming edges, divide by the clamped in-degree. -/
def midProj (H : Fin 50000 → Fin 150 → EReal) (src dst : Ids) (Wn : Mat 150 100) (n : Fin 50000) (k : Fin 100) : EReal :=
  Ideal.div (0 + ∑ e ∈ edgesAt dst n, projAt H Wn (rowOf src e) k) (ddAt dst n)

/-- Aggregate over incoming edges, divide by the clamped in-degree, project. -/
def midMean (H : Fin 50000 → Fin 150 → EReal) (src dst : Ids) (Wn : Mat 150 100) (n : Fin 50000) (k : Fin 100) : EReal :=
  ∑ k' : Fin 150, Ideal.div (0 + ∑ e ∈ edgesAt dst n, H (rowOf src e) k') (ddAt dst n) * Wn (ix2 k' k)

/-- The last two layers at (n, j), over a first layer H and a middle addend mid. -/
def outAt (H : Fin 50000 → Fin 150 → EReal) (mid : Fin 50000 → Fin 100 → EReal) (Ws : Mat 150 100) (b2 : Arr 100)
    (W3 : Mat 100 64) (b3 : Arr 64) (n : Fin 50000) (j : Fin 64) : EReal :=
  elu ((∑ k : Fin 100, elu (((∑ k' : Fin 150, H n k' * Ws (ix2 k' k)) + mid n k) + b2 (ix1 k)) * W3 (ix2 k j))
    + b3 (ix1 j))

/-- The result array over a first layer and a middle addend. -/
def outArr (H : Fin 50000 → Fin 150 → EReal) (mid : Fin 50000 → Fin 100 → EReal) (Ws : Mat 150 100) (b2 : Arr 100)
    (W3 : Mat 100 64) (b3 : Arr 64) : Mat 50000 64 :=
  fun i => outAt H mid Ws b2 W3 b3 ⟨(i 0).val, idx2_lt0 i⟩ ⟨(i 1).val, idx2_lt1 i⟩

theorem outArr_apply (H : Fin 50000 → Fin 150 → EReal) (mid : Fin 50000 → Fin 100 → EReal) (Ws : Mat 150 100)
    (b2 : Arr 100) (W3 : Mat 100 64) (b3 : Arr 64) (n : Fin 50000) (j : Fin 64) :
    outArr H mid Ws b2 W3 b3 (ix2 n j) = outAt H mid Ws b2 W3 b3 n j := rfl

/-- The result of the program that projects first. -/
def resProj (x : Mat 50000 128) (src dst : Ids) (W1 : Mat 128 150) (b1 : Arr 150) (Wn Ws : Mat 150 100) (b2 : Arr 100)
    (W3 : Mat 100 64) (b3 : Arr 64) : Mat 50000 64 :=
  outArr (h1At x src dst W1 b1) (midProj (h1At x src dst W1 b1) src dst Wn) Ws b2 W3 b3

/-- The result of the program that takes the mean first. -/
def resMean (x : Mat 50000 128) (src dst : Ids) (W1 : Mat 128 150) (b1 : Arr 150) (Wn Ws : Mat 150 100) (b2 : Arr 100)
    (W3 : Mat 100 64) (b3 : Arr 64) : Mat 50000 64 :=
  outArr (h1At x src dst W1 b1) (midMean (h1At x src dst W1 b1) src dst Wn) Ws b2 W3 b3

/-- Every entry a real number. -/
def AllReal {ι : Type} (f : ι → EReal) : Prop := ∀ i, ∃ r : ℝ, f i = (r : EReal)

end Gnn

end
-- ==== Proof.Args.lean ====
/-
  The ten argument arrays of a launch memory, at their literal types: the node features x, the edge sources and
  destinations, and the weights and biases of the three layers — once for each of the two idealized programs.
-/
import proofs.«407557_j3874060501607_3_alg».proof.KernelIdeal
import proofs.«407557_j3874060501607_3_alg».proof.ReferenceIdeal
import proofs.«407557_j3874060501607_3_alg».proof.Proof.Spec

noncomputable section

open Idealize.ShloMosaic Idealize.ShloMosaic.TcCoe Idealize.SL.Sem

namespace Cert.KernelIdeal.Args

open Cert.KernelIdeal

variable (m : (ℓ : Loc nD τ sig) → Buf (Elt Ideal) ℓ) (c : Dev nD)

abbrev x : Gnn.Mat 50000 128 := m ((c.tc : Thread nD τ).loc main_arg0)
abbrev src : Gnn.Ids := m ((c.tc : Thread nD τ).loc main_arg1)
abbrev dst : Gnn.Ids := m ((c.tc : Thread nD τ).loc main_arg2)
abbrev W1 : Gnn.Mat 128 150 := m ((c.tc : Thread nD τ).loc main_arg3)
abbrev b1 : Gnn.Arr 150 := m ((c.tc : Thread nD τ).loc main_arg4)
abbrev Wn : Gnn.Mat 150 100 := m ((c.tc : Thread nD τ).loc main_arg5)
abbrev Ws : Gnn.Mat 150 100 := m ((c.tc : Thread nD τ).loc main_arg6)
abbrev b2 : Gnn.Arr 100 := m ((c.tc : Thread nD τ).loc main_arg7)
abbrev W3 : Gnn.Mat 100 64 := m ((c.tc : Thread nD τ).loc main_arg8)
abbrev b3 : Gnn.Arr 64 := m ((c.tc : Thread nD τ).loc main_arg9)

end Cert.KernelIdeal.Args

namespace Cert.ReferenceIdeal.Args

open Cert.ReferenceIdeal

variable (m : (ℓ : Loc nD τ sig) → Buf (Elt Ideal) ℓ) (c : Dev nD)

abbrev x : Gnn.Mat 50000 128 := m ((c.tc : Thread nD τ).loc main_arg0)
abbrev src : Gnn.Ids := m ((c.tc : Thread nD τ).loc main_arg1)
abbrev dst : Gnn.Ids := m ((c.tc : Thread nD τ).loc main_arg2)
abbrev W1 : Gnn.Mat 128 150 := m ((c.tc : Thread nD τ).loc main_arg3)
abbrev b1 : Gnn.Arr 150 := m ((c.tc : Thread nD τ).loc main_arg4)
abbrev Wn : Gnn.Mat 150 100 := m ((c.tc : Thread nD τ).loc main_arg5)
abbrev Ws : Gnn.Mat 150 100 := m ((c.tc : Thread nD τ).loc main_arg6)
abbrev b2 : Gnn.Arr 100 := m ((c.tc : Thread nD τ).loc main_arg7)
abbrev W3 : Gnn.Mat 100 64 := m ((c.tc : Thread nD τ).loc main_arg8)
abbrev b3 : Gnn.Arr 64 := m ((c.tc : Thread nD τ).loc main_arg9)

end Cert.ReferenceIdeal.Args

end
-- ==== Proof.KNames.lean ====
/-
  The arrays of the two dense regions at their literal types, over whatever buffer contents V the region is entered
  with: each region's operand arrays as it finds them, and its result arrays as its ten grid points leave them.
-/
import proofs.«407557_j3874060501607_3_alg».proof.Proof.Gen.KernelIdeal.Frame
import proofs.«407557_j3874060501607_3_alg».proof.Proof.Spec

noncomputable section

open scoped BigOperators
open Idealize.ShloMosaic Idealize.ShloMosaic.TcCoe Idealize.SL.Sem Idealize.ShloMosaic.ValueIdx
open Cert.KernelIdeal
namespace Cert.KernelIdeal.KNames

variable (V : (c : Dev nD) → (b : Ref sig .tc) → Buf (Elt Ideal) ((c : Thread nD τ).loc b)) (c : Dev nD)

/-! The first region: aggregate, norm column, W1, bias row, Wn; the first layer and its projection. -/
abbrev agg0 : Gnn.Mat 50000 128 := V c main_v25
abbrev ncol0 : Gnn.Mat 50000 1 := V c main_v26
abbrev w1_0 : Gnn.Mat 128 150 := V c main_arg3
abbrev brow0 : Gnn.Mat 1 150 := V c main_v27
abbrev wn0 : Gnn.Mat 150 100 := V c main_arg5
abbrev h1out : Gnn.Mat 50000 150 := (Gen.dat0 (F := Ideal) V c).arrAt 5 cfg0.N
abbrev pout : Gnn.Mat 50000 100 := (Gen.dat0 (F := Ideal) V c).arrAt 6 cfg0.N

/-! The second region: first layer, aggregated projection, degree column, Ws, bias row, W3, bias row; the result. -/
abbrev h1in : Gnn.Mat 50000 150 := V c main_v28_0
abbrev nsp1 : Gnn.Mat 50000 100 := V c main_v38
abbrev dcol1 : Gnn.Mat 50000 1 := V c main_v39
abbrev ws1 : Gnn.Mat 150 100 := V c main_arg6
abbrev b2row1 : Gnn.Mat 1 100 := V c main_v40
abbrev w3_1 : Gnn.Mat 100 64 := V c main_arg8
abbrev b3row1 : Gnn.Mat 1 64 := V c main_v41
abbrev res1 : Gnn.Mat 50000 64 := (Gen.dat1 (F := Ideal) V c).arrAt 7 cfg1.N

/-! Other buffers the second host stretch reads. -/
abbrev dd1d : Gnn.Arr 50000 := V c main_v10
abbrev srcB : Gnn.Ids := V c main_arg1
abbrev dstB : Gnn.Ids := V c main_arg2
abbrev b2B : Gnn.Arr 100 := V c main_arg7
abbrev b3B : Gnn.Arr 64 := V c main_arg9
abbrev pin : Gnn.Mat 50000 100 := V c main_v28_1

end Cert.KernelIdeal.KNames

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.LibGatherRows.lean ====
/-
  THE HOST'S GATHER OF WHOLE ROWS READ AT AN INDEX: operand [P, C], start indices [N, 1] with the index vector on
  axis 1, result [N, C]; offset axes [1], collapsed slice axes [0], start index map [0], slice sizes [1, C], no
  batching axes. Result element (n, ch) is the operand at row idx[n, 0], read signed and clamped into [0, P - 1], and
  column ch. The extents and the index width are variables; the dimension numbers are known only through the
  equations on their lists.
-/
import Idealize.ShloMosaic.PureOps.ShapeOps
import Idealize.ShloMosaic.Lib.ValueIdx

namespace Idealize.ShloMosaic.GatherRows

open Idealize.ShloMosaic Idealize.ShloMosaic.ValueIdx

/-! ## A list with one entry -/

/-- Every entry of a list that equals a one-entry list is that entry. -/
theorem getElem_singleton_of_eq {α : Type} {l : List α} {a : α} (h : l = [a]) (k : Nat) (hk : k < l.length) :
    l[k] = a := by
  subst h
  have hk0 : k = 0 := by simpa using hk
  subst hk0
  rfl

/-! ## The general gather: the start-indices index of a result index, axis by axis -/

section General
variable {s si t : Shape} (d : GatherDims s si t)

/-- On the index vector's axis the start-indices index has the component's number. -/
theorem siIdx_val_of_eq (j : t.Idx) (c : Fin d.startIndexMap.length) (b : Fin si.rank)
    (hb : b.val = d.indexVectorDim) : (d.siIdx j c b).val = c.val := by
  unfold GatherDims.siIdx
  rw [dif_pos hb]

/-- With one result batch axis a, the start-indices index has, off the index vector's axis, the result index's
    coordinate on a. -/
theorem siIdx_val_of_ne (j : t.Idx) (c : Fin d.startIndexMap.length) (b : Fin si.rank)
    (hb : ¬ b.val = d.indexVectorDim) (a : Fin t.rank) (ha : d.batchDims = [a]) :
    (d.siIdx j c b).val = (j a).val := by
  unfold GatherDims.siIdx
  rw [dif_neg hb]
  unfold GatherDims.siCoord
  exact congrArg (fun e => (j e).val) (getElem_singleton_of_eq ha _ _)

/-- With one offset axis b, the offset coordinate on a kept operand axis is the result index's coordinate on b. -/
theorem offCoord_of_singleton (j : t.Idx) (a : Fin s.rank) (ha : a ∈ d.sKept) (b : Fin t.rank)
    (hb : d.offsetDims = [b]) : d.offCoord j a = (j b).val := by
  unfold GatherDims.offCoord
  rw [dif_pos ha]
  exact congrArg (fun e => (j e).val) (getElem_singleton_of_eq hb _ _)

end General

/-! ## Operand [P, C], start indices [N, 1], result [N, C] -/

/-- THE GATHER READ AT (n, ch): the operand at the clamped start row and the same column. -/
theorem gather_rows_apply {α : Type} {P C N w : Nat} (hP : 0 < P)
    (d : GatherDims (⟨2, ![P, C]⟩ : Shape) (⟨2, ![N, 1]⟩ : Shape) (⟨2, ![N, C]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![P, C]⟩ : Shape).Idx → α) (idx : IVec (⟨2, ![N, 1]⟩ : Shape) w) (n : Fin N) (ch : Fin C) :
    Host.gather d x idx (ix2 n ch)
      = x (ix2 (⟨min (idx (ix2 n (0 : Fin 1))).toInt.toNat (P - 1), by omega⟩ : Fin P) ch) := by
  have h10 : ¬ (1 : Fin 2) = 0 := fun h => absurd (congrArg Fin.val h) Nat.one_ne_zero
  -- no operand axis is a batching axis
  have hnb : ∀ a : Fin 2, a ∉ d.operandBatchingDims := fun a h => by rw [hob] at h; exact List.not_mem_nil h
  -- axis 0 is the one start axis and is collapsed; axis 1 is the one kept axis
  have h0mem : (0 : Fin 2) ∈ d.startIndexMap := by rw [hsm]; exact List.mem_singleton.2 rfl
  have h1nmem : (1 : Fin 2) ∉ d.startIndexMap := by rw [hsm]; exact fun h => h10 (List.mem_singleton.1 h)
  have h0k : (0 : Fin 2) ∉ d.sKept := fun h =>
    ((d.mem_sKept 0).1 h).1 (by rw [hcs]; exact List.mem_singleton.2 rfl)
  have h1k : (1 : Fin 2) ∈ d.sKept :=
    (d.mem_sKept 1).2 ⟨by rw [hcs]; exact fun h => h10 (List.mem_singleton.1 h), hnb 1⟩
  -- the result's one batch axis is axis 0
  have hbd : d.batchDims = [0] := by
    show Shape.kept _ d.offsetDims = [0]
    rw [hod]; rfl
  -- the start-indices index of (n, ch) is [n, 0], whatever the component
  have hsi : ∀ c : Fin d.startIndexMap.length, d.siIdx (ix2 n ch) c = ix2 n (0 : Fin 1) := by
    intro c
    funext b
    refine Fin.ext ?_
    match b with
    | ⟨0, hb⟩ =>
      rw [siIdx_val_of_ne d (ix2 n ch) c ⟨0, hb⟩ (by rw [hiv]; exact Nat.zero_ne_one) 0 hbd]
      rfl
    | ⟨1, hb⟩ =>
      have h1 : (d.siIdx (ix2 n ch) c ⟨1, hb⟩).val < 1 := (d.siIdx (ix2 n ch) c ⟨1, hb⟩).isLt
      show (d.siIdx (ix2 n ch) c ⟨1, hb⟩).val = 0
      omega
  unfold Host.gather
  congr 1
  funext a
  refine Fin.ext ?_
  match a with
  | ⟨0, _⟩ =>
    show d.start (ix2 n ch) idx 0 + d.batchCoord (ix2 n ch) 0 + d.offCoord (ix2 n ch) 0
      = min (idx (ix2 n (0 : Fin 1))).toInt.toNat (P - 1)
    rw [d.batchCoord_eq_zero _ _ (hnb 0), d.offCoord_eq_zero _ _ h0k]
    simp only [Nat.add_zero]
    unfold GatherDims.start
    rw [dif_pos h0mem, hsi, hss]
    rfl
  | ⟨1, _⟩ =>
    show d.start (ix2 n ch) idx 1 + d.batchCoord (ix2 n ch) 1 + d.offCoord (ix2 n ch) 1 = ch.val
    rw [d.batchCoord_eq_zero _ _ (hnb 1), offCoord_of_singleton d _ _ h1k 1 hod]
    simp only [Nat.add_zero]
    unfold GatherDims.start
    rw [dif_neg h1nmem, Nat.zero_add]
    rfl

end Idealize.ShloMosaic.GatherRows
-- ==== Proof.KHost0.lean ====
/-
  What the first stretch of host operations leaves for the first dense region, read index by index: the aggregated
  scaled features, the in-norm as a column, the first bias as a row, and the clamped in-degree the second stretch reads.

  The stretch computes, from the node features x and the edge arrays src and dst: the two degree vectors (zeros, with a
  one accumulated at every edge's index), each clamped below by one and sent through the inverse square root; the
  features with row r scaled by the out-norm of r; for every edge the scaled row of its source (the source index counted
  from the end when negative, then clamped into the node range); and those rows accumulated at the edges' destinations.
  Each of these arrays is named below as a function of the argument arrays and read at an index; the buffers the stretch
  leaves are then those functions of the launch memory's arguments, and the arguments themselves are untouched.
-/
import proofs.«407557_j3874060501607_3_alg».proof.Proof.Gen.KernelIdeal.Frame
import proofs.«407557_j3874060501607_3_alg».proof.Proof.Args
import proofs.«407557_j3874060501607_3_alg».proof.Proof.KNames
import proofs.«407557_j3874060501607_3_alg».proof.Proof.LibScatterSum
import proofs.«407557_j3874060501607_3_alg».proof.Proof.LibGatherRows
import Idealize.ShloMosaic.Lib.Pipeline.Value
import Idealize.ShloMosaic.Lib.IdealHost

noncomputable section

open scoped BigOperators
open Idealize.ShloMosaic Idealize.ShloMosaic.TcCoe Idealize.SL.Sem Idealize.ShloMosaic.ValueIdx
open Cert.KernelIdeal
namespace Cert.KernelIdeal.KHost0

variable (m : (ℓ : Loc nD τ sig) → Buf (Elt Ideal) ℓ) (ρ : Dev nD → PrngReg) (c : Dev nD)

/-! ## Two host operations at the ideal instance, over any operands -/

/-- The host's inverse square root at an index is the ideal inverse square root of the element. -/
theorem hostRsqrt_apply {s : Shape} {φ : FTy} (x : FVec Ideal s φ) (i : s.Idx) : Host.rsqrt x i = Ideal.rsqrt (x i) := rfl

/-- The host's accumulating scatter at the ideal instance is the exact sum. -/
theorem hostScatterAdd_eq {s si u : Shape} {φ : FTy} {w : Nat} (d : ScatterDims s si u) (x : FVec Ideal s φ) (idx : IVec si w)
    (upd : FVec Ideal u φ) : Host.scatterAdd d x idx upd = Ideal.hostScatterAdd d x idx upd := rfl

/-! ## The intermediate arrays of the stretch, as functions of the argument arrays -/

/-- The [800000, 1] column of a per-edge index array reads, at row e, the edge's index. -/
theorem col_apply (hI : S800000.BroadcastsInDim S800000x1 (![0] : Fin 1 → Fin S800000x1.rank)) (idx : IVec S800000 32)
    (e : Fin 800000) : broadcastInDim S800000x1 ![0] hI idx (ix2 e (0 : Fin 1)) = idx (ix1 e) :=
  broadcastInDim_apply ![0] hI idx (ix2 e (0 : Fin 1)) (ix1 e) fun a => by
    match a with
    | ⟨0, _⟩ => rfl

/-- The degree vector of an index array: zeros, and a one accumulated at every edge's index. -/
def degV (idx : IVec S800000 32) : FVec Ideal S50000 .f32 :=
  Host.scatterAdd scatter_S50000_S800000x1_S800000_n_0_0_1
    (broadcastInDim S50000 ![] Facts₀.bcast_S_S50000 (constant S_ .f32 0x00000000#32))
    (broadcastInDim S800000x1 ![0] Facts₀.bcast_S800000_S800000x1_0 idx)
    (broadcastInDim S800000 ![] Facts₀.bcast_S_S800000 (constant S_ .f32 0x3F800000#32))

/-- At node n it is zero plus a one for every edge whose index is n. -/
theorem degV_apply (idx : IVec S800000 32) (n : Fin 50000) : degV idx (ix1 n) = Gnn.degAt idx n := by
  unfold degV Gnn.degAt Gnn.edgesAt
  rw [hostScatterAdd_eq, ScatterSum.scatterAdd_flat_apply _ rfl rfl rfl rfl, broadcastInDim_scalar_apply, constant_apply,
    Ideal.ofBits_zero_f32]
  refine congrArg (fun t => (0 : EReal) + t) ?_
  refine Finset.sum_congr (Finset.filter_congr fun e _ => by rw [col_apply]) fun e _ => ?_
  rw [broadcastInDim_scalar_apply, constant_apply, Ideal.ofBits_one_f32]

/-- The degree vector clamped below by one. -/
def ddV (idx : IVec S800000 32) : FVec Ideal S50000 .f32 :=
  maximumf (degV idx) (broadcastInDim S50000 ![] Facts₀.bcast_S_S50000 (constant S_ .f32 0x3F800000#32))

theorem ddV_apply (idx : IVec S800000 32) (n : Fin 50000) : ddV idx (ix1 n) = Gnn.ddAt idx n := by
  unfold ddV Gnn.ddAt
  rw [maximumf_apply, degV_apply, broadcastInDim_scalar_apply, constant_apply, Ideal.ofBits_one_f32]

/-- The inverse square root of the clamped degree vector. -/
def normV (idx : IVec S800000 32) : FVec Ideal S50000 .f32 := Host.rsqrt (ddV idx)

theorem normV_apply (idx : IVec S800000 32) (n : Fin 50000) : normV idx (ix1 n) = Gnn.normAt idx n := by
  unfold normV Gnn.normAt
  rw [hostRsqrt_apply, ddV_apply]

/-- The features with every row scaled by its out-norm. -/
def scaledV (x : FVec Ideal S50000x128 .f32) (src : IVec S800000 32) : FVec Ideal S50000x128 .f32 :=
  mulf x (broadcastInDim S50000x128 ![0, 1] Facts₀.bcast_S50000x1_S50000x128_0_1
    (broadcastInDim S50000x1 ![0] Facts₀.bcast_S50000_S50000x1_0 (normV src)))

theorem scaledV_apply (x : FVec Ideal S50000x128 .f32) (src : IVec S800000 32) (r : Fin 50000) (k : Fin 128) :
    scaledV x src (ix2 r k) = x (ix2 r k) * Gnn.normAt src r := by
  unfold scaledV
  rw [mulf_apply,
    broadcastInDim_apply ![0, 1] _ _ (ix2 r k) (ix2 r (0 : Fin 1)) (fun a => by
      match a with
      | ⟨0, _⟩ => rfl
      | ⟨1, _⟩ => rfl),
    broadcastInDim_apply ![0] _ _ (ix2 r (0 : Fin 1)) (ix1 r) (fun a => by
      match a with
      | ⟨0, _⟩ => rfl),
    normV_apply]

/-- The source indices with the negative ones counted from the end. -/
def wrapV (src : IVec S800000 32) : IVec S800000 32 :=
  select (cmpi .slt src (broadcastInDim S800000 ![] Facts₀.bcast_S_S800000 (constantI S_ 32 0#32)))
    (addi src (broadcastInDim S800000 ![] Facts₀.bcast_S_S800000 (constantI S_ 32 50000#32))) src

theorem wrapV_apply (src : IVec S800000 32) (e : Fin 800000) : wrapV src (ix1 e) = Gnn.wrap (src (ix1 e)) := rfl

/-- The scaled source row of every edge. -/
def gathV (x : FVec Ideal S50000x128 .f32) (src : IVec S800000 32) : FVec Ideal S800000x128 .f32 :=
  Host.gather gather_S50000x128_S800000x1_S800000x128_1_0_n_n_0_1_1128 (scaledV x src)
    (broadcastInDim S800000x1 ![0] Facts₀.bcast_S800000_S800000x1_0 (wrapV src))

theorem gathV_apply (x : FVec Ideal S50000x128 .f32) (src : IVec S800000 32) (e : Fin 800000) (k : Fin 128) :
    gathV x src (ix2 e k) = x (ix2 (Gnn.rowOf src e) k) * Gnn.normAt src (Gnn.rowOf src e) := by
  unfold gathV
  rw [GatherRows.gather_rows_apply (by decide) _ rfl rfl rfl rfl rfl rfl rfl]
  have hrow : ∀ h : min ((broadcastInDim S800000x1 ![0] Facts₀.bcast_S800000_S800000x1_0 (wrapV src))
        (ix2 e (0 : Fin 1))).toInt.toNat (50000 - 1) < 50000,
      (⟨min ((broadcastInDim S800000x1 ![0] Facts₀.bcast_S800000_S800000x1_0 (wrapV src))
        (ix2 e (0 : Fin 1))).toInt.toNat (50000 - 1), h⟩ : Fin 50000) = Gnn.rowOf src e := fun h =>
    Fin.ext (by
      show min _ _ = min _ _
      rw [col_apply, wrapV_apply])
  rw [hrow, scaledV_apply]

/-- The aggregate: zeros, and every edge's scaled source row accumulated at the edge's destination. -/
def aggV (x : FVec Ideal S50000x128 .f32) (src dst : IVec S800000 32) : FVec Ideal S50000x128 .f32 :=
  Host.scatterAdd scatter_S50000x128_S800000x1_S800000x128_1_0_0_1
    (broadcastInDim S50000x128 ![] Facts₀.bcast_S_S50000x128 (constant S_ .f32 0x00000000#32))
    (broadcastInDim S800000x1 ![0] Facts₀.bcast_S800000_S800000x1_0 dst) (gathV x src)

theorem aggV_apply (x : FVec Ideal S50000x128 .f32) (src dst : IVec S800000 32) (p : Fin 50000) (k : Fin 128) :
    aggV x src dst (ix2 p k) = Gnn.aggAt x src dst p k := by
  unfold aggV Gnn.aggAt Gnn.edgesAt
  rw [hostScatterAdd_eq, ScatterSum.scatterAdd_rows_apply _ rfl rfl rfl rfl, broadcastInDim_scalar_apply, constant_apply,
    Ideal.ofBits_zero_f32]
  refine congrArg (fun t => (0 : EReal) + t) ?_
  exact Finset.sum_congr (Finset.filter_congr fun e _ => by rw [col_apply]) fun e _ => gathV_apply x src e k

/-! ## The buffers the stretch leaves, read at an index -/

theorem agg_apply (n : Fin 50000) (k : Fin 128) :
    KNames.agg0 (Gen.V1 (F := Ideal) m ρ) c (ix2 n k) = Gnn.aggAt (Args.x m c) (Args.src m c) (Args.dst m c) n k := by
  have e : KNames.agg0 (Gen.V1 (F := Ideal) m ρ) c = aggV (Args.x m c) (Args.src m c) (Args.dst m c) := by
    show StableHlo.after Gen.hostOps0 _ (Proc.devRef .tc main_v25) = _
    after_results_simp
    unfold aggV gathV scaledV wrapV normV ddV degV
    rfl
  rw [e, aggV_apply]

theorem ncol_apply (n : Fin 50000) :
    KNames.ncol0 (Gen.V1 (F := Ideal) m ρ) c (ix2 n (0 : Fin 1)) = Gnn.normAt (Args.dst m c) n := by
  have e : KNames.ncol0 (Gen.V1 (F := Ideal) m ρ) c
      = shapeCast S50000x1 (normV (Args.dst m c)) Facts₀.shapeCasts_S50000_S50000x1 := by
    show StableHlo.after Gen.hostOps0 _ (Proc.devRef .tc main_v26) = _
    after_results_simp
    unfold normV ddV degV
    rfl
  rw [e, shapeCast_apply _ _ (ix2 n (0 : Fin 1)) (ix1 n) (by
    rw [Shape.rowMajor_val_one, Shape.rowMajor_val_two]
    show n.val = n.val * 1 + 0
    omega), normV_apply]

theorem brow_apply (j : Fin 150) :
    KNames.brow0 (Gen.V1 (F := Ideal) m ρ) c (ix2 (0 : Fin 1) j) = Args.b1 m c (ix1 j) := by
  have e : KNames.brow0 (Gen.V1 (F := Ideal) m ρ) c = shapeCast S1x150 (Args.b1 m c) Facts₀.shapeCasts_S150_S1x150 := by
    show StableHlo.after Gen.hostOps0 _ (Proc.devRef .tc main_v27) = _
    after_results_simp
    rfl
  rw [e, shapeCast_apply _ _ (ix2 (0 : Fin 1) j) (ix1 j) (by
    rw [Shape.rowMajor_val_one, Shape.rowMajor_val_two]
    show j.val = 0 * 150 + j.val
    omega)]

theorem dd_apply (n : Fin 50000) :
    KNames.dd1d (Gen.V1 (F := Ideal) m ρ) c (ix1 n) = Gnn.ddAt (Args.dst m c) n := by
  have e : KNames.dd1d (Gen.V1 (F := Ideal) m ρ) c = ddV (Args.dst m c) := by
    show StableHlo.after Gen.hostOps0 _ (Proc.devRef .tc main_v10) = _
    after_results_simp
    unfold ddV degV
    rfl
  rw [e, ddV_apply]

/-! ## The arguments the stretch does not write -/

/-- A buffer none of the stretch's operations writes holds, after it, what the launch memory holds. -/
theorem unwritten (b : Ref sig .tc)
    (hb : ∀ op ∈ (Gen.hostOps0 : List (HloOp τ sig (Elt Ideal))), (Proc.devRef (τ := τ) .tc b) ∉ op.writes) :
    Gen.V1 (F := Ideal) m ρ c b = m ((c : Thread nD τ).loc b) :=
  (StableHlo.after_of_forall_not_mem (b := Proc.devRef .tc b) _ _ hb).trans rfl

/-- Decides, operation by operation, that a named buffer is not the one written. -/
local macro "not_written" : tactic =>
  `(tactic| (refine List.forall_iff_forall_mem.mp ?_
             simp only [Gen.hostOps0, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

theorem src_eq : KNames.srcB (Gen.V1 (F := Ideal) m ρ) c = Args.src m c := unwritten m ρ c main_arg1 (by not_written)
theorem dst_eq : KNames.dstB (Gen.V1 (F := Ideal) m ρ) c = Args.dst m c := unwritten m ρ c main_arg2 (by not_written)
theorem w1_eq : KNames.w1_0 (Gen.V1 (F := Ideal) m ρ) c = Args.W1 m c := unwritten m ρ c main_arg3 (by not_written)
theorem wn_eq : KNames.wn0 (Gen.V1 (F := Ideal) m ρ) c = Args.Wn m c := unwritten m ρ c main_arg5 (by not_written)
theorem ws_eq : KNames.ws1 (Gen.V1 (F := Ideal) m ρ) c = Args.Ws m c := unwritten m ρ c main_arg6 (by not_written)
theorem b2_eq : KNames.b2B (Gen.V1 (F := Ideal) m ρ) c = Args.b2 m c := unwritten m ρ c main_arg7 (by not_written)
theorem w3_eq : KNames.w3_1 (Gen.V1 (F := Ideal) m ρ) c = Args.W3 m c := unwritten m ρ c main_arg8 (by not_written)
theorem b3_eq : KNames.b3B (Gen.V1 (F := Ideal) m ρ) c = Args.b3 m c := unwritten m ρ c main_arg9 (by not_written)

end Cert.KernelIdeal.KHost0

end
-- ==== Proof.KReg0.lean ====
/-
  The first dense region as whole arrays: what its ten grid points leave in its two result arrays, index by index, over
  whatever the region finds in its five operand arrays. Row n of the first result is the exponential-linear unit of
  (row n of the aggregate, scaled by the norm column's entry) times W1 plus the bias row; row n of the second is that
  row times Wn.

  Three steps. (1) The body's arithmetic at one entry of a block: a product of matrices into a zero accumulator is the
  sum over the one contracted coordinate; a column broadcast along a row reads the column's entry; a one-row array
  broadcast down reads the row's entry; comparison, exponential, subtraction and choice act entry by entry and together
  are the exponential-linear unit. (2) Grid point t writes rows 5000 t … 5000 t + 4999: an entry (p, q) of a row block
  sits in the array at (5000 t + p, q), the weight and bias blocks are their whole arrays, so what point t writes back
  is the rows 5000 t … of ONE function of the whole arrays. (3) Row n lies in the block of point n / 5000, so the ten
  blocks cover the array and it ends holding that function everywhere.
-/
import proofs.«407557_j3874060501607_3_alg».proof.Proof.Gen.KernelIdeal.Frame
import proofs.«407557_j3874060501607_3_alg».proof.Proof.KNames
import Idealize.ShloMosaic.Lib.Pipeline.Value
import Idealize.ShloMosaic.PureOps.Ideal.Laws
import Idealize.ShloMosaic.Lib.IdealHost

noncomputable section

open scoped BigOperators
open Idealize.ShloMosaic Idealize.ShloMosaic.TcCoe Idealize.SL.Sem Idealize.ShloMosaic.ValueIdx
open Cert.KernelIdeal Cert.KernelIdeal.KNames
namespace Cert.KernelIdeal.KReg0

variable (V : (c : Dev nD) → (b : Ref sig .tc) → Buf (Elt Ideal) ((c : Thread nD τ).loc b)) (c : Dev nD)

/-! ## The two products at an index -/

/-- The first product's dimension numbers: 5000 rows of 128 against 128 rows of 150. -/
abbrev dA := dot_S5000x128_S128x150_S5000x150_1_0_0_1_n_n
/-- The second product's dimension numbers: 5000 rows of 150 against 150 rows of 100. -/
abbrev dB := dot_S5000x150_S150x100_S5000x100_1_0_0_1_n_n

/-- The left operand is read at the result's row … -/
theorem dA_lhs0 (j : S5000x150.Idx) (k : dA.contr.Idx) : (dA.lhsIdx j k 0).val = (j 0).val := by
  simp [DotDims.lhsIdx, dot_S5000x128_S128x150_S5000x150_1_0_0_1_n_n]; rfl
/-- … and at the contracted coordinate; -/
theorem dA_lhs1 (j : S5000x150.Idx) (k : dA.contr.Idx) : (dA.lhsIdx j k 1).val = (k ⟨0, by decide⟩).val :=
  dA.lhsIdx_val_of_single (cl := 1) rfl j k
/-- the right operand at the contracted coordinate … -/
theorem dA_rhs0 (j : S5000x150.Idx) (k : dA.contr.Idx) : (dA.rhsIdx j k 0).val = (k ⟨0, by decide⟩).val :=
  dA.rhsIdx_val_of_single (cr := 0) rfl j k
/-- … and at the result's column. -/
theorem dA_rhs1 (j : S5000x150.Idx) (k : dA.contr.Idx) : (dA.rhsIdx j k 1).val = (j 1).val := by
  simp [DotDims.rhsIdx, dot_S5000x128_S128x150_S5000x150_1_0_0_1_n_n]; rfl

/-- The first product into the zero accumulator, at (p, j): the sum over the 128 contracted coordinates. -/
theorem mmA_apply (A : FVec Ideal S5000x128 .f32) (B : FVec Ideal S128x150 .f32) (p : Fin 5000) (j : Fin 150) :
    FloatOps.matmul dA none A B (constant (F := Ideal) S5000x150 .f32 0x00000000#32) (ix2 p j)
      = ∑ k : Fin 128, A (ix2 p k) * B (ix2 k j) := by
  rw [Ideal.matmul_constant_zero_apply, ← Equiv.sum_comp (contrEquiv1 dA 128 rfl rfl).symm]
  refine Finset.sum_congr rfl fun k _ => ?_
  have ck := contrEquiv1_symm_val dA 128 rfl rfl k
  have l : dA.lhsIdx (ix2 p j) ((contrEquiv1 dA 128 rfl rfl).symm k) = ix2 p k := by
    funext ax; apply Fin.ext
    match ax with
    | ⟨0, _⟩ => exact dA_lhs0 _ _
    | ⟨1, _⟩ => exact (dA_lhs1 _ _).trans ck
  have r : dA.rhsIdx (ix2 p j) ((contrEquiv1 dA 128 rfl rfl).symm k) = ix2 k j := by
    funext ax; apply Fin.ext
    match ax with
    | ⟨0, _⟩ => exact (dA_rhs0 _ _).trans ck
    | ⟨1, _⟩ => exact dA_rhs1 _ _
  rw [l, r]

theorem dB_lhs0 (j : S5000x100.Idx) (k : dB.contr.Idx) : (dB.lhsIdx j k 0).val = (j 0).val := by
  simp [DotDims.lhsIdx, dot_S5000x150_S150x100_S5000x100_1_0_0_1_n_n]; rfl
theorem dB_lhs1 (j : S5000x100.Idx) (k : dB.contr.Idx) : (dB.lhsIdx j k 1).val = (k ⟨0, by decide⟩).val :=
  dB.lhsIdx_val_of_single (cl := 1) rfl j k
theorem dB_rhs0 (j : S5000x100.Idx) (k : dB.contr.Idx) : (dB.rhsIdx j k 0).val = (k ⟨0, by decide⟩).val :=
  dB.rhsIdx_val_of_single (cr := 0) rfl j k
theorem dB_rhs1 (j : S5000x100.Idx) (k : dB.contr.Idx) : (dB.rhsIdx j k 1).val = (j 1).val := by
  simp [DotDims.rhsIdx, dot_S5000x150_S150x100_S5000x100_1_0_0_1_n_n]; rfl

/-- The second product into the zero accumulator, at (p, j): the sum over the 150 contracted coordinates. -/
theorem mmB_apply (A : FVec Ideal S5000x150 .f32) (B : FVec Ideal S150x100 .f32) (p : Fin 5000) (j : Fin 100) :
    FloatOps.matmul dB none A B (constant (F := Ideal) S5000x100 .f32 0x00000000#32) (ix2 p j)
      = ∑ k : Fin 150, A (ix2 p k) * B (ix2 k j) := by
  rw [Ideal.matmul_constant_zero_apply, ← Equiv.sum_comp (contrEquiv1 dB 150 rfl rfl).symm]
  refine Finset.sum_congr rfl fun k _ => ?_
  have ck := contrEquiv1_symm_val dB 150 rfl rfl k
  have l : dB.lhsIdx (ix2 p j) ((contrEquiv1 dB 150 rfl rfl).symm k) = ix2 p k := by
    funext ax; apply Fin.ext
    match ax with
    | ⟨0, _⟩ => exact dB_lhs0 _ _
    | ⟨1, _⟩ => exact (dB_lhs1 _ _).trans ck
  have r : dB.rhsIdx (ix2 p j) ((contrEquiv1 dB 150 rfl rfl).symm k) = ix2 k j := by
    funext ax; apply Fin.ext
    match ax with
    | ⟨0, _⟩ => exact (dB_rhs0 _ _).trans ck
    | ⟨1, _⟩ => exact dB_rhs1 _ _
  rw [l, r]

/-! ## The body's arithmetic at an entry of a block -/

/-- Compare with the zero splat, exponentiate, subtract the one splat, choose: entry by entry the exponential-linear unit. -/
theorem eluChain_apply (v : FVec Ideal S5000x150 .f32) (i : S5000x150.Idx) :
    select (cmpf .ogt v (broadcast S5000x150 (Scalar.ofBits (F := Ideal) .f32 0x00000000#32))) v
        (subf (exp v) (broadcast S5000x150 (Scalar.ofBits (F := Ideal) .f32 0x3F800000#32))) i = Gnn.elu (v i) := by
  show Scalar.select (FloatOps.cmpf (F := Ideal) (φ := .f32) .ogt (v i) (Ideal.ofBits .f32 0x00000000#32)) (v i)
      (Ideal.exp (v i) - Ideal.ofBits .f32 0x3F800000#32) = _
  rw [Ideal.ofBits_zero_f32, Ideal.ofBits_one_f32]
  rfl

/-- The norm column broadcast along the 128 lanes reads, at (p, k), the column's entry of row p. -/
theorem colBroadcast_apply (x1 : Vec Ideal S5000x1 .f32) (hc : S5000x1.ShapeCasts S5000x1)
    (hb : S5000x1.Broadcasts S5000x128) (p : Fin 5000) (k : Fin 128) :
    broadcastTo S5000x128 (shapeCast S5000x1 x1 hc) hb (ix2 p k) = x1 (ix2 p (0 : Fin 1)) :=
  (broadcastTo_apply _ _ (ix2 p k) (ix2 p (0 : Fin 1)) (fun a => match a with | ⟨0, _⟩ => rfl | ⟨1, _⟩ => rfl)).trans
    (congrFun (shapeCast_self x1 _) _)

/-- The bias row broadcast down the 5000 rows reads, at (p, j), the row's entry of column j. -/
theorem rowBroadcast_apply (x3 : Vec Ideal S1x150 .f32) (hc : S1x150.ShapeCasts S1x150)
    (hb : S1x150.Broadcasts S5000x150) (p : Fin 5000) (j : Fin 150) :
    broadcastTo S5000x150 (shapeCast S1x150 x3 hc) hb (ix2 p j) = x3 (ix2 (0 : Fin 1) j) :=
  (broadcastTo_apply _ _ (ix2 p j) (ix2 (0 : Fin 1) j) (fun a => match a with | ⟨0, _⟩ => rfl | ⟨1, _⟩ => rfl)).trans
    (congrFun (shapeCast_self x3 _) _)

/-- The first stored value at entry (p, j) of a block: the unit of (row p of the first block scaled by the second
    block's entry of row p) times the third block, plus the fourth block's entry of column j. -/
theorem pay1_apply (x0 : Vec Ideal S5000x128 .f32) (x1 : Vec Ideal S5000x1 .f32) (x2 : Vec Ideal S128x150 .f32)
    (x3 : Vec Ideal S1x150 .f32) (p : Fin 5000) (j : Fin 150) :
    Gen.k0_pay1 (F := Ideal) x0 x1 x2 x3 (ix2 p j)
      = Gnn.elu ((∑ k : Fin 128, (x0 (ix2 p k) * x1 (ix2 p (0 : Fin 1))) * x2 (ix2 k j)) + x3 (ix2 (0 : Fin 1) j)) := by
  unfold Gen.k0_pay1
  refine (eluChain_apply _ (ix2 p j)).trans (congrArg Gnn.elu ?_)
  have hmm := (mmA_apply (mulf (shapeCast S5000x128 x0 Gen.shapeCasts_S5000x128_S5000x128)
      (broadcastTo S5000x128 (shapeCast S5000x1 x1 Gen.shapeCasts_S5000x1_S5000x1) Gen.broadcasts_S5000x1_S5000x128)) x2 p j).trans
    (Finset.sum_congr rfl fun k _ => congrArg (· * x2 (ix2 k j))
      (congrArg₂ (· * ·) (congrFun (shapeCast_self x0 Gen.shapeCasts_S5000x128_S5000x128) (ix2 p k))
        (colBroadcast_apply x1 Gen.shapeCasts_S5000x1_S5000x1 Gen.broadcasts_S5000x1_S5000x128 p k)))
  exact congrArg₂ (· + ·) hmm (rowBroadcast_apply x3 Gen.shapeCasts_S1x150_S1x150 Gen.broadcasts_S1x150_S5000x150 p j)

/-- The second stored value at entry (p, j): row p of the first stored value times the fifth block. -/
theorem pay2_apply (x0 : Vec Ideal S5000x128 .f32) (x1 : Vec Ideal S5000x1 .f32) (x2 : Vec Ideal S128x150 .f32)
    (x3 : Vec Ideal S1x150 .f32) (x4 : Vec Ideal S150x100 .f32) (p : Fin 5000) (j : Fin 100) :
    Gen.k0_pay2 (F := Ideal) x0 x1 x2 x3 x4 (ix2 p j)
      = ∑ k : Fin 150, Gen.k0_pay1 (F := Ideal) x0 x1 x2 x3 (ix2 p k) * x4 (ix2 k j) := by
  unfold Gen.k0_pay2
  exact mmB_apply (Gen.k0_pay1 (F := Ideal) x0 x1 x2 x3) x4 p j

/-! ## The whole-array functions -/

/-- Entry (n, j) of the first result over whole arrays: the unit of (row n of the aggregate scaled by the norm
    column's entry of row n) times W1, plus the bias row's entry of column j. -/
def h1F (a : Gnn.Mat 50000 128) (nc : Gnn.Mat 50000 1) (w1 : Gnn.Mat 128 150) (b : Gnn.Mat 1 150)
    (n : Fin 50000) (j : Fin 150) : EReal :=
  Gnn.elu ((∑ k : Fin 128, (a (ix2 n k) * nc (ix2 n (0 : Fin 1))) * w1 (ix2 k j)) + b (ix2 (0 : Fin 1) j))

/-- The first result as one function of the operand arrays. -/
def G5 (a : Gnn.Mat 50000 128) (nc : Gnn.Mat 50000 1) (w1 : Gnn.Mat 128 150) (b : Gnn.Mat 1 150) : Gnn.Mat 50000 150 :=
  fun i => h1F a nc w1 b ⟨(i 0).val, idx2_lt0 i⟩ ⟨(i 1).val, idx2_lt1 i⟩

/-- The second result as one function of the operand arrays: row n of the first result times Wn. -/
def G6 (a : Gnn.Mat 50000 128) (nc : Gnn.Mat 50000 1) (w1 : Gnn.Mat 128 150) (b : Gnn.Mat 1 150) (wn : Gnn.Mat 150 100) :
    Gnn.Mat 50000 100 :=
  fun i => ∑ k : Fin 150, h1F a nc w1 b ⟨(i 0).val, idx2_lt0 i⟩ k * wn (ix2 k ⟨(i 1).val, idx2_lt1 i⟩)

/-! ## A block's entry is an entry of the whole-array function

Stated over blocks x0 … x4 that read the arrays a, nc, w1, b, wn thus: the row blocks x0, x1 at row p read the arrays at
row 5000 T + p, the blocks x2, x3, x4 are their arrays. -/

/-- Entry (p, j) of the first stored value is entry (n, j) of the whole-array function when n = 5000 T + p. -/
theorem pay1_eq_h1F (x0 : Vec Ideal S5000x128 .f32) (x1 : Vec Ideal S5000x1 .f32) (x2 : Vec Ideal S128x150 .f32)
    (x3 : Vec Ideal S1x150 .f32) (a : Gnn.Mat 50000 128) (nc : Gnn.Mat 50000 1) (w1 : Gnn.Mat 128 150) (b : Gnn.Mat 1 150)
    (T : Nat) (p : Fin 5000) (n : Fin 50000) (hn : n.val = T * 5000 + p.val)
    (h0 : ∀ (p : Fin 5000) (k : Fin 128) (n : Fin 50000), n.val = T * 5000 + p.val → x0 (ix2 p k) = a (ix2 n k))
    (h1 : ∀ (p : Fin 5000) (n : Fin 50000), n.val = T * 5000 + p.val → x1 (ix2 p (0 : Fin 1)) = nc (ix2 n (0 : Fin 1)))
    (h2 : ∀ (k : Fin 128) (j : Fin 150), x2 (ix2 k j) = w1 (ix2 k j))
    (h3 : ∀ j : Fin 150, x3 (ix2 (0 : Fin 1) j) = b (ix2 (0 : Fin 1) j)) (j : Fin 150) :
    Gen.k0_pay1 (F := Ideal) x0 x1 x2 x3 (ix2 p j) = h1F a nc w1 b n j :=
  (pay1_apply x0 x1 x2 x3 p j).trans (congrArg Gnn.elu (congrArg₂ (· + ·)
    (Finset.sum_congr rfl fun k _ => congrArg₂ (· * ·) (congrArg₂ (· * ·) (h0 p k n hn) (h1 p n hn)) (h2 k j)) (h3 j)))

/-- The first stored value at block index y is the first whole-array function at the array index i under it. -/
theorem block5 (x0 : Vec Ideal S5000x128 .f32) (x1 : Vec Ideal S5000x1 .f32) (x2 : Vec Ideal S128x150 .f32)
    (x3 : Vec Ideal S1x150 .f32) (a : Gnn.Mat 50000 128) (nc : Gnn.Mat 50000 1) (w1 : Gnn.Mat 128 150) (b : Gnn.Mat 1 150)
    (T : Nat) (y : S5000x150.Idx) (i : S50000x150.Idx)
    (hi0 : (i 0).val = T * 5000 + (y 0).val) (hi1 : (i 1).val = (y 1).val)
    (h0 : ∀ (p : Fin 5000) (k : Fin 128) (n : Fin 50000), n.val = T * 5000 + p.val → x0 (ix2 p k) = a (ix2 n k))
    (h1 : ∀ (p : Fin 5000) (n : Fin 50000), n.val = T * 5000 + p.val → x1 (ix2 p (0 : Fin 1)) = nc (ix2 n (0 : Fin 1)))
    (h2 : ∀ (k : Fin 128) (j : Fin 150), x2 (ix2 k j) = w1 (ix2 k j))
    (h3 : ∀ j : Fin 150, x3 (ix2 (0 : Fin 1) j) = b (ix2 (0 : Fin 1) j)) :
    Gen.k0_pay1 (F := Ideal) x0 x1 x2 x3 y = G5 a nc w1 b i := by
  obtain ⟨p, q, rfl⟩ : ∃ (p : Fin 5000) (q : Fin 150), y = ix2 p q := ⟨y 0, y 1, eq_ix2 y⟩
  have hq : (⟨(i 1).val, idx2_lt1 i⟩ : Fin 150) = q := Fin.ext hi1
  show _ = h1F a nc w1 b ⟨(i 0).val, idx2_lt0 i⟩ ⟨(i 1).val, idx2_lt1 i⟩
  rw [hq]
  exact pay1_eq_h1F x0 x1 x2 x3 a nc w1 b T p ⟨(i 0).val, idx2_lt0 i⟩ hi0 h0 h1 h2 h3 q

/-- The second stored value at block index y is the second whole-array function at the array index i under it. -/
theorem block6 (x0 : Vec Ideal S5000x128 .f32) (x1 : Vec Ideal S5000x1 .f32) (x2 : Vec Ideal S128x150 .f32)
    (x3 : Vec Ideal S1x150 .f32) (x4 : Vec Ideal S150x100 .f32) (a : Gnn.Mat 50000 128) (nc : Gnn.Mat 50000 1)
    (w1 : Gnn.Mat 128 150) (b : Gnn.Mat 1 150) (wn : Gnn.Mat 150 100)
    (T : Nat) (y : S5000x100.Idx) (i : S50000x100.Idx)
    (hi0 : (i 0).val = T * 5000 + (y 0).val) (hi1 : (i 1).val = (y 1).val)
    (h0 : ∀ (p : Fin 5000) (k : Fin 128) (n : Fin 50000), n.val = T * 5000 + p.val → x0 (ix2 p k) = a (ix2 n k))
    (h1 : ∀ (p : Fin 5000) (n : Fin 50000), n.val = T * 5000 + p.val → x1 (ix2 p (0 : Fin 1)) = nc (ix2 n (0 : Fin 1)))
    (h2 : ∀ (k : Fin 128) (j : Fin 150), x2 (ix2 k j) = w1 (ix2 k j))
    (h3 : ∀ j : Fin 150, x3 (ix2 (0 : Fin 1) j) = b (ix2 (0 : Fin 1) j))
    (h4 : ∀ (k : Fin 150) (j : Fin 100), x4 (ix2 k j) = wn (ix2 k j)) :
    Gen.k0_pay2 (F := Ideal) x0 x1 x2 x3 x4 y = G6 a nc w1 b wn i := by
  obtain ⟨p, q, rfl⟩ : ∃ (p : Fin 5000) (q : Fin 100), y = ix2 p q := ⟨y 0, y 1, eq_ix2 y⟩
  have hq : (⟨(i 1).val, idx2_lt1 i⟩ : Fin 100) = q := Fin.ext hi1
  refine (pay2_apply x0 x1 x2 x3 x4 p q).trans ?_
  show _ = ∑ k : Fin 150, h1F a nc w1 b ⟨(i 0).val, idx2_lt0 i⟩ k * wn (ix2 k ⟨(i 1).val, idx2_lt1 i⟩)
  rw [hq]
  exact Finset.sum_congr rfl fun k _ => congrArg₂ (· * ·)
    (pay1_eq_h1F x0 x1 x2 x3 a nc w1 b T p ⟨(i 0).val, idx2_lt0 i⟩ hi0 h0 h1 h2 h3 k) (h4 k q)

/-! ## The blocks of grid point t

The printed index maps, decided once over the ten points: the row windows (aggregate, norm column, both results) are at
block t of their row axis and block 0 of their column axis; the weight and bias windows are at block 0 of both. -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The five operand blocks of point t at their literal types. -/
abbrev xb0 (t : Fin cfg0.N) : Vec Ideal S5000x128 .f32 := Gen.iblk0 (F := Ideal) V c 0 t
abbrev xb1 (t : Fin cfg0.N) : Vec Ideal S5000x1 .f32 := Gen.iblk0 (F := Ideal) V c 1 t
abbrev xb2 (t : Fin cfg0.N) : Vec Ideal S128x150 .f32 := Gen.iblk0 (F := Ideal) V c 2 t
abbrev xb3 (t : Fin cfg0.N) : Vec Ideal S1x150 .f32 := Gen.iblk0 (F := Ideal) V c 3 t
abbrev xb4 (t : Fin cfg0.N) : Vec Ideal S150x100 .f32 := Gen.iblk0 (F := Ideal) V c 4 t

/-- A block's coordinate on an axis is the block index times the block's extent plus the coordinate inside the block:
    row p of the aggregate's block at t is row 5000 t + p of the aggregate. -/
theorem xb0_apply (t : Fin cfg0.N) (p : Fin 5000) (k : Fin 128) (n : Fin 50000) (hn : n.val = t.val * 5000 + p.val) :
    xb0 V c t (ix2 p k) = agg0 V c (ix2 n k) := by
  obtain ⟨e0, e1, -⟩ := idx_facts t
  show agg0 V c (((cfg0.win 0).blk t).view.emb (ix2 p k)) = agg0 V c (ix2 n k)
  refine congrArg (agg0 V c) (funext fun ax => Fin.ext ?_)
  match ax with
  | ⟨0, _⟩ => show win0_0.index t (0 : Fin 2) * 5000 + 1 * p.val = n.val; omega
  | ⟨1, _⟩ => show win0_0.index t (1 : Fin 2) * 128 + 1 * k.val = k.val; omega

/-- Row p of the norm column's block at t is row 5000 t + p of the norm column. -/
theorem xb1_apply (t : Fin cfg0.N) (p : Fin 5000) (n : Fin 50000) (hn : n.val = t.val * 5000 + p.val) :
    xb1 V c t (ix2 p (0 : Fin 1)) = ncol0 V c (ix2 n (0 : Fin 1)) := by
  obtain ⟨-, -, e0, e1, -⟩ := idx_facts t
  show ncol0 V c (((cfg0.win 1).blk t).view.emb (ix2 p (0 : Fin 1))) = ncol0 V c (ix2 n (0 : Fin 1))
  refine congrArg (ncol0 V c) (funext fun ax => Fin.ext ?_)
  match ax with
  | ⟨0, _⟩ => show win0_1.index t (0 : Fin 2) * 5000 + 1 * p.val = n.val; omega
  | ⟨1, _⟩ => show win0_1.index t (1 : Fin 2) * 1 + 1 * 0 = 0; omega

/-- W1's one block is W1. -/
theorem xb2_apply (t : Fin cfg0.N) (k : Fin 128) (j : Fin 150) : xb2 V c t (ix2 k j) = w1_0 V c (ix2 k j) := by
  obtain ⟨-, -, -, -, e0, e1, -⟩ := idx_facts t
  show w1_0 V c (((cfg0.win 2).blk t).view.emb (ix2 k j)) = w1_0 V c (ix2 k j)
  refine congrArg (w1_0 V c) (funext fun ax => Fin.ext ?_)
  match ax with
  | ⟨0, _⟩ => show win0_2.index t (0 : Fin 2) * 128 + 1 * k.val = k.val; omega
  | ⟨1, _⟩ => show win0_2.index t (1 : Fin 2) * 150 + 1 * j.val = j.val; omega

/-- The bias row's one block is the bias row. -/
theorem xb3_apply (t : Fin cfg0.N) (j : Fin 150) : xb3 V c t (ix2 (0 : Fin 1) j) = brow0 V c (ix2 (0 : Fin 1) j) := by
  obtain ⟨-, -, -, -, -, -, e0, e1, -⟩ := idx_facts t
  show brow0 V c (((cfg0.win 3).blk t).view.emb (ix2 (0 : Fin 1) j)) = brow0 V c (ix2 (0 : Fin 1) j)
  refine congrArg (brow0 V c) (funext fun ax => Fin.ext ?_)
  match ax with
  | ⟨0, _⟩ => show win0_3.index t (0 : Fin 2) * 1 + 1 * 0 = 0; omega
  | ⟨1, _⟩ => show win0_3.index t (1 : Fin 2) * 150 + 1 * j.val = j.val; omega

/-- Wn's one block is Wn. -/
theorem xb4_apply (t : Fin cfg0.N) (k : Fin 150) (j : Fin 100) : xb4 V c t (ix2 k j) = wn0 V c (ix2 k j) := by
  obtain ⟨-, -, -, -, -, -, -, -, e0, e1, -⟩ := idx_facts t
  show wn0 V c (((cfg0.win 4).blk t).view.emb (ix2 k j)) = wn0 V c (ix2 k j)
  refine congrArg (wn0 V c) (funext fun ax => Fin.ext ?_)
  match ax with
  | ⟨0, _⟩ => show win0_4.index t (0 : Fin 2) * 150 + 1 * k.val = k.val; omega
  | ⟨1, _⟩ => show win0_4.index t (1 : Fin 2) * 100 + 1 * j.val = j.val; omega

/-! ## What point t writes back -/

theorem hz : (![0, 0] : Fin 2 → Nat) = fun _ => 0 := funext fun a => by fin_cases a <;> rfl

/-- Point t writes back, to the first result, block t of the first whole-array function. -/
theorem flushed5_eq (t : Fin cfg0.N) :
    (Gen.dat0 (F := Ideal) V c).flushed 5 t
      = ((cfg0.win 5).blk t).view.read (Elt Ideal) (G5 (agg0 V c) (ncol0 V c) (w1_0 V c) (brow0 V c)) := by
  show (cfg0.win 5).cut (grid0.coords t) ((Gen.dat0 (F := Ideal) V c).after 5 t) = _
  rw [Gen.after0_5]
  unfold Gen.out0_5
  rw [View.canon_unit_zero hz]
  simp only [View.ld_unit_zero (S := S5000x128) hz, View.ld_unit_zero (S := S5000x1) hz,
    View.ld_unit_zero (S := S128x150) hz, View.ld_unit_zero (S := S1x150) hz]
  obtain ⟨-, -, -, -, -, -, -, -, -, -, e0, e1, -⟩ := idx_facts t
  funext y
  refine block5 (xb0 V c t) (xb1 V c t) (xb2 V c t) (xb3 V c t) (agg0 V c) (ncol0 V c) (w1_0 V c) (brow0 V c) t.val y
    (((cfg0.win 5).blk t).view.emb y) ?_ ?_ (fun p k n hn => xb0_apply V c t p k n hn) (fun p n hn => xb1_apply V c t p n hn)
    (fun k j => xb2_apply V c t k j) (fun j => xb3_apply V c t j)
  · show win0_5.index t (0 : Fin 2) * 5000 + 1 * (y 0).val = t.val * 5000 + (y 0).val; omega
  · show win0_5.index t (1 : Fin 2) * 150 + 1 * (y 1).val = (y 1).val; omega

/-- Point t writes back, to the second result, block t of the second whole-array function. -/
theorem flushed6_eq (t : Fin cfg0.N) :
    (Gen.dat0 (F := Ideal) V c).flushed 6 t
      = ((cfg0.win 6).blk t).view.read (Elt Ideal) (G6 (agg0 V c) (ncol0 V c) (w1_0 V c) (brow0 V c) (wn0 V c)) := by
  show (cfg0.win 6).cut (grid0.coords t) ((Gen.dat0 (F := Ideal) V c).after 6 t) = _
  rw [Gen.after0_6]
  unfold Gen.out0_6
  rw [View.canon_unit_zero hz]
  simp only [View.ld_unit_zero (S := S5000x128) hz, View.ld_unit_zero (S := S5000x1) hz,
    View.ld_unit_zero (S := S128x150) hz, View.ld_unit_zero (S := S1x150) hz, View.ld_unit_zero (S := S150x100) hz]
  obtain ⟨-, -, -, -, -, -, -, -, -, -, -, -, e0, e1⟩ := idx_facts t
  funext y
  refine block6 (xb0 V c t) (xb1 V c t) (xb2 V c t) (xb3 V c t) (xb4 V c t) (agg0 V c) (ncol0 V c) (w1_0 V c) (brow0 V c)
    (wn0 V c) t.val y (((cfg0.win 6).blk t).view.emb y) ?_ ?_ (fun p k n hn => xb0_apply V c t p k n hn)
    (fun p n hn => xb1_apply V c t p n hn) (fun k j => xb2_apply V c t k j) (fun j => xb3_apply V c t j)
    (fun k j => xb4_apply V c t k j)
  · show win0_6.index t (0 : Fin 2) * 5000 + 1 * (y 0).val = t.val * 5000 + (y 0).val; omega
  · show win0_6.index t (1 : Fin 2) * 100 + 1 * (y 1).val = (y 1).val; omega

/-! ## The ten blocks cover the arrays -/

/-- An index is in point t's block of the first result iff each coordinate is in the block's range on its axis. -/
theorem mem_blk5 (t : Fin cfg0.N) (i : S50000x150.Idx) :
    i ∈ ((cfg0.win 5).blk t).view.set ↔ ∀ a : Fin 2, win0_5.index t a * S5000x150.size a ≤ (i a).val
      ∧ (i a).val < win0_5.index t a * S5000x150.size a + S5000x150.size a := by
  show i ∈ ((View.whole main_v28_0).slice (win0_5.rect t)).set ↔ _
  rw [View.set_slice_whole, Rect.mem_set_unit]
  exact Iff.rfl

/-- The same for the second result. -/
theorem mem_blk6 (t : Fin cfg0.N) (i : S50000x100.Idx) :
    i ∈ ((cfg0.win 6).blk t).view.set ↔ ∀ a : Fin 2, win0_6.index t a * S5000x100.size a ≤ (i a).val
      ∧ (i a).val < win0_6.index t a * S5000x100.size a + S5000x100.size a := by
  show i ∈ ((View.whole main_v28_1).slice (win0_6.rect t)).set ↔ _
  rw [View.set_slice_whole, Rect.mem_set_unit]
  exact Iff.rfl

/-- Row n of the first result lies in the block of point n / 5000. -/
theorem cover5 (i : S50000x150.Idx) :
    ∃ t : Fin cfg0.N, (cfg0.win 5).flush t = true ∧ i ∈ ((cfg0.win 5).blk t).view.set := by
  have hi0 : (i 0).val < 50000 := idx2_lt0 i
  have hi1 : (i 1).val < 150 := idx2_lt1 i
  have hN : grid0.N = 10 := Gen.N_0
  obtain ⟨t, ht⟩ : ∃ t : Fin cfg0.N, t.val = (i 0).val / 5000 :=
    ⟨⟨(i 0).val / 5000, by show (i 0).val / 5000 < grid0.N; omega⟩, rfl⟩
  obtain ⟨-, -, -, -, -, -, -, -, -, -, e0, e1, -⟩ := idx_facts t
  refine ⟨t, Gen.flush0_5 t, ?_⟩
  rw [mem_blk5]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 150 ≤ (i 1).val ∧ (i 1).val < win0_5.index t (1 : Fin 2) * 150 + 150
    omega

/-- Row n of the second result lies in the block of point n / 5000. -/
theorem cover6 (i : S50000x100.Idx) :
    ∃ t : Fin cfg0.N, (cfg0.win 6).flush t = true ∧ i ∈ ((cfg0.win 6).blk t).view.set := by
  have hi0 : (i 0).val < 50000 := idx2_lt0 i
  have hi1 : (i 1).val < 100 := idx2_lt1 i
  have hN : grid0.N = 10 := Gen.N_0
  obtain ⟨t, ht⟩ : ∃ t : Fin cfg0.N, t.val = (i 0).val / 5000 :=
    ⟨⟨(i 0).val / 5000, by show (i 0).val / 5000 < grid0.N; omega⟩, rfl⟩
  obtain ⟨-, -, -, -, -, -, -, -, -, -, -, -, e0, e1⟩ := idx_facts t
  refine ⟨t, Gen.flush0_6 t, ?_⟩
  rw [mem_blk6]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 100 ≤ (i 1).val ∧ (i 1).val < win0_6.index t (1 : Fin 2) * 100 + 100
    omega

/-! ## The arrays after the ten points -/

/-- The first result array is the first whole-array function of the operand arrays. -/
theorem h1out_eq : h1out V c = G5 (agg0 V c) (ncol0 V c) (w1_0 V c) (brow0 V c) :=
  (Gen.dat0 (F := Ideal) V c).arrAt_eq_of_cover 5 (G5 (agg0 V c) (ncol0 V c) (w1_0 V c) (brow0 V c))
    (fun t _ => flushed5_eq V c t) cover5

/-- The second result array is the second whole-array function of the operand arrays. -/
theorem pout_eq : pout V c = G6 (agg0 V c) (ncol0 V c) (w1_0 V c) (brow0 V c) (wn0 V c) :=
  (Gen.dat0 (F := Ideal) V c).arrAt_eq_of_cover 6 (G6 (agg0 V c) (ncol0 V c) (w1_0 V c) (brow0 V c) (wn0 V c))
    (fun t _ => flushed6_eq V c t) cover6

theorem h1_apply (n : Fin 50000) (j : Fin 150) :
    h1out V c (ix2 n j)
      = Gnn.elu ((∑ k : Fin 128, (agg0 V c (ix2 n k) * ncol0 V c (ix2 n (0 : Fin 1))) * w1_0 V c (ix2 k j))
          + brow0 V c (ix2 (0 : Fin 1) j)) :=
  congrFun (h1out_eq V c) (ix2 n j)

theorem p_apply (n : Fin 50000) (j : Fin 100) :
    pout V c (ix2 n j) = ∑ k : Fin 150, h1out V c (ix2 n k) * wn0 V c (ix2 k j) := by
  rw [pout_eq, h1out_eq]
  rfl

end Cert.KernelIdeal.KReg0

end
-- ==== Proof.KHost1.lean ====
/-
  What the second stretch of host operations leaves for the second dense region, read index by index, over what the
  region before it was entered with and left: the projected first layer gathered along the edges and summed at their
  destinations, the clamped in-degree as a column, and the last two biases as rows. Stated over any contents W (one
  valuation per device) the stretch starts from.
-/
import proofs.«407557_j3874060501607_3_alg».proof.Proof.Gen.KernelIdeal.Frame
import proofs.«407557_j3874060501607_3_alg».proof.Proof.KNames
import proofs.«407557_j3874060501607_3_alg».proof.Proof.LibScatterSum
import proofs.«407557_j3874060501607_3_alg».proof.Proof.LibGatherRows
import Idealize.ShloMosaic.Lib.ValueLayout
import Idealize.ShloMosaic.Lib.IdealHost

noncomputable section

open scoped BigOperators
open Idealize.ShloMosaic Idealize.ShloMosaic.TcCoe Idealize.SL.Sem Idealize.ShloMosaic.ValueIdx
open Cert.KernelIdeal
namespace Cert.KernelIdeal.KHost1

/-! ## A reshape of a vector to a column, read at an index -/

/-- A vector [a] cast to a column [a, 1] reads, at (i, u), the vector at i: both have row-major position i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## The scatter of the gathered rows, piece by piece, over variables of the literal types -/

/-- The per-edge vector broadcast to a column [800000, 1] reads, at (e, 0), the vector at e. -/
theorem bcastCol_apply {α : Type} (v : S800000.Idx → α) (e : Fin 800000) :
    broadcastInDim S800000x1 ![0] Gen.bcast_S800000_S800000x1_0 v (ix2 e (0 : Fin 1)) = v (ix1 e) :=
  broadcastInDim_apply _ _ _ _ (ix1 e) (by
    intro a
    obtain rfl : a = 0 := Subsingleton.elim _ _
    rw [if_neg (by decide)]
    rfl)

/-- The gather's start index of edge e: the source index wrapped from the end where it is negative. -/
theorem wrapIdx_apply (src : IVec S800000 32) (e : Fin 800000) :
    broadcastInDim S800000x1 ![0] Gen.bcast_S800000_S800000x1_0
        (select (cmpi .slt src (broadcastInDim S800000 ![] Gen.bcast_S_S800000 (constantI S_ 32 0#32)))
          (addi src (broadcastInDim S800000 ![] Gen.bcast_S_S800000 (constantI S_ 32 50000#32))) src)
        (ix2 e (0 : Fin 1))
      = Gnn.wrap (src (ix1 e)) := by
  rw [bcastCol_apply]
  rfl

/-- The scatter's operand, the zero constant broadcast, is zero everywhere. -/
theorem zero_apply (i : S50000x100.Idx) :
    broadcastInDim S50000x100 ![] Gen.bcast_S_S50000x100 (constant (F := Ideal) S_ .f32 0x00000000#32) i
      = (0 : EReal) := by
  rw [broadcastInDim_scalar_apply]
  exact Ideal.ofBits_zero_f32

/-- The update rows that land at n are the edges into n. -/
theorem edges_eq (dst : Gnn.Ids) (n : Fin 50000) :
    (Finset.univ.filter fun e : Fin 800000 =>
        (broadcastInDim S800000x1 ![0] Gen.bcast_S800000_S800000x1_0 dst (ix2 e (0 : Fin 1))).toInt = (n.val : Int))
      = Gnn.edgesAt dst n := by
  unfold Gnn.edgesAt
  refine Finset.filter_congr fun e _ => ?_
  rw [bcastCol_apply]

/-- The gathered row of edge e at column k is the operand's row at the wrapped, clamped source index. -/
theorem gath_apply (p : Gnn.Mat 50000 100) (src : Gnn.Ids) (e : Fin 800000) (k : Fin 100) :
    Host.gather gather_S50000x100_S800000x1_S800000x100_1_0_n_n_0_1_1100 p
        (broadcastInDim S800000x1 ![0] Gen.bcast_S800000_S800000x1_0
          (select (cmpi .slt src (broadcastInDim S800000 ![] Gen.bcast_S_S800000 (constantI S_ 32 0#32)))
            (addi src (broadcastInDim S800000 ![] Gen.bcast_S_S800000 (constantI S_ 32 50000#32))) src))
        (ix2 e k)
      = p (ix2 (Gnn.rowOf src e) k) := by
  refine (GatherRows.gather_rows_apply (by omega) gather_S50000x100_S800000x1_S800000x100_1_0_n_n_0_1_1100
    rfl rfl rfl rfl rfl rfl rfl p _ e k).trans ?_
  refine congrArg (fun r : Fin 50000 => p (ix2 r k)) (Fin.ext ?_)
  show min _ (50000 - 1) = min (Gnn.wrap (src (ix1 e))).toInt.toNat (50000 - 1)
  rw [wrapIdx_apply]

/-- The accumulating scatter at the ideal instance is the exact sum: each operand element plus the updates that land
    on it. -/
theorem hostScatterAdd_eq {s si u : Shape} {φ : FTy} {w : Nat} (d : ScatterDims s si u) (x : FVec Ideal s φ)
    (idx : IVec si w) (upd : FVec Ideal u φ) : Host.scatterAdd d x idx upd = Ideal.hostScatterAdd d x idx upd := rfl

/-- The scatter of the gathered rows at (n, k): zero plus, over the edges into n, the operand at the edge's source
    row and column k. -/
theorem nsp_core (p : Gnn.Mat 50000 100) (src dst : Gnn.Ids) (n : Fin 50000) (k : Fin 100) :
    Host.scatterAdd (F := Ideal) (φ := .f32) scatter_S50000x100_S800000x1_S800000x100_1_0_0_1
        (broadcastInDim S50000x100 ![] Gen.bcast_S_S50000x100 (constant (F := Ideal) S_ .f32 0x00000000#32))
        (broadcastInDim S800000x1 ![0] Gen.bcast_S800000_S800000x1_0 dst)
        (Host.gather gather_S50000x100_S800000x1_S800000x100_1_0_n_n_0_1_1100 p
          (broadcastInDim S800000x1 ![0] Gen.bcast_S800000_S800000x1_0
            (select (cmpi .slt src (broadcastInDim S800000 ![] Gen.bcast_S_S800000 (constantI S_ 32 0#32)))
              (addi src (broadcastInDim S800000 ![] Gen.bcast_S_S800000 (constantI S_ 32 50000#32))) src)))
        (ix2 n k)
      = 0 + ∑ e ∈ Gnn.edgesAt dst n, p (ix2 (Gnn.rowOf src e) k) := by
  rw [hostScatterAdd_eq,
    ScatterSum.scatterAdd_rows_apply scatter_S50000x100_S800000x1_S800000x100_1_0_0_1 rfl rfl rfl rfl,
    zero_apply, edges_eq]
  exact congrArg (fun t : EReal => 0 + t) (Finset.sum_congr rfl fun e _ => gath_apply p src e k)

variable (W : Dev nD → Valuation τ sig (Elt Ideal))

/-- The contents after the second stretch, read at the TensorCore's references. -/
abbrev after1 (c : Dev nD) (b : Ref sig .tc) : Buf (Elt Ideal) ((c : Thread nD τ).loc b) :=
  StableHlo.after (Gen.hostOps1 (F := Ideal)) (W c) (Proc.devRef .tc b)
/-- The contents the second stretch starts from, read at the TensorCore's references. -/
abbrev before1 (c : Dev nD) (b : Ref sig .tc) : Buf (Elt Ideal) ((c : Thread nD τ).loc b) := W c (Proc.devRef .tc b)

variable (c : Dev nD)

theorem h1_eq : KNames.h1in (after1 W) c = KNames.h1in (before1 W) c := by
  show StableHlo.after (Gen.hostOps1 (F := Ideal)) (W c) (Proc.devRef .tc main_v28_0) = W c (Proc.devRef .tc main_v28_0)
  open StableHlo in after_results

theorem nsp_apply (n : Fin 50000) (k : Fin 100) :
    KNames.nsp1 (after1 W) c (ix2 n k)
      = 0 + ∑ e ∈ Gnn.edgesAt (KNames.dstB (before1 W) c) n,
          KNames.pin (before1 W) c (ix2 (Gnn.rowOf (KNames.srcB (before1 W) c) e) k) := by
  show StableHlo.after (Gen.hostOps1 (F := Ideal)) (W c) (Proc.devRef .tc main_v38) (ix2 n k) = _
  open StableHlo in after_results
  exact nsp_core (W c (Proc.devRef .tc main_v28_1)) (W c (Proc.devRef .tc main_arg1)) (W c (Proc.devRef .tc main_arg2)) n k

theorem dcol_apply (n : Fin 50000) :
    KNames.dcol1 (after1 W) c (ix2 n (0 : Fin 1)) = KNames.dd1d (before1 W) c (ix1 n) := by
  show StableHlo.after (Gen.hostOps1 (F := Ideal)) (W c) (Proc.devRef .tc main_v39) (ix2 n (0 : Fin 1)) = _
  open StableHlo in after_results
  exact shapeCast_a_a1_apply (W c (Proc.devRef .tc main_v10)) Gen.shapeCasts_S50000_S50000x1 n 0

theorem b2row_apply (k : Fin 100) :
    KNames.b2row1 (after1 W) c (ix2 (0 : Fin 1) k) = KNames.b2B (before1 W) c (ix1 k) := by
  show StableHlo.after (Gen.hostOps1 (F := Ideal)) (W c) (Proc.devRef .tc main_v40) (ix2 (0 : Fin 1) k) = _
  open StableHlo in after_results
  exact shapeCast_a_1a_apply (W c (Proc.devRef .tc main_arg7)) Gen.shapeCasts_S100_S1x100 0 k

theorem b3row_apply (j : Fin 64) :
    KNames.b3row1 (after1 W) c (ix2 (0 : Fin 1) j) = KNames.b3B (before1 W) c (ix1 j) := by
  show StableHlo.after (Gen.hostOps1 (F := Ideal)) (W c) (Proc.devRef .tc main_v41) (ix2 (0 : Fin 1) j) = _
  open StableHlo in after_results
  exact shapeCast_a_1a_apply (W c (Proc.devRef .tc main_arg9)) Gen.shapeCasts_S64_S1x64 0 j

theorem ws_eq : KNames.ws1 (after1 W) c = KNames.ws1 (before1 W) c := by
  show StableHlo.after (Gen.hostOps1 (F := Ideal)) (W c) (Proc.devRef .tc main_arg6) = W c (Proc.devRef .tc main_arg6)
  open StableHlo in after_results
theorem w3_eq : KNames.w3_1 (after1 W) c = KNames.w3_1 (before1 W) c := by
  show StableHlo.after (Gen.hostOps1 (F := Ideal)) (W c) (Proc.devRef .tc main_arg8) = W c (Proc.devRef .tc main_arg8)
  open StableHlo in after_results

end Cert.KernelIdeal.KHost1

end
-- ==== Proof.KReg1.lean ====
/-
  The second dense region as a whole array: what its ten grid points leave in its result array, index by index, over
  whatever the region finds in its seven operand arrays. Row n is two layers: the exponential-linear unit of (row n of
  the first layer times Ws, plus the aggregated projection's row divided by the degree column's entry, plus the bias
  row), then that times W3 plus the last bias row under the unit again.

  The road: the body's stored value at an index of its block, over any seven loaded blocks (the two products as sums
  over the contracted axis, the broadcasts as reads of a column or a row, the comparison-exponential-choice chain as the
  unit); the blocks of grid point t as rows 5000 t … 5000 t + 4999 of the row-blocked arrays and as the whole small
  arrays; so what point t writes back is rows 5000 t … 5000 t + 4999 of one whole-array function; the ten blocks cover
  the 50000 rows, row n lying in the block of point n / 5000.
-/
import proofs.«407557_j3874060501607_3_alg».proof.Proof.Gen.KernelIdeal.Frame
import proofs.«407557_j3874060501607_3_alg».proof.Proof.KNames
import Idealize.ShloMosaic.Lib.Pipeline.Value
import Idealize.ShloMosaic.Lib.IdealHost
import Idealize.ShloMosaic.PureOps.Ideal.Laws

noncomputable section

open scoped BigOperators
open Idealize.ShloMosaic Idealize.ShloMosaic.TcCoe Idealize.SL.Sem Idealize.ShloMosaic.ValueIdx
open Cert.KernelIdeal Cert.KernelIdeal.KNames
namespace Cert.KernelIdeal.KReg1

/-! ## The two products at an index

Both products contract the left operand's columns against the right operand's rows: at the output index (p, q) and the
contraction position k the left operand is read at (p, k) and the right one at (k, q). -/

/-- The dimension numbers of the first product, [5000,150] by [150,100]. -/
abbrev Dws := dot_S5000x150_S150x100_S5000x100_1_0_0_1_n_n
/-- The dimension numbers of the second product, [5000,100] by [100,64]. -/
abbrev Dw3 := dot_S5000x100_S100x64_S5000x64_1_0_0_1_n_n

theorem lhs_ws_0 (j : S5000x100.Idx) (k : Dws.contr.Idx) : (Dws.lhsIdx j k 0 : ℕ) = j 0 := by
  simp [DotDims.lhsIdx, Dws, dot_S5000x150_S150x100_S5000x100_1_0_0_1_n_n]; rfl
theorem lhs_ws_1 (j : S5000x100.Idx) (k : Dws.contr.Idx) : (Dws.lhsIdx j k 1 : ℕ) = k ⟨0, by decide⟩ := by
  simp [DotDims.lhsIdx, Dws, dot_S5000x150_S150x100_S5000x100_1_0_0_1_n_n]; rfl
theorem rhs_ws_0 (j : S5000x100.Idx) (k : Dws.contr.Idx) : (Dws.rhsIdx j k 0 : ℕ) = k ⟨0, by decide⟩ := by
  simp [DotDims.rhsIdx, Dws, dot_S5000x150_S150x100_S5000x100_1_0_0_1_n_n]; rfl
theorem rhs_ws_1 (j : S5000x100.Idx) (k : Dws.contr.Idx) : (Dws.rhsIdx j k 1 : ℕ) = j 1 := by
  simp [DotDims.rhsIdx, Dws, dot_S5000x150_S150x100_S5000x100_1_0_0_1_n_n]; rfl

theorem lhs_w3_0 (j : S5000x64.Idx) (k : Dw3.contr.Idx) : (Dw3.lhsIdx j k 0 : ℕ) = j 0 := by
  simp [DotDims.lhsIdx, Dw3, dot_S5000x100_S100x64_S5000x64_1_0_0_1_n_n]; rfl
theorem lhs_w3_1 (j : S5000x64.Idx) (k : Dw3.contr.Idx) : (Dw3.lhsIdx j k 1 : ℕ) = k ⟨0, by decide⟩ := by
  simp [DotDims.lhsIdx, Dw3, dot_S5000x100_S100x64_S5000x64_1_0_0_1_n_n]; rfl
theorem rhs_w3_0 (j : S5000x64.Idx) (k : Dw3.contr.Idx) : (Dw3.rhsIdx j k 0 : ℕ) = k ⟨0, by decide⟩ := by
  simp [DotDims.rhsIdx, Dw3, dot_S5000x100_S100x64_S5000x64_1_0_0_1_n_n]; rfl
theorem rhs_w3_1 (j : S5000x64.Idx) (k : Dw3.contr.Idx) : (Dw3.rhsIdx j k 1 : ℕ) = j 1 := by
  simp [DotDims.rhsIdx, Dw3, dot_S5000x100_S100x64_S5000x64_1_0_0_1_n_n]; rfl

/-- The first product into the zero rows, at (p, k): the sum over the 150 columns of row p. -/
theorem mm_ws (a : FVec Ideal S5000x150 .f32) (b : FVec Ideal S150x100 .f32) (p : Fin 5000) (k : Fin 100) :
    FloatOps.matmul Dws none a b (constant S5000x100 .f32 0x00000000#32) (ix2 p k)
      = ∑ k' : Fin 150, a (ix2 p k') * b (ix2 k' k) := by
  rw [Ideal.matmul_constant_zero_apply, ← Equiv.sum_comp (contrEquiv1 Dws 150 rfl rfl).symm]
  refine Finset.sum_congr rfl fun c _ => ?_
  congr 2
  · exact Shape.idx_ext₂ (lhs_ws_0 _ _) ((lhs_ws_1 _ _).trans (contrEquiv1_symm_val Dws 150 rfl rfl c))
  · exact Shape.idx_ext₂ ((rhs_ws_0 _ _).trans (contrEquiv1_symm_val Dws 150 rfl rfl c)) (rhs_ws_1 _ _)

/-- The second product into the zero rows, at (p, j): the sum over the 100 columns of row p. -/
theorem mm_w3 (a : FVec Ideal S5000x100 .f32) (b : FVec Ideal S100x64 .f32) (p : Fin 5000) (j : Fin 64) :
    FloatOps.matmul Dw3 none a b (constant S5000x64 .f32 0x00000000#32) (ix2 p j)
      = ∑ k : Fin 100, a (ix2 p k) * b (ix2 k j) := by
  rw [Ideal.matmul_constant_zero_apply, ← Equiv.sum_comp (contrEquiv1 Dw3 100 rfl rfl).symm]
  refine Finset.sum_congr rfl fun c _ => ?_
  congr 2
  · exact Shape.idx_ext₂ (lhs_w3_0 _ _) ((lhs_w3_1 _ _).trans (contrEquiv1_symm_val Dw3 100 rfl rfl c))
  · exact Shape.idx_ext₂ ((rhs_w3_0 _ _).trans (contrEquiv1_symm_val Dw3 100 rfl rfl c)) (rhs_w3_1 _ _)

/-! ## The broadcasts at an index -/

/-- The degree column spread over 100 columns reads the column's entry of the row. -/
theorem bcast_col (x : FVec Ideal S5000x1 .f32) (p : Fin 5000) (k : Fin 100) :
    broadcastTo S5000x100 x Gen.broadcasts_S5000x1_S5000x100 (ix2 p k) = x (ix2 p (0 : Fin 1)) :=
  broadcastTo_apply x _ (ix2 p k) (ix2 p (0 : Fin 1)) fun a => match a with | ⟨0, _⟩ => rfl | ⟨1, _⟩ => rfl

/-- A bias row spread over 5000 rows reads the row's entry of the column. -/
theorem bcast_row100 (x : FVec Ideal S1x100 .f32) (p : Fin 5000) (k : Fin 100) :
    broadcastTo S5000x100 x Gen.broadcasts_S1x100_S5000x100 (ix2 p k) = x (ix2 (0 : Fin 1) k) :=
  broadcastTo_apply x _ (ix2 p k) (ix2 (0 : Fin 1) k) fun a => match a with | ⟨0, _⟩ => rfl | ⟨1, _⟩ => rfl

theorem bcast_row64 (x : FVec Ideal S1x64 .f32) (p : Fin 5000) (j : Fin 64) :
    broadcastTo S5000x64 x Gen.broadcasts_S1x64_S5000x64 (ix2 p j) = x (ix2 (0 : Fin 1) j) :=
  broadcastTo_apply x _ (ix2 p j) (ix2 (0 : Fin 1) j) fun a => match a with | ⟨0, _⟩ => rfl | ⟨1, _⟩ => rfl

/-! ## The unit at an index -/

/-- The comparison with zero, the exponential, the subtraction of one and the choice, entry by entry, are the
    exponential-linear unit of the entry. -/
theorem elu_vec {s : Shape} (v : FVec Ideal s .f32) (i : s.Idx) :
    select (cmpf .ogt v (broadcast s (Scalar.ofBits (F := Ideal) .f32 0x00000000#32))) v
      (subf (exp v) (broadcast s (Scalar.ofBits (F := Ideal) .f32 0x3F800000#32))) i = Gnn.elu (v i) := by
  show Scalar.select (FloatOps.cmpf .ogt (v i) (Ideal.ofBits .f32 0x00000000#32)) (v i)
      (Ideal.exp (v i) - Ideal.ofBits .f32 0x3F800000#32) = _
  rw [Ideal.ofBits_zero_f32, Ideal.ofBits_one_f32]
  rfl

/-! ## The body's stored value at an index -/

/-- Row p, column j of what the body stores, over any seven loaded blocks: two layers of row p. -/
theorem pay_apply (x0 : Vec Ideal S5000x150 .f32) (x1 : Vec Ideal S5000x100 .f32) (x2 : Vec Ideal S5000x1 .f32)
    (x3 : Vec Ideal S150x100 .f32) (x4 : Vec Ideal S1x100 .f32) (x5 : Vec Ideal S100x64 .f32) (x6 : Vec Ideal S1x64 .f32)
    (p : Fin 5000) (j : Fin 64) :
    Gen.k1_pay1 x0 x1 x2 x3 x4 x5 x6 (ix2 p j)
      = Gnn.elu ((∑ k : Fin 100,
            Gnn.elu (((∑ k' : Fin 150, x0 (ix2 p k') * x3 (ix2 k' k))
                + Ideal.div (x1 (ix2 p k)) (x2 (ix2 p (0 : Fin 1))))
              + x4 (ix2 (0 : Fin 1) k))
            * x5 (ix2 k j)) + x6 (ix2 (0 : Fin 1) j)) := by
  unfold Gen.k1_pay1
  simp only [shapeCast_self]
  refine (elu_vec _ _).trans (congrArg Gnn.elu ?_)
  rw [addf_apply, bcast_row64]
  refine congrArg (· + x6 (ix2 (0 : Fin 1) j)) ?_
  refine (mm_w3 _ _ p j).trans (Finset.sum_congr rfl fun k _ => congrArg (· * x5 (ix2 k j)) ?_)
  refine (elu_vec _ _).trans (congrArg Gnn.elu ?_)
  rw [addf_apply, addf_apply, bcast_row100, divf_apply, bcast_col]
  refine congrArg (fun z => z + Ideal.div (x1 (ix2 p k)) (x2 (ix2 p (0 : Fin 1))) + x4 (ix2 (0 : Fin 1) k)) ?_
  exact mm_ws _ _ p k

/-! ## One row of the result, and the whole array

Row n of the result is two layers of row n of the operands: the unit of (row n of the first layer times Ws, plus
row n of the aggregated projection divided by the degree column's entry at n, plus the first bias row), then that row
times W3 plus the last bias row, under the unit again. -/

/-- Row n, column j of the result, over the seven operand arrays. -/
def rowOut (H : Gnn.Mat 50000 150) (NS : Gnn.Mat 50000 100) (D : Gnn.Mat 50000 1) (WS : Gnn.Mat 150 100)
    (B2 : Gnn.Mat 1 100) (W3 : Gnn.Mat 100 64) (B3 : Gnn.Mat 1 64) (n : Fin 50000) (j : Fin 64) : EReal :=
  Gnn.elu ((∑ k : Fin 100,
        Gnn.elu (((∑ k' : Fin 150, H (ix2 n k') * WS (ix2 k' k))
            + Ideal.div (NS (ix2 n k)) (D (ix2 n (0 : Fin 1))))
          + B2 (ix2 (0 : Fin 1) k))
        * W3 (ix2 k j)) + B3 (ix2 (0 : Fin 1) j))

/-- The result array, index by index. -/
def wholeOut (H : Gnn.Mat 50000 150) (NS : Gnn.Mat 50000 100) (D : Gnn.Mat 50000 1) (WS : Gnn.Mat 150 100)
    (B2 : Gnn.Mat 1 100) (W3 : Gnn.Mat 100 64) (B3 : Gnn.Mat 1 64) : Gnn.Mat 50000 64 :=
  fun i => rowOut H NS D WS B2 W3 B3 ⟨(i 0).val, idx2_lt0 i⟩ ⟨(i 1).val, idx2_lt1 i⟩

/-- What the body stores at (p, j) when its three row blocks are rows r p of three arrays: row r p of the result. -/
theorem pay_block (x0 : Vec Ideal S5000x150 .f32) (x1 : Vec Ideal S5000x100 .f32) (x2 : Vec Ideal S5000x1 .f32)
    (x3 : Vec Ideal S150x100 .f32) (x4 : Vec Ideal S1x100 .f32) (x5 : Vec Ideal S100x64 .f32) (x6 : Vec Ideal S1x64 .f32)
    (H : Gnn.Mat 50000 150) (NS : Gnn.Mat 50000 100) (D : Gnn.Mat 50000 1) (r : Fin 5000 → Fin 50000)
    (e0 : ∀ (p : Fin 5000) (k : Fin 150), x0 (ix2 p k) = H (ix2 (r p) k))
    (e1 : ∀ (p : Fin 5000) (k : Fin 100), x1 (ix2 p k) = NS (ix2 (r p) k))
    (e2 : ∀ p : Fin 5000, x2 (ix2 p (0 : Fin 1)) = D (ix2 (r p) (0 : Fin 1)))
    (WS : Gnn.Mat 150 100) (B2 : Gnn.Mat 1 100) (W3 : Gnn.Mat 100 64) (B3 : Gnn.Mat 1 64)
    (e3 : x3 = WS) (e4 : x4 = B2) (e5 : x5 = W3) (e6 : x6 = B3)
    (p : Fin 5000) (j : Fin 64) :
    Gen.k1_pay1 x0 x1 x2 x3 x4 x5 x6 (ix2 p j) = wholeOut H NS D WS B2 W3 B3 (ix2 (r p) j) := by
  subst e3 e4 e5 e6
  rw [pay_apply]
  show _ = rowOut H NS D x3 x4 x5 x6 (r p) j
  unfold rowOut
  simp only [e0, e1, e2]

/-! ## The blocks of a grid point

Point t reads rows 5000 t … 5000 t + 4999 of the three row-blocked operands, the four small operands whole, and
writes rows 5000 t … 5000 t + 4999 of the result: a block's coordinate in its array is the block index times the
block's size plus the coordinate inside the block. -/

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The grid has ten points. -/
theorem lt10 (t : Fin cfg1.N) : t.val < 10 := lt_of_lt_of_eq t.isLt Gen.N_1

/-- The array row of row p of point t's block. -/
def rowAt (t : Fin cfg1.N) (p : Fin 5000) : Fin 50000 := ⟨t.val * 5000 + p.val, by have := lt10 t; omega⟩

/-- The index maps over the grid: the row-blocked windows are at block (t, 0), the small ones at (0, 0). -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem blk0 (t : Fin cfg1.N) (p : Fin 5000) (k : Fin 150) :
    (Gen.iblk1 V c 0 t : Vec Ideal S5000x150 .f32) (ix2 p k) = h1in V c (ix2 (rowAt t p) k) := by
  obtain ⟨e0, e1, -⟩ := idx_facts t
  show h1in V c (((cfg1.win 0).blk t).view.emb (ix2 p k)) = h1in V c (ix2 (rowAt t p) k)
  refine congrArg (h1in V c) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 150 + 1 * k.val = k.val; rw [e1]; omega

theorem blk1 (t : Fin cfg1.N) (p : Fin 5000) (k : Fin 100) :
    (Gen.iblk1 V c 1 t : Vec Ideal S5000x100 .f32) (ix2 p k) = nsp1 V c (ix2 (rowAt t p) k) := by
  obtain ⟨-, -, e0, e1, -⟩ := idx_facts t
  show nsp1 V c (((cfg1.win 1).blk t).view.emb (ix2 p k)) = nsp1 V c (ix2 (rowAt t p) k)
  refine congrArg (nsp1 V c) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 100 + 1 * k.val = k.val; rw [e1]; omega

theorem blk2 (t : Fin cfg1.N) (p : Fin 5000) :
    (Gen.iblk1 V c 2 t : Vec Ideal S5000x1 .f32) (ix2 p (0 : Fin 1)) = dcol1 V c (ix2 (rowAt t p) (0 : Fin 1)) := by
  obtain ⟨-, -, -, -, e0, e1, -⟩ := idx_facts t
  show dcol1 V c (((cfg1.win 2).blk t).view.emb (ix2 p (0 : Fin 1))) = dcol1 V c (ix2 (rowAt t p) (0 : Fin 1))
  refine congrArg (dcol1 V c) (funext fun a => Fin.ext ?_)
  match a with
  | ⟨0, _⟩ => show win1_2.index t (0 : Fin 2) * 5000 + 1 * p.val = t.val * 5000 + p.val; rw [e0]; omega
  | ⟨1, _⟩ => show win1_2.index t (1 : Fin 2) * 1 + 1 * 0 = 0; rw [e1]

theorem blk3 (t : Fin cfg1.N) : (Gen.iblk1 V c 3 t : Vec Ideal S150x100 .f32) = ws1 V c := by
  obtain ⟨-, -, -, -, -, -, e0, e1, -⟩ := idx_facts t
  funext y
  show ws1 V c (((cfg1.win 3).blk t).view.emb y) = ws1 V c y
  refine congrArg (ws1 V c) (funext fun a => Fin.ext ?_)
  match a with
  | ⟨0, _⟩ => show win1_3.index t (0 : Fin 2) * 150 + 1 * (y 0).val = (y 0).val; rw [e0]; omega
  | ⟨1, _⟩ => show win1_3.index t (1 : Fin 2) * 100 + 1 * (y 1).val = (y 1).val; rw [e1]; omega

theorem blk4 (t : Fin cfg1.N) : (Gen.iblk1 V c 4 t : Vec Ideal S1x100 .f32) = b2row1 V c := by
  obtain ⟨-, -, -, -, -, -, -, -, e0, e1, -⟩ := idx_facts t
  funext y
  show b2row1 V c (((cfg1.win 4).blk t).view.emb y) = b2row1 V c y
  refine congrArg (b2row1 V c) (funext fun a => Fin.ext ?_)
  match a with
  | ⟨0, _⟩ => show win1_4.index t (0 : Fin 2) * 1 + 1 * (y 0).val = (y 0).val; rw [e0]; omega
  | ⟨1, _⟩ => show win1_4.index t (1 : Fin 2) * 100 + 1 * (y 1).val = (y 1).val; rw [e1]; omega

theorem blk5 (t : Fin cfg1.N) : (Gen.iblk1 V c 5 t : Vec Ideal S100x64 .f32) = w3_1 V c := by
  obtain ⟨-, -, -, -, -, -, -, -, -, -, e0, e1, -⟩ := idx_facts t
  funext y
  show w3_1 V c (((cfg1.win 5).blk t).view.emb y) = w3_1 V c y
  refine congrArg (w3_1 V c) (funext fun a => Fin.ext ?_)
  match a with
  | ⟨0, _⟩ => show win1_5.index t (0 : Fin 2) * 100 + 1 * (y 0).val = (y 0).val; rw [e0]; omega
  | ⟨1, _⟩ => show win1_5.index t (1 : Fin 2) * 64 + 1 * (y 1).val = (y 1).val; rw [e1]; omega

theorem blk6 (t : Fin cfg1.N) : (Gen.iblk1 V c 6 t : Vec Ideal S1x64 .f32) = b3row1 V c := by
  obtain ⟨-, -, -, -, -, -, -, -, -, -, -, -, e0, e1, -⟩ := idx_facts t
  funext y
  show b3row1 V c (((cfg1.win 6).blk t).view.emb y) = b3row1 V c y
  refine congrArg (b3row1 V c) (funext fun a => Fin.ext ?_)
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

/-- Any array read through the result window's block at point t, at (p, j), is the array at row 5000 t + p. -/
theorem blk7 (Gf : Gnn.Mat 50000 64) (t : Fin cfg1.N) (p : Fin 5000) (j : Fin 64) :
    (((cfg1.win 7).blk t).view.read (Elt Ideal) Gf : Vec Ideal S5000x64 .f32) (ix2 p j) = Gf (ix2 (rowAt t p) j) := by
  obtain ⟨-, -, -, -, -, -, -, -, -, -, -, -, -, -, e0, e1⟩ := idx_facts t
  show Gf (((cfg1.win 7).blk t).view.emb (ix2 p j)) = Gf (ix2 (rowAt t p) j)
  refine congrArg Gf (funext fun a => Fin.ext ?_)
  match a with
  | ⟨0, _⟩ => show win1_7.index t (0 : Fin 2) * 5000 + 1 * p.val = t.val * 5000 + p.val; rw [e0]; omega
  | ⟨1, _⟩ => show win1_7.index t (1 : Fin 2) * 64 + 1 * j.val = j.val; rw [e1]; omega

/-! ## What a point writes back, the cover, and the array -/

/-- Point t writes back rows 5000 t … 5000 t + 4999 of the whole-array function. -/
theorem flushed_eq (t : Fin cfg1.N) :
    (Gen.dat1 (F := Ideal) V c).flushed 7 t
      = ((cfg1.win 7).blk t).view.read (Elt Ideal)
          (wholeOut (h1in V c) (nsp1 V c) (dcol1 V c) (ws1 V c) (b2row1 V c) (w3_1 V c) (b3row1 V c)) := by
  show (cfg1.win 7).cut (grid1.coords t) ((Gen.dat1 V c).after 7 t) = _
  rw [Gen.after1_7]
  unfold Gen.out1_7
  rw [View.canon_unit_zero hz]
  simp only [View.ld_unit_zero (S := S5000x150) hz, View.ld_unit_zero (S := S5000x100) hz,
    View.ld_unit_zero (S := S5000x1) hz, View.ld_unit_zero (S := S150x100) hz, View.ld_unit_zero (S := S1x100) hz,
    View.ld_unit_zero (S := S100x64) hz, View.ld_unit_zero (S := S1x64) hz]
  funext y
  obtain ⟨p, j, rfl⟩ : ∃ (p : Fin 5000) (j : Fin 64), y = ix2 p j := ⟨y 0, y 1, eq_ix2 (n0 := 5000) (n1 := 64) y⟩
  exact (pay_block (Gen.iblk1 V c 0 t) (Gen.iblk1 V c 1 t) (Gen.iblk1 V c 2 t) (Gen.iblk1 V c 3 t) (Gen.iblk1 V c 4 t)
    (Gen.iblk1 V c 5 t) (Gen.iblk1 V c 6 t) (h1in V c) (nsp1 V c) (dcol1 V c) (rowAt t)
    (blk0 V c t) (blk1 V c t) (blk2 V c t) (ws1 V c) (b2row1 V c) (w3_1 V c) (b3row1 V c)
    (blk3 V c t) (blk4 V c t) (blk5 V c t) (blk6 V c t) p j).trans
    (blk7 (wholeOut (h1in V c) (nsp1 V c) (dcol1 V c) (ws1 V c) (b2row1 V c) (w3_1 V c) (b3row1 V c)) t p j).symm

/-- An index of the result array is in point t's block exactly when each coordinate is in the block's range. -/
theorem mem_blk (t : Fin cfg1.N) (i : S50000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v42).slice (win1_7.rect t)).set ↔ _
  rw [View.set_slice_whole, Rect.mem_set_unit]
  exact Iff.rfl

/-- Row n is in the block of the point n / 5000, and every point writes back. -/
theorem cover (i : S50000x64.Idx) :
    ∃ t : Fin cfg1.N, (cfg1.win 7).flush t = true ∧ i ∈ ((cfg1.win 7).blk t).view.set := by
  have hi0 : (i 0).val < 50000 := idx2_lt0 i
  have hi1 : (i 1).val < 64 := idx2_lt1 i
  have hN : cfg1.N = 10 := Gen.N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, e0, e1⟩ := idx_facts t
  refine ⟨t, Gen.flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 64 ≤ (i 1).val ∧ (i 1).val < win1_7.index t (1 : Fin 2) * 64 + 64
    rw [e1]; omega

/-- The result array after the ten points is the whole-array function of the seven operand arrays. -/
theorem res1_eq :
    res1 V c = wholeOut (h1in V c) (nsp1 V c) (dcol1 V c) (ws1 V c) (b2row1 V c) (w3_1 V c) (b3row1 V c) :=
  (Gen.dat1 (F := Ideal) V c).arrAt_eq_of_cover 7 _ (fun t _ => flushed_eq V c t) cover

theorem out_apply (n : Fin 50000) (j : Fin 64) :
    res1 V c (ix2 n j)
      = Gnn.elu ((∑ k : Fin 100,
            Gnn.elu (((∑ k' : Fin 150, h1in V c (ix2 n k') * ws1 V c (ix2 k' k))
                + Ideal.div (nsp1 V c (ix2 n k)) (dcol1 V c (ix2 n (0 : Fin 1))))
              + b2row1 V c (ix2 (0 : Fin 1) k))
            * w3_1 V c (ix2 k j)) + b3row1 V c (ix2 (0 : Fin 1) j)) :=
  (congrFun (res1_eq V c) (ix2 n j)).trans rfl

end Cert.KernelIdeal.KReg1

end
-- ==== Proof.KValue.lean ====
/-
  The idealized kernel's result array as a function of the launch memory: the last boundary's contents at the result
  buffer are the second region's array, read over what the second host stretch leaves, which reads what the first
  region left, which reads what the first host stretch leaves of the arguments. Put together, index by index, this is
  the program that projects first (Spec.lean's resProj).
-/
import proofs.«407557_j3874060501607_3_alg».proof.Proof.Gen.KernelIdeal.Frame
import proofs.«407557_j3874060501607_3_alg».proof.Proof.Args
import proofs.«407557_j3874060501607_3_alg».proof.Proof.KNames
import proofs.«407557_j3874060501607_3_alg».proof.Proof.KHost0
import proofs.«407557_j3874060501607_3_alg».proof.Proof.KReg0
import proofs.«407557_j3874060501607_3_alg».proof.Proof.KHost1
import proofs.«407557_j3874060501607_3_alg».proof.Proof.KReg1

noncomputable section

open scoped BigOperators
open Idealize.ShloMosaic Idealize.ShloMosaic.TcCoe Idealize.SL.Sem Idealize.ShloMosaic.ValueIdx
open Cert.KernelIdeal
namespace Cert.KernelIdeal.KValue

variable (m : (ℓ : Loc nD τ sig) → Buf (Elt Ideal) ℓ) (ρ : Dev nD → PrngReg) (c : Dev nD)

/-- The first layer the first region leaves is the specification's, at every (n, k). -/
theorem h1out_apply (n : Fin 50000) (k : Fin 150) :
    KNames.h1out (Gen.V1 (F := Ideal) m ρ) c (ix2 n k)
      = Gnn.h1At (Args.x m c) (Args.src m c) (Args.dst m c) (Args.W1 m c) (Args.b1 m c) n k := by
  rw [KReg0.h1_apply]
  unfold Gnn.h1At
  rw [KHost0.ncol_apply, KHost0.brow_apply, KHost0.w1_eq]
  have hs : (∑ k' : Fin 128, (KNames.agg0 (Gen.V1 (F := Ideal) m ρ) c (ix2 n k') * Gnn.normAt (Args.dst m c) n) * Args.W1 m c (ix2 k' k))
      = ∑ k' : Fin 128, (Gnn.aggAt (Args.x m c) (Args.src m c) (Args.dst m c) n k' * Gnn.normAt (Args.dst m c) n) * Args.W1 m c (ix2 k' k) :=
    Finset.sum_congr rfl fun k' _ => by rw [KHost0.agg_apply m ρ c n k']
  rw [hs]

/-- The projection the first region leaves is the first layer through Wn. -/
theorem pout_apply (n : Fin 50000) (j : Fin 100) :
    KNames.pout (Gen.V1 (F := Ideal) m ρ) c (ix2 n j)
      = Gnn.projAt (Gnn.h1At (Args.x m c) (Args.src m c) (Args.dst m c) (Args.W1 m c) (Args.b1 m c)) (Args.Wn m c) n j := by
  rw [KReg0.p_apply]
  unfold Gnn.projAt
  rw [KHost0.wn_eq]
  exact Finset.sum_congr rfl fun k _ => congrArg (fun s => s * Args.Wn m c (ix2 k j)) (h1out_apply m ρ c n k)

/-! What the second host stretch starts from: the first region's arrays where it wrote, the first stretch's
    contents elsewhere. -/

theorem w2_h1 : KNames.h1in (KHost1.before1 (Gen.W2 (F := Ideal) m ρ)) c = KNames.h1out (Gen.V1 (F := Ideal) m ρ) c :=
  Gen.W2_arr m ρ c 5
theorem w2_p : KNames.pin (KHost1.before1 (Gen.W2 (F := Ideal) m ρ)) c = KNames.pout (Gen.V1 (F := Ideal) m ρ) c :=
  Gen.W2_arr m ρ c 6
theorem w2_src : KNames.srcB (KHost1.before1 (Gen.W2 (F := Ideal) m ρ)) c = Args.src m c :=
  (Gen.W2_of_ne m ρ c main_arg1 (by decide)).trans (KHost0.src_eq m ρ c)
theorem w2_dst : KNames.dstB (KHost1.before1 (Gen.W2 (F := Ideal) m ρ)) c = Args.dst m c :=
  (Gen.W2_of_ne m ρ c main_arg2 (by decide)).trans (KHost0.dst_eq m ρ c)
theorem w2_dd (n : Fin 50000) :
    KNames.dd1d (KHost1.before1 (Gen.W2 (F := Ideal) m ρ)) c (ix1 n) = Gnn.ddAt (Args.dst m c) n :=
  (congrFun (Gen.W2_of_ne m ρ c main_v10 (by decide)) (ix1 n)).trans (KHost0.dd_apply m ρ c n)
theorem w2_ws : KNames.ws1 (KHost1.before1 (Gen.W2 (F := Ideal) m ρ)) c = Args.Ws m c :=
  (Gen.W2_of_ne m ρ c main_arg6 (by decide)).trans (KHost0.ws_eq m ρ c)
theorem w2_b2 : KNames.b2B (KHost1.before1 (Gen.W2 (F := Ideal) m ρ)) c = Args.b2 m c :=
  (Gen.W2_of_ne m ρ c main_arg7 (by decide)).trans (KHost0.b2_eq m ρ c)
theorem w2_w3 : KNames.w3_1 (KHost1.before1 (Gen.W2 (F := Ideal) m ρ)) c = Args.W3 m c :=
  (Gen.W2_of_ne m ρ c main_arg8 (by decide)).trans (KHost0.w3_eq m ρ c)
theorem w2_b3 : KNames.b3B (KHost1.before1 (Gen.W2 (F := Ideal) m ρ)) c = Args.b3 m c :=
  (Gen.W2_of_ne m ρ c main_arg9 (by decide)).trans (KHost0.b3_eq m ρ c)

/-- THE KERNEL'S RESULT: the array the run leaves at the result buffer is the projecting program's. -/
theorem result :
    (Gen.W4 (F := Ideal) m ρ c (Proc.devRef .tc main_v42) : Gnn.Mat 50000 64)
      = Gnn.resProj (Args.x m c) (Args.src m c) (Args.dst m c) (Args.W1 m c) (Args.b1 m c) (Args.Wn m c) (Args.Ws m c)
          (Args.b2 m c) (Args.W3 m c) (Args.b3 m c) := by
  have e7 : (Gen.W4 (F := Ideal) m ρ c (Proc.devRef .tc main_v42) : Gnn.Mat 50000 64)
      = KNames.res1 (KHost1.after1 (Gen.W2 (F := Ideal) m ρ)) c := Gen.W4_arr m ρ c 7
  rw [e7]
  funext i
  obtain ⟨n, j, rfl⟩ : ∃ (n : Fin 50000) (j : Fin 64), i = ix2 n j := ⟨i 0, i 1, eq_ix2 i⟩
  rw [KReg1.out_apply]
  unfold Gnn.resProj
  rw [Gnn.outArr_apply]
  unfold Gnn.outAt
  have hb3 : KNames.b3row1 (KHost1.after1 (Gen.W2 (F := Ideal) m ρ)) c (ix2 (0 : Fin 1) j) = Args.b3 m c (ix1 j) :=
    (KHost1.b3row_apply (Gen.W2 (F := Ideal) m ρ) c j).trans (congrFun (w2_b3 m ρ c) (ix1 j))
  have hw3 : ∀ k : Fin 100, KNames.w3_1 (KHost1.after1 (Gen.W2 (F := Ideal) m ρ)) c (ix2 k j) = Args.W3 m c (ix2 k j) :=
    fun k => congrFun ((KHost1.w3_eq (Gen.W2 (F := Ideal) m ρ) c).trans (w2_w3 m ρ c)) (ix2 k j)
  have hb2 : ∀ k : Fin 100, KNames.b2row1 (KHost1.after1 (Gen.W2 (F := Ideal) m ρ)) c (ix2 (0 : Fin 1) k) = Args.b2 m c (ix1 k) :=
    fun k => (KHost1.b2row_apply (Gen.W2 (F := Ideal) m ρ) c k).trans (congrFun (w2_b2 m ρ c) (ix1 k))
  have hws : ∀ (k' : Fin 150) (k : Fin 100),
      KNames.ws1 (KHost1.after1 (Gen.W2 (F := Ideal) m ρ)) c (ix2 k' k) = Args.Ws m c (ix2 k' k) :=
    fun k' k => congrFun ((KHost1.ws_eq (Gen.W2 (F := Ideal) m ρ) c).trans (w2_ws m ρ c)) (ix2 k' k)
  have hh1 : ∀ k' : Fin 150, KNames.h1in (KHost1.after1 (Gen.W2 (F := Ideal) m ρ)) c (ix2 n k')
      = Gnn.h1At (Args.x m c) (Args.src m c) (Args.dst m c) (Args.W1 m c) (Args.b1 m c) n k' :=
    fun k' => (congrFun ((KHost1.h1_eq (Gen.W2 (F := Ideal) m ρ) c).trans (w2_h1 m ρ c)) (ix2 n k')).trans
      (h1out_apply m ρ c n k')
  have hd : KNames.dcol1 (KHost1.after1 (Gen.W2 (F := Ideal) m ρ)) c (ix2 n (0 : Fin 1)) = Gnn.ddAt (Args.dst m c) n :=
    (KHost1.dcol_apply (Gen.W2 (F := Ideal) m ρ) c n).trans (w2_dd m ρ c n)
  have hnsp : ∀ k : Fin 100, KNames.nsp1 (KHost1.after1 (Gen.W2 (F := Ideal) m ρ)) c (ix2 n k)
      = 0 + ∑ e ∈ Gnn.edgesAt (Args.dst m c) n,
          Gnn.projAt (Gnn.h1At (Args.x m c) (Args.src m c) (Args.dst m c) (Args.W1 m c) (Args.b1 m c)) (Args.Wn m c)
            (Gnn.rowOf (Args.src m c) e) k := by
    intro k
    refine (KHost1.nsp_apply (Gen.W2 (F := Ideal) m ρ) c n k).trans ?_
    rw [w2_dst m ρ c, w2_src m ρ c, w2_p m ρ c]
    have hs : (∑ e ∈ Gnn.edgesAt (Args.dst m c) n, KNames.pout (Gen.V1 (F := Ideal) m ρ) c (ix2 (Gnn.rowOf (Args.src m c) e) k))
        = ∑ e ∈ Gnn.edgesAt (Args.dst m c) n,
            Gnn.projAt (Gnn.h1At (Args.x m c) (Args.src m c) (Args.dst m c) (Args.W1 m c) (Args.b1 m c)) (Args.Wn m c)
              (Gnn.rowOf (Args.src m c) e) k :=
      Finset.sum_congr rfl fun e _ => pout_apply m ρ c (Gnn.rowOf (Args.src m c) e) k
    rw [hs]
  rw [hb3]
  have hin : ∀ k : Fin 100,
      (∑ k' : Fin 150, KNames.h1in (KHost1.after1 (Gen.W2 (F := Ideal) m ρ)) c (ix2 n k')
          * KNames.ws1 (KHost1.after1 (Gen.W2 (F := Ideal) m ρ)) c (ix2 k' k))
        = ∑ k' : Fin 150, Gnn.h1At (Args.x m c) (Args.src m c) (Args.dst m c) (Args.W1 m c) (Args.b1 m c) n k'
            * Args.Ws m c (ix2 k' k) :=
    fun k => Finset.sum_congr rfl fun k' _ => by rw [hh1 k', hws k' k]
  have hout : ∀ k : Fin 100,
      Gnn.elu (((∑ k' : Fin 150, KNames.h1in (KHost1.after1 (Gen.W2 (F := Ideal) m ρ)) c (ix2 n k')
              * KNames.ws1 (KHost1.after1 (Gen.W2 (F := Ideal) m ρ)) c (ix2 k' k))
            + Ideal.div (KNames.nsp1 (KHost1.after1 (Gen.W2 (F := Ideal) m ρ)) c (ix2 n k))
                (KNames.dcol1 (KHost1.after1 (Gen.W2 (F := Ideal) m ρ)) c (ix2 n (0 : Fin 1))))
          + KNames.b2row1 (KHost1.after1 (Gen.W2 (F := Ideal) m ρ)) c (ix2 (0 : Fin 1) k))
        * KNames.w3_1 (KHost1.after1 (Gen.W2 (F := Ideal) m ρ)) c (ix2 k j)
      = Gnn.elu (((∑ k' : Fin 150, Gnn.h1At (Args.x m c) (Args.src m c) (Args.dst m c) (Args.W1 m c) (Args.b1 m c) n k'
              * Args.Ws m c (ix2 k' k))
            + Gnn.midProj (Gnn.h1At (Args.x m c) (Args.src m c) (Args.dst m c) (Args.W1 m c) (Args.b1 m c))
                (Args.src m c) (Args.dst m c) (Args.Wn m c) n k)
          + Args.b2 m c (ix1 k))
        * Args.W3 m c (ix2 k j) := by
    intro k
    rw [hin k, hw3 k, hb2 k, hd, hnsp k]
    rfl
  rw [Finset.sum_congr rfl fun k _ => hout k]

end Cert.KernelIdeal.KValue

end
-- ==== Proof.ROps.lean ====
import proofs.«407557_j3874060501607_3_alg».proof.Proof.Gen.ReferenceIdeal
import Idealize.ShloMosaic.Lib.StableHlo.Run

noncomputable section

namespace Cert.ReferenceIdeal.ROps

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls of the exponential-linear unit written out over their buffer records. -/
abbrev ops : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg1 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg2 main_v5 (broadcastInDim S800000x1 ![0] bcast_S800000_S800000x1_0 : (⟨S800000, .i32⟩ : BufTy).Contents (Elt F) → (⟨S800000x1, .i32⟩ : BufTy).Contents (Elt F)),
    ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v7 (broadcastInDim S50000 ![] bcast_S_S50000 : (⟨S_, .f32⟩ : BufTy).Contents (Elt F) → (⟨S50000, .f32⟩ : BufTy).Contents (Elt F)),
    binary main_v3 main_v7 main_v8 (maximumf : (⟨S50000, .f32⟩ : BufTy).Contents (Elt F) → (⟨S50000, .f32⟩ : BufTy).Contents (Elt F) → (⟨S50000, .f32⟩ : BufTy).Contents (Elt F)),
    unary main_v8 main_v9 (Host.rsqrt : (⟨S50000, .f32⟩ : BufTy).Contents (Elt F) → (⟨S50000, .f32⟩ : BufTy).Contents (Elt F)),
    nullary main_cst_3 (constant S_ .f32 0x3F800000#32),
    unary main_cst_3 main_v10 (broadcastInDim S50000 ![] bcast_S_S50000 : (⟨S_, .f32⟩ : BufTy).Contents (Elt F) → (⟨S50000, .f32⟩ : BufTy).Contents (Elt F)),
    binary main_v6 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    unary main_v9 main_v13 (broadcastInDim S50000x1 ![0] bcast_S50000_S50000x1_0 : (⟨S50000, .f32⟩ : BufTy).Contents (Elt F) → (⟨S50000x1, .f32⟩ : BufTy).Contents (Elt F)),
    unary main_v13 main_v14 (broadcastInDim S50000x128 ![0, 1] bcast_S50000x1_S50000x128_0_1 : (⟨S50000x1, .f32⟩ : BufTy).Contents (Elt F) → (⟨S50000x128, .f32⟩ : BufTy).Contents (Elt F)),
    binary main_arg0 main_v14 main_v15 (mulf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v16 (broadcastInDim S800000 ![] bcast_S_S800000 : (⟨S_, .i32⟩ : BufTy).Contents (Elt F) → (⟨S800000, .i32⟩ : BufTy).Contents (Elt F)),
    binary main_arg1 main_v16 main_v17 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v18 (broadcastInDim S800000 ![] bcast_S_S800000 : (⟨S_, .i32⟩ : BufTy).Contents (Elt F) → (⟨S800000, .i32⟩ : BufTy).Contents (Elt F)),
    binary main_arg1 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_arg1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v15 main_v21 main_v22 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_5 (constant S_ .f32 0x00000000#32),
    unary main_cst_5 main_v23 (broadcastInDim S50000x128 ![] bcast_S_S50000x128 : (⟨S_, .f32⟩ : BufTy).Contents (Elt F) → (⟨S50000x128, .f32⟩ : BufTy).Contents (Elt F)),
    unary main_arg2 main_v24 (broadcastInDim S800000x1 ![0] bcast_S800000_S800000x1_0 : (⟨S800000, .i32⟩ : BufTy).Contents (Elt F) → (⟨S800000x1, .i32⟩ : BufTy).Contents (Elt F)),
    ternary main_v23 main_v24 main_v22 main_v25 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v26 (broadcastInDim S50000x1 ![0] bcast_S50000_S50000x1_0 : (⟨S50000, .f32⟩ : BufTy).Contents (Elt F) → (⟨S50000x1, .f32⟩ : BufTy).Contents (Elt F)),
    unary main_v26 main_v27 (broadcastInDim S50000x128 ![0, 1] bcast_S50000x1_S50000x128_0_1 : (⟨S50000x1, .f32⟩ : BufTy).Contents (Elt F) → (⟨S50000x128, .f32⟩ : BufTy).Contents (Elt F)),
    binary main_v25 main_v27 main_v28 (mulf : (⟨S50000x128, .f32⟩ : BufTy).Contents (Elt F) → (⟨S50000x128, .f32⟩ : BufTy).Contents (Elt F) → (⟨S50000x128, .f32⟩ : BufTy).Contents (Elt F)),
    binary main_v28 main_arg3 main_v29 ((fun l r => Host.dotGeneral dot_S50000x128_S128x150_S50000x150_1_0_0_1_n_n none l r) : (⟨S50000x128, .f32⟩ : BufTy).Contents (Elt F) → (⟨S128x150, .f32⟩ : BufTy).Contents (Elt F) → (⟨S50000x150, .f32⟩ : BufTy).Contents (Elt F)),
    unary main_arg4 main_v30 (broadcastInDim S1x150 ![1] bcast_S150_S1x150_1 : (⟨S150, .f32⟩ : BufTy).Contents (Elt F) → (⟨S1x150, .f32⟩ : BufTy).Contents (Elt F)),
    unary main_v30 main_v31 (broadcastInDim S50000x150 ![0, 1] bcast_S1x150_S50000x150_0_1 : (⟨S1x150, .f32⟩ : BufTy).Contents (Elt F) → (⟨S50000x150, .f32⟩ : BufTy).Contents (Elt F)),
    binary main_v29 main_v31 main_v32 (addf : (⟨S50000x150, .f32⟩ : BufTy).Contents (Elt F) → (⟨S50000x150, .f32⟩ : BufTy).Contents (Elt F) → (⟨S50000x150, .f32⟩ : BufTy).Contents (Elt F)),
    TRef.nullary main_call0.cst (constant S_ .f32 0x00000000#32),
    TRef.unary main_call0.cst main_call0.v0 (broadcastInDim S50000x150 ![] bcast_S_S50000x150),
    TRef.binary (.of main_v32) main_call0.v0 main_call0.v1 (cmpf .ogt),
    TRef.nullary main_call0.cst_0 (constant S_ .f32 0x00000000#32),
    TRef.unary main_call0.cst_0 main_call0.v2 (broadcastInDim S50000x150 ![] bcast_S_S50000x150),
    TRef.binary (.of main_v32) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x150 ![] bcast_S_S50000x150),
    TRef.ternary main_call0.v3 main_call0.call0.v1 (.of main_v32) main_call0.call0.v2 select,
    TRef.unary main_call0.call0.v2 main_call0.v5 Host.expm1,
    TRef.nullary main_call0.cst_2 (constant S_ .f32 0x3F800000#32),
    TRef.unary main_call0.cst_2 main_call0.v6 (broadcastInDim S50000x150 ![] bcast_S_S50000x150),
    TRef.binary main_call0.v6 main_call0.v5 main_call0.v7 mulf,
    TRef.ternary main_call0.v1 (.of main_v32) main_call0.v7 main_call0.call1.v0 select,
    nullary main_c_6 (constantI S_ 32 0#32),
    unary main_c_6 main_v34 (broadcastInDim S800000 ![] bcast_S_S800000 : (⟨S_, .i32⟩ : BufTy).Contents (Elt F) → (⟨S800000, .i32⟩ : BufTy).Contents (Elt F)),
    binary main_arg1 main_v34 main_v35 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v36 (broadcastInDim S800000 ![] bcast_S_S800000 : (⟨S_, .i32⟩ : BufTy).Contents (Elt F) → (⟨S800000, .i32⟩ : BufTy).Contents (Elt F)),
    binary main_arg1 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_arg1 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_v33 main_v39 main_v40 ((fun x i => Host.gather gather_S50000x150_S800000x1_S800000x150_1_0_n_n_0_1_1150 x i) : (⟨S50000x150, .f32⟩ : BufTy).Contents (Elt F) → (⟨S800000x1, .i32⟩ : BufTy).Contents (Elt F) → (⟨S800000x150, .f32⟩ : BufTy).Contents (Elt F)),
    nullary main_cst_8 (constant S_ .f32 0x00000000#32),
    unary main_cst_8 main_v41 (broadcastInDim S50000x150 ![] bcast_S_S50000x150 : (⟨S_, .f32⟩ : BufTy).Contents (Elt F) → (⟨S50000x150, .f32⟩ : BufTy).Contents (Elt F)),
    unary main_arg2 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000x150_S800000x1_S800000x150_1_0_0_1 x i u) : (⟨S50000x150, .f32⟩ : BufTy).Contents (Elt F) → (⟨S800000x1, .i32⟩ : BufTy).Contents (Elt F) → (⟨S800000x150, .f32⟩ : BufTy).Contents (Elt F) → (⟨S50000x150, .f32⟩ : BufTy).Contents (Elt F)),
    nullary main_cst_9 (constant S_ .f32 0x3F800000#32),
    unary main_cst_9 main_v44 (broadcastInDim S50000 ![] bcast_S_S50000 : (⟨S_, .f32⟩ : BufTy).Contents (Elt F) → (⟨S50000, .f32⟩ : BufTy).Contents (Elt F)),
    binary main_v6 main_v44 main_v45 (maximumf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x150 ![0, 1] bcast_S50000x1_S50000x150_0_1 : (⟨S50000x1, .f32⟩ : BufTy).Contents (Elt F) → (⟨S50000x150, .f32⟩ : BufTy).Contents (Elt F)),
    binary main_v43 main_v47 main_v48 (Host.divf : (⟨S50000x150, .f32⟩ : BufTy).Contents (Elt F) → (⟨S50000x150, .f32⟩ : BufTy).Contents (Elt F) → (⟨S50000x150, .f32⟩ : BufTy).Contents (Elt F)),
    binary main_v33 main_arg6 main_v49 ((fun l r => Host.dotGeneral dot_S50000x150_S150x100_S50000x100_1_0_0_1_n_n none l r) : (⟨S50000x150, .f32⟩ : BufTy).Contents (Elt F) → (⟨S150x100, .f32⟩ : BufTy).Contents (Elt F) → (⟨S50000x100, .f32⟩ : BufTy).Contents (Elt F)),
    binary main_v48 main_arg5 main_v50 ((fun l r => Host.dotGeneral dot_S50000x150_S150x100_S50000x100_1_0_0_1_n_n none l r) : (⟨S50000x150, .f32⟩ : BufTy).Contents (Elt F) → (⟨S150x100, .f32⟩ : BufTy).Contents (Elt F) → (⟨S50000x100, .f32⟩ : BufTy).Contents (Elt F)),
    binary main_v49 main_v50 main_v51 (addf : (⟨S50000x100, .f32⟩ : BufTy).Contents (Elt F) → (⟨S50000x100, .f32⟩ : BufTy).Contents (Elt F) → (⟨S50000x100, .f32⟩ : BufTy).Contents (Elt F)),
    unary main_arg7 main_v52 (broadcastInDim S1x100 ![1] bcast_S100_S1x100_1 : (⟨S100, .f32⟩ : BufTy).Contents (Elt F) → (⟨S1x100, .f32⟩ : BufTy).Contents (Elt F)),
    unary main_v52 main_v53 (broadcastInDim S50000x100 ![0, 1] bcast_S1x100_S50000x100_0_1 : (⟨S1x100, .f32⟩ : BufTy).Contents (Elt F) → (⟨S50000x100, .f32⟩ : BufTy).Contents (Elt F)),
    binary main_v51 main_v53 main_v54 (addf : (⟨S50000x100, .f32⟩ : BufTy).Contents (Elt F) → (⟨S50000x100, .f32⟩ : BufTy).Contents (Elt F) → (⟨S50000x100, .f32⟩ : BufTy).Contents (Elt F)),
    TRef.nullary main_call1.cst (constant S_ .f32 0x00000000#32),
    TRef.unary main_call1.cst main_call1.v0 (broadcastInDim S50000x100 ![] bcast_S_S50000x100),
    TRef.binary (.of main_v54) main_call1.v0 main_call1.v1 (cmpf .ogt),
    TRef.nullary main_call1.cst_0 (constant S_ .f32 0x00000000#32),
    TRef.unary main_call1.cst_0 main_call1.v2 (broadcastInDim S50000x100 ![] bcast_S_S50000x100),
    TRef.binary (.of main_v54) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x100 ![] bcast_S_S50000x100),
    TRef.ternary main_call1.v3 main_call1.call0.v1 (.of main_v54) main_call1.call0.v2 select,
    TRef.unary main_call1.call0.v2 main_call1.v5 Host.expm1,
    TRef.nullary main_call1.cst_2 (constant S_ .f32 0x3F800000#32),
    TRef.unary main_call1.cst_2 main_call1.v6 (broadcastInDim S50000x100 ![] bcast_S_S50000x100),
    TRef.binary main_call1.v6 main_call1.v5 main_call1.v7 mulf,
    TRef.ternary main_call1.v1 (.of main_v54) main_call1.v7 main_call1.call1.v0 select,
    binary main_v55 main_arg8 main_v56 ((fun l r => Host.dotGeneral dot_S50000x100_S100x64_S50000x64_1_0_0_1_n_n none l r) : (⟨S50000x100, .f32⟩ : BufTy).Contents (Elt F) → (⟨S100x64, .f32⟩ : BufTy).Contents (Elt F) → (⟨S50000x64, .f32⟩ : BufTy).Contents (Elt F)),
    unary main_arg9 main_v57 (broadcastInDim S1x64 ![1] bcast_S64_S1x64_1 : (⟨S64, .f32⟩ : BufTy).Contents (Elt F) → (⟨S1x64, .f32⟩ : BufTy).Contents (Elt F)),
    unary main_v57 main_v58 (broadcastInDim S50000x64 ![0, 1] bcast_S1x64_S50000x64_0_1 : (⟨S1x64, .f32⟩ : BufTy).Contents (Elt F) → (⟨S50000x64, .f32⟩ : BufTy).Contents (Elt F)),
    binary main_v56 main_v58 main_v59 (addf : (⟨S50000x64, .f32⟩ : BufTy).Contents (Elt F) → (⟨S50000x64, .f32⟩ : BufTy).Contents (Elt F) → (⟨S50000x64, .f32⟩ : BufTy).Contents (Elt F)),
    TRef.nullary main_call2.cst (constant S_ .f32 0x00000000#32),
    TRef.unary main_call2.cst main_call2.v0 (broadcastInDim S50000x64 ![] bcast_S_S50000x64),
    TRef.binary (.of main_v59) main_call2.v0 main_call2.v1 (cmpf .ogt),
    TRef.nullary main_call2.cst_0 (constant S_ .f32 0x00000000#32),
    TRef.unary main_call2.cst_0 main_call2.v2 (broadcastInDim S50000x64 ![] bcast_S_S50000x64),
    TRef.binary (.of main_v59) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S50000x64 ![] bcast_S_S50000x64),
    TRef.ternary main_call2.v3 main_call2.call0.v1 (.of main_v59) main_call2.call0.v2 select,
    TRef.unary main_call2.call0.v2 main_call2.v5 Host.expm1,
    TRef.nullary main_call2.cst_2 (constant S_ .f32 0x3F800000#32),
    TRef.unary main_call2.cst_2 main_call2.v6 (broadcastInDim S50000x64 ![] bcast_S_S50000x64),
    TRef.binary main_call2.v6 main_call2.v5 main_call2.v7 mulf,
    TRef.ternary main_call2.v1 (.of main_v59) main_call2.v7 main_call2.call1.v0 select ]

/-- Every operation names TensorCore buffers only. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

end Cert.ReferenceIdeal.ROps

end
-- ==== Proof.RRun.lean ====
/-
  The idealized reference's @main IS the straight line of its host operations, the three calls of the
  exponential-linear unit written out at their call sites (the operations' list is its own module); so every weakly fair
  execution ends with each buffer at the fold of these operations over the launch contents.
-/
import proofs.«407557_j3874060501607_3_alg».proof.Proof.ROps

noncomputable section

namespace Cert.ReferenceIdeal.RRun

open Cert.ReferenceIdeal Cert.ReferenceIdeal.Gen Cert.ReferenceIdeal.ROps Idealize.ShloMosaic Idealize.ShloMosaic.TcCoe Idealize.SL.Sem Idealize.ShloMosaic.StableHlo

variable {F : FTy → Type} [FloatOps F]

-- a hundred and fifteen binds re-associated: the rewriting under the chain recurses once per statement, and moving every
-- bracket to the right costs a number of steps quadratic in the chain's length
set_option maxRecDepth 8192 in
set_option maxHeartbeats 4000000 in
/-- @main is that straight line: the two windows in sequence, the functions' definitions unfolded at their calls (the
    unit's three calls and, inside each, the two choices'), the records read at their fields. Once sequencing is
    re-associated to the right (`bind_assoc`) and the functions' closing returns absorbed (`pure_bind`), both sides are
    one and the same chain of host steps ending in the return. -/
theorem main_eq (c : Dev nD) : main (F := F) c = seq ops := by
  simp only [main, main_part0, main_part1, fn_elu.body, fn_where.body, fn_where_0.body, fn_elu_1.body, fn_where_2.body,
    fn_where_3.body, fn_elu_4.body, fn_where_5.body, fn_where_6.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, every buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RRun

end
-- ==== Proof.RNames.lean ====
/-
  The reference's arrays at their literal types, over any launch contents V: the ten arguments as launched, and what
  the whole line of operations leaves in the buffers the value proof reads — the in-degree, the first layer, the result.
-/
import proofs.«407557_j3874060501607_3_alg».proof.Proof.ROps
import proofs.«407557_j3874060501607_3_alg».proof.Proof.Spec

noncomputable section

namespace Cert.ReferenceIdeal.RNames

open Cert.ReferenceIdeal Cert.ReferenceIdeal.ROps Idealize.ShloMosaic Idealize.ShloMosaic.TcCoe Idealize.SL.Sem Idealize.ShloMosaic.StableHlo

variable (V : Valuation τ sig (Elt Ideal))

abbrev x : Gnn.Mat 50000 128 := V (main_arg0 : DevRef τ sig)
abbrev src : Gnn.Ids := V (main_arg1 : DevRef τ sig)
abbrev dst : Gnn.Ids := V (main_arg2 : DevRef τ sig)
abbrev W1 : Gnn.Mat 128 150 := V (main_arg3 : DevRef τ sig)
abbrev b1 : Gnn.Arr 150 := V (main_arg4 : DevRef τ sig)
abbrev Wn : Gnn.Mat 150 100 := V (main_arg5 : DevRef τ sig)
abbrev Ws : Gnn.Mat 150 100 := V (main_arg6 : DevRef τ sig)
abbrev b2 : Gnn.Arr 100 := V (main_arg7 : DevRef τ sig)
abbrev W3 : Gnn.Mat 100 64 := V (main_arg8 : DevRef τ sig)
abbrev b3 : Gnn.Arr 64 := V (main_arg9 : DevRef τ sig)

/-- The contents at the end of the line. -/
abbrev fin : Valuation τ sig (Elt Ideal) := after (ops (F := Ideal)) V

/-- The in-degree at the end. -/
abbrev degIn : Gnn.Arr 50000 := fin V (main_v6 : DevRef τ sig)
/-- The first layer at the end. -/
abbrev h1 : Gnn.Mat 50000 150 := fin V (main_v33 : DevRef τ sig)
/-- The result at the end. -/
abbrev res : Gnn.Mat 50000 64 := fin V (main_v60 : DevRef τ sig)

end Cert.ReferenceIdeal.RNames

end
-- ==== Proof.LibSsa.lean ====
/-
  General lemmas about a straight line of host operations in static single assignment: every operation writes one
  buffer of its own, and no buffer is written twice. In such a line the contents a buffer holds at the end are decided
  where it is written: the operation's function applied to what its operands hold AT THE END, since nothing after an
  operand's own writer writes it again. One equation per operation, each about the fold of the whole line, none
  mentioning the rest of the line.
-/
import Idealize.ShloMosaic.Lib.StableHlo.Run

namespace Idealize.ShloMosaic.StableHlo

open Idealize.ShloMosaic Idealize.SL.Sem

variable {τ : Topo} {sig : RefSig} {Val : EltTy → Type}

/-- The line's operations write, one each and in order, exactly the references of the list `W`: the `k`-th operation
    writes the `k`-th reference and nothing else. -/
def WritesAre (ops : List (HloOp τ sig Val)) (W : List (Ref sig .tc)) : Prop :=
  List.Forall₂ (fun op w => op.writes = {(Proc.devRef .tc w : DevRef τ sig)}) ops W

/-- The fold over two lines one after the other is the second line's fold from where the first ends. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- What remains of the line after its first `j` operations writes what remains of the list. -/
theorem WritesAre.drop {ops : List (HloOp τ sig Val)} {W : List (Ref sig .tc)} (hW : WritesAre ops W) (j : ℕ) :
    WritesAre (ops.drop j) (W.drop j) := by
  unfold WritesAre at hW ⊢
  induction hW generalizing j with
  | nil => simp only [List.drop_nil]; exact List.Forall₂.nil
  | cons h t ih =>
    cases j with
    | zero => exact List.Forall₂.cons h t
    | succ j => simpa only [List.drop_succ_cons] using ih j

/-- A reference the line never writes holds at the end what it held at the start. -/
theorem after_keep {ops : List (HloOp τ sig Val)} {W : List (Ref sig .tc)} (hW : WritesAre ops W)
    (F0 : Valuation τ sig Val) {r : Ref sig .tc} (hr : r ∉ W) :
    after ops F0 (Proc.devRef .tc r) = F0 (Proc.devRef .tc r) := by
  unfold WritesAre at hW
  induction hW generalizing F0 with
  | nil => rfl
  | cons h _ ih =>
    rw [after_cons, ih _ fun hm => hr (List.mem_cons_of_mem _ hm), HloOp.result_of_not_mem]
    rw [h, Finset.mem_singleton]
    exact fun e => hr (Proc.devRef_injective _ e ▸ List.mem_cons_self)

/-- A reference no operation from the `k`-th on writes holds at the end what it held after the first `k` operations. -/
theorem after_eq_take {ops : List (HloOp τ sig Val)} {W : List (Ref sig .tc)} (hW : WritesAre ops W)
    (F0 : Valuation τ sig Val) (k : ℕ) {r : Ref sig .tc} (hr : r ∉ W.drop k) :
    after ops F0 (Proc.devRef .tc r) = after (ops.take k) F0 (Proc.devRef .tc r) := by
  conv_lhs => rw [← List.take_append_drop k ops, after_append]
  exact after_keep (hW.drop k) _ hr

/-- The reference the `k`-th operation writes, written by none after it, holds at the end that operation's result over
    what the first `k` operations leave. -/
theorem after_eq_result {ops : List (HloOp τ sig Val)} {W : List (Ref sig .tc)} (hW : WritesAre ops W)
    (F0 : Valuation τ sig Val) (k : ℕ) {op : HloOp τ sig Val} (hk : ops[k]? = some op) {y : Ref sig .tc}
    (hy' : y ∉ W.drop (k + 1)) :
    after ops F0 (Proc.devRef .tc y) = op.result (after (ops.take k) F0) (Proc.devRef .tc y) := by
  obtain ⟨hlt, rfl⟩ := List.getElem?_eq_some_iff.mp hk
  conv_lhs => rw [← List.take_append_drop k ops, after_append, List.drop_eq_getElem_cons hlt, after_cons]
  exact after_keep (hW.drop (k + 1)) _ hy'

/-- A constant: written by the `k`-th operation and by none after it, the reference ends at the constant. -/
theorem ssa_nullary {ops : List (HloOp τ sig Val)} {W : List (Ref sig .tc)} (hW : WritesAre ops W)
    (F0 : Valuation τ sig Val) (k : ℕ) {y : Ref sig .tc} {v : y.ty.Contents Val} {hy}
    (hk : ops[k]? = some (nullary y v hy)) (hy' : y ∉ W.drop (k + 1)) :
    after ops F0 (Proc.devRef .tc y) = v := by
  rw [after_eq_result hW F0 k hk hy']
  exact nullary_result y v hy _

/-- One operand: the result, written by the `k`-th operation and by none after it, ends at the function of what the
    operand ends at, the operand being written by no operation from the `k`-th on. -/
theorem ssa_unary {ops : List (HloOp τ sig Val)} {W : List (Ref sig .tc)} (hW : WritesAre ops W)
    (F0 : Valuation τ sig Val) (k : ℕ) {x y : Ref sig .tc} {f : x.ty.Contents Val → y.ty.Contents Val} {hx hy}
    (hk : ops[k]? = some (unary x y f hx hy)) (hx' : x ∉ W.drop k) (hy' : y ∉ W.drop (k + 1)) :
    after ops F0 (Proc.devRef .tc y) = f (after ops F0 (Proc.devRef .tc x)) := by
  rw [after_eq_result hW F0 k hk hy', after_eq_take hW F0 k hx']
  exact unary_result x y f hx hy _

/-- Two operands: as `ssa_unary`, both operands written by no operation from the `k`-th on. -/
theorem ssa_binary {ops : List (HloOp τ sig Val)} {W : List (Ref sig .tc)} (hW : WritesAre ops W)
    (F0 : Valuation τ sig Val) (k : ℕ) {a b y : Ref sig .tc}
    {f : a.ty.Contents Val → b.ty.Contents Val → y.ty.Contents Val} {ha hb hy}
    (hk : ops[k]? = some (binary a b y f ha hb hy)) (ha' : a ∉ W.drop k) (hb' : b ∉ W.drop k)
    (hy' : y ∉ W.drop (k + 1)) :
    after ops F0 (Proc.devRef .tc y) = f (after ops F0 (Proc.devRef .tc a)) (after ops F0 (Proc.devRef .tc b)) := by
  rw [after_eq_result hW F0 k hk hy', after_eq_take hW F0 k ha', after_eq_take hW F0 k hb']
  exact binary_result a b y f ha hb hy _

/-- Three operands: as `ssa_unary`, the three operands written by no operation from the `k`-th on. -/
theorem ssa_ternary {ops : List (HloOp τ sig Val)} {W : List (Ref sig .tc)} (hW : WritesAre ops W)
    (F0 : Valuation τ sig Val) (k : ℕ) {c a b y : Ref sig .tc}
    {f : c.ty.Contents Val → a.ty.Contents Val → b.ty.Contents Val → y.ty.Contents Val} {hc ha hb hy}
    (hk : ops[k]? = some (ternary c a b y f hc ha hb hy)) (hc' : c ∉ W.drop k) (ha' : a ∉ W.drop k)
    (hb' : b ∉ W.drop k) (hy' : y ∉ W.drop (k + 1)) :
    after ops F0 (Proc.devRef .tc y)
      = f (after ops F0 (Proc.devRef .tc c)) (after ops F0 (Proc.devRef .tc a)) (after ops F0 (Proc.devRef .tc b)) := by
  rw [after_eq_result hW F0 k hk hy', after_eq_take hW F0 k hc', after_eq_take hW F0 k ha', after_eq_take hW F0 k hb']
  exact ternary_result c a b y f hc ha hb hy _

/-- A reshape: the result ends at the operand's final contents, read in row-major order at the result's shape. -/
theorem ssa_reshape {ops : List (HloOp τ sig Val)} {W : List (Ref sig .tc)} (hW : WritesAre ops W)
    (F0 : Valuation τ sig Val) (k : ℕ) {x y : Ref sig .tc} {he : x.ty.elt = y.ty.elt}
    {hn : x.ty.shape.ShapeCasts y.ty.shape} {hx hy}
    (hk : ops[k]? = some (reshape x y he hn hx hy)) (hx' : x ∉ W.drop k) (hy' : y ∉ W.drop (k + 1)) :
    after ops F0 (Proc.devRef .tc y)
      = fun i => he ▸ shapeCast y.ty.shape (after ops F0 (Proc.devRef .tc x)) hn i := by
  rw [after_eq_result hW F0 k hk hy', after_eq_take hW F0 k hx']
  exact reshape_result x y he hn hx hy _

/-- A family of operands: the result ends at the function of the family of what the operands end at, every operand
    written by no operation from the `k`-th on. -/
theorem ssa_nary {n : ℕ} {ops : List (HloOp τ sig Val)} {W : List (Ref sig .tc)} (hW : WritesAre ops W)
    (F0 : Valuation τ sig Val) (k : ℕ) {xs : Fin n → Ref sig .tc} {y : Ref sig .tc}
    {f : ((j : Fin n) → (xs j).ty.Contents Val) → y.ty.Contents Val} {hxs hy}
    (hk : ops[k]? = some (nary xs y f hxs hy)) (hxs' : ∀ j, xs j ∉ W.drop k) (hy' : y ∉ W.drop (k + 1)) :
    after ops F0 (Proc.devRef .tc y) = f (fun j => after ops F0 (Proc.devRef .tc (xs j))) := by
  have hops : (fun j => after ops F0 (Proc.devRef .tc (xs j)))
      = fun j => after (ops.take k) F0 (Proc.devRef .tc (xs j)) :=
    funext fun j => after_eq_take hW F0 k (hxs' j)
  rw [after_eq_result hW F0 k hk hy', hops]
  exact nary_result xs y f hxs hy _

section Test

/- A line of three operations over any four distinct references: a constant into `a`, a function of `x` into `y`, a
   function of `y` and `a` into `z`. The stage equations, in program order, give `z`'s final contents in terms of
   what `x` held at the start. -/
example {x a y z : Ref sig .tc} (hxa : x ≠ a) (hxy : x ≠ y) (hxz : x ≠ z) (hay : a ≠ y) (haz : a ≠ z) (hyz : y ≠ z)
    (v : a.ty.Contents Val) (f : x.ty.Contents Val → y.ty.Contents Val)
    (g : y.ty.Contents Val → a.ty.Contents Val → z.ty.Contents Val) (hx ha hy hz) (F0 : Valuation τ sig Val) :
    after [nullary (τ := τ) a v ha, unary x y f hx hy, binary y a z g hy ha hz] F0 (Proc.devRef .tc z)
      = g (f (F0 (Proc.devRef .tc x))) v := by
  have hW : WritesAre [nullary (τ := τ) a v ha, unary x y f hx hy, binary y a z g hy ha hz] [a, y, z] :=
    .cons rfl (.cons rfl (.cons rfl .nil))
  have e0 := after_keep hW F0 (r := x) (by simp [hxa, hxy, hxz])
  have e1 := ssa_nullary hW F0 0 rfl (by simp [hay, haz])
  have e2 := ssa_unary hW F0 1 rfl (by simp [hxy, hxz]) (by simp [hyz])
  have e3 := ssa_binary hW F0 2 rfl (by simp [hyz]) (by simp [haz]) (by simp)
  rw [e3, e2, e1, e0]

end Test

end Idealize.ShloMosaic.StableHlo
-- ==== Proof.RSsa.lean ====
/-
  The reference's line of 115 host operations is in static single assignment: the k-th operation writes the k-th
  reference of the list below and nothing else, and the list has no repetition. With this stated once, what a buffer
  holds at the end of the line is read off the one operation that writes it.
-/
import proofs.«407557_j3874060501607_3_alg».proof.Proof.ROps
import proofs.«407557_j3874060501607_3_alg».proof.Proof.LibSsa
import Idealize.ShloMosaic.PureOps.Ideal

noncomputable section

namespace Cert.ReferenceIdeal.RSsa

open Cert.ReferenceIdeal Cert.ReferenceIdeal.ROps Idealize.ShloMosaic Idealize.ShloMosaic.TcCoe Idealize.SL.Sem Idealize.ShloMosaic.StableHlo

/-- The references the operations write, in program order. -/
abbrev W : List (Ref sig .tc) :=
  [ main_cst, main_v0, main_cst_0, main_v1, main_v2, main_v3, main_cst_1, main_v4,
    main_v5, main_v6, main_cst_2, main_v7, main_v8, main_v9, main_cst_3, main_v10,
    main_v11, main_v12, main_v13, main_v14, main_v15, main_c, main_v16, main_v17,
    main_c_4, main_v18, main_v19, main_v20, main_v21, main_v22, main_cst_5, main_v23,
    main_v24, main_v25, main_v26, main_v27, main_v28, main_v29, main_v30, main_v31,
    main_v32, main_call0_cst, main_call0_v0, main_call0_v1, main_call0_cst_0, main_call0_v2, main_call0_v3, main_call0_cst_1,
    main_call0_call0_v0, main_call0_call0_v1, main_call0_v4, main_call0_v5, main_call0_cst_2, main_call0_v6, main_call0_v7, main_v33,
    main_c_6, main_v34, main_v35, main_c_7, main_v36, main_v37, main_v38, main_v39,
    main_v40, main_cst_8, main_v41, main_v42, main_v43, main_cst_9, main_v44, main_v45,
    main_v46, main_v47, main_v48, main_v49, main_v50, main_v51, main_v52, main_v53,
    main_v54, main_call1_cst, main_call1_v0, main_call1_v1, main_call1_cst_0, main_call1_v2, main_call1_v3, main_call1_cst_1,
    main_call1_call0_v0, main_call1_call0_v1, main_call1_v4, main_call1_v5, main_call1_cst_2, main_call1_v6, main_call1_v7, main_v55,
    main_v56, main_v57, main_v58, main_v59, main_call2_cst, main_call2_v0, main_call2_v1, main_call2_cst_0,
    main_call2_v2, main_call2_v3, main_call2_cst_1, main_call2_call0_v0, main_call2_call0_v1, main_call2_v4, main_call2_v5, main_call2_cst_2,
    main_call2_v6, main_call2_v7, main_v60 ]

/-- Operation k writes reference k of `W`, and only it. -/
theorem hW : WritesAre (ops (F := Ideal) : List (HloOp τ sig (Elt Ideal))) W :=
    .cons rfl (.cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (.cons rfl (
    .cons rfl (.cons rfl (.cons rfl (.cons rfl (.cons rfl (
    .nil)))))))))))))))))))))))))))))))))))))))))))))))))))))))))))))))))))))))))))))))))))))))))))))))))))))))))))))))))))

end Cert.ReferenceIdeal.RSsa

end
-- ==== Proof.RElu.lean ====
/-
  The exponential-linear unit as the reference spells it, read at an index. Over any array y the reference takes the
  outer choice, on the comparison y > 0, between y and one times (e^z - 1), where z is the inner choice, on the same
  comparison, between zero and y. Where the comparison holds both choices give y; where it fails the inner choice is y,
  so the other branch is 1 * (e^y - 1) = e^y - 1. At every index this is the unit of the specification at y's element.
-/
import proofs.«407557_j3874060501607_3_alg».proof.Proof.Spec
import Idealize.ShloMosaic.Lib.IdealHost

noncomputable section

namespace Cert.ReferenceIdeal.RElu

open Idealize.ShloMosaic Idealize.ShloMosaic.ValueIdx

/-- On one element: whatever the comparison bit c of y > 0 is, the outer choice between y and 1 * (e^z - 1), z the inner
    choice between 0 and y, is the specification's unit at y. -/
theorem elu_scalar (y : EReal) (c : BitVec 1) (hc : c = FloatOps.cmpf (F := Ideal) (φ := .f32) .ogt y 0) :
    Scalar.select c y (1 * (Ideal.exp (Scalar.select c 0 y) - 1)) = Gnn.elu y := by
  unfold Gnn.elu
  rw [← hc]
  rcases BitVec.eq_zero_or_eq_one c with h | h
  · rw [h, select_zero, select_zero, select_zero, one_mul]
  · rw [h, select_one, select_one]

/-- The reference's unit over a whole array y of any shape S: the zero and one constants broadcast from the scalar shape,
    the two comparisons, the inner choice, e^· - 1, the product with one, the outer choice. -/
def eluArr {S : Shape} (h : (⟨0, ![]⟩ : Shape).BroadcastsInDim S ![]) (y : FVec Ideal S .f32) : FVec Ideal S .f32 :=
  select (cmpf .ogt y (broadcastInDim S ![] h (constant (F := Ideal) (⟨0, ![]⟩ : Shape) .f32 0x00000000#32))) y
    (mulf (broadcastInDim S ![] h (constant (F := Ideal) (⟨0, ![]⟩ : Shape) .f32 0x3F800000#32))
      (Host.expm1
        (select (cmpf .ogt y (broadcastInDim S ![] h (constant (F := Ideal) (⟨0, ![]⟩ : Shape) .f32 0x00000000#32)))
          (broadcastInDim S ![] h (id (constant (F := Ideal) (⟨0, ![]⟩ : Shape) .f32 0x00000000#32))) y)))

/-- The zero constant broadcast from the scalar shape reads zero everywhere. -/
theorem zeroB_apply {S : Shape} (h : (⟨0, ![]⟩ : Shape).BroadcastsInDim S ![]) (i : S.Idx) :
    broadcastInDim S ![] h (constant (F := Ideal) (⟨0, ![]⟩ : Shape) .f32 0x00000000#32) i = 0 := by
  rw [broadcastInDim_scalar_apply, constant_apply, Ideal.ofBits_zero_f32]

/-- The one constant broadcast from the scalar shape reads one everywhere. -/
theorem oneB_apply {S : Shape} (h : (⟨0, ![]⟩ : Shape).BroadcastsInDim S ![]) (i : S.Idx) :
    broadcastInDim S ![] h (constant (F := Ideal) (⟨0, ![]⟩ : Shape) .f32 0x3F800000#32) i = 1 := by
  rw [broadcastInDim_scalar_apply, constant_apply, Ideal.ofBits_one_f32]

/-- THE UNIT READ AT AN INDEX: the reference's unit over y, at i, is the specification's unit at y i. -/
theorem eluArr_apply {S : Shape} (h : (⟨0, ![]⟩ : Shape).BroadcastsInDim S ![]) (y : FVec Ideal S .f32) (i : S.Idx) :
    eluArr h y i = Gnn.elu (y i) := by
  unfold eluArr
  rw [select_apply, cmpf_apply, mulf_apply, zeroB_apply, oneB_apply]
  show Scalar.select _ (y i) (1 * FloatOps.hostUnary .expm1
    (select (cmpf .ogt y (broadcastInDim S ![] h (constant (F := Ideal) (⟨0, ![]⟩ : Shape) .f32 0x00000000#32)))
      (broadcastInDim S ![] h (constant (F := Ideal) (⟨0, ![]⟩ : Shape) .f32 0x00000000#32)) y i)) = _
  rw [Ideal.hostUnary_expm1_def, select_apply, cmpf_apply, zeroB_apply]
  exact elu_scalar (y i) _ rfl

/-- The same with the array's term written out, as the line of operations composes it. -/
theorem elu_apply {S : Shape} (h : (⟨0, ![]⟩ : Shape).BroadcastsInDim S ![]) (y : FVec Ideal S .f32) (i : S.Idx) :
    select (cmpf .ogt y (broadcastInDim S ![] h (constant (F := Ideal) (⟨0, ![]⟩ : Shape) .f32 0x00000000#32))) y
      (mulf (broadcastInDim S ![] h (constant (F := Ideal) (⟨0, ![]⟩ : Shape) .f32 0x3F800000#32))
        (Host.expm1
          (select (cmpf .ogt y (broadcastInDim S ![] h (constant (F := Ideal) (⟨0, ![]⟩ : Shape) .f32 0x00000000#32)))
            (broadcastInDim S ![] h (id (constant (F := Ideal) (⟨0, ![]⟩ : Shape) .f32 0x00000000#32))) y))) i
      = Gnn.elu (y i) :=
  eluArr_apply h y i

end Cert.ReferenceIdeal.RElu

end
-- ==== Proof.RValA.lean ====
/-
  The reference's first half read index by index at the end of the line: the in-degree as a sum of ones over the edges
  at a node, and the first layer — the aggregate of the out-normalised source rows, in-normalised, through W1, the bias
  and the exponential-linear unit (whose guarded inner select and product with one change nothing).

  The line is in static single assignment, so each buffer holds at the end its one writer's function of what the
  operands hold at the end: one equation per operation on the way to the first layer, then each stage read at an index —
  broadcasts by their coordinates, the two degree scatters as counts of edges, the inverse square roots of the clamped
  degrees, the gather at the wrapped and clamped source row, the row scatter as a sum over the incoming edges, the
  product with W1 as a sum over the 128 columns, and the unit at each entry.
-/
import proofs.«407557_j3874060501607_3_alg».proof.Proof.RNames
import proofs.«407557_j3874060501607_3_alg».proof.Proof.RSsa
import proofs.«407557_j3874060501607_3_alg».proof.Proof.RElu
import proofs.«407557_j3874060501607_3_alg».proof.Proof.LibSsa
import proofs.«407557_j3874060501607_3_alg».proof.Proof.LibScatterSum
import proofs.«407557_j3874060501607_3_alg».proof.Proof.LibGatherRows
import Idealize.ShloMosaic.Lib.IdealHost
import Idealize.ShloMosaic.Lib.Pipeline.Value
import Idealize.ShloMosaic.Lib.StackMember

noncomputable section

open scoped BigOperators
open Idealize.ShloMosaic Idealize.ShloMosaic.TcCoe Idealize.SL.Sem Idealize.ShloMosaic.ValueIdx
open Cert.ReferenceIdeal Cert.ReferenceIdeal.Gen Cert.ReferenceIdeal.ROps Idealize.ShloMosaic.StableHlo
namespace Cert.ReferenceIdeal.RValA

open Cert.ReferenceIdeal.RSsa

variable (V : Valuation τ sig (Elt Ideal))

/-! ## One equation per operation: the written buffer at the end is the operation's function of its operands at the end -/

theorem e0 : (RNames.fin V (main_cst : DevRef τ sig))
    = (constant (F := Ideal) S_ .f32 0x3F800000#32 : (⟨S_, .f32⟩ : BufTy).Contents (Elt Ideal)) :=
  ssa_nullary hW V 0 rfl (by decide)

theorem e1 : (RNames.fin V (main_v0 : DevRef τ sig))
    = (broadcastInDim S800000 ![] bcast_S_S800000 : (⟨S_, .f32⟩ : BufTy).Contents (Elt Ideal) → (⟨S800000, .f32⟩ : BufTy).Contents (Elt Ideal)) (RNames.fin V (main_cst : DevRef τ sig)) :=
  ssa_unary hW V 1 rfl (by decide) (by decide)

theorem e2 : (RNames.fin V (main_cst_0 : DevRef τ sig))
    = (constant (F := Ideal) S_ .f32 0x00000000#32 : (⟨S_, .f32⟩ : BufTy).Contents (Elt Ideal)) :=
  ssa_nullary hW V 2 rfl (by decide)

theorem e3 : (RNames.fin V (main_v1 : DevRef τ sig))
    = (broadcastInDim S50000 ![] bcast_S_S50000 : (⟨S_, .f32⟩ : BufTy).Contents (Elt Ideal) → (⟨S50000, .f32⟩ : BufTy).Contents (Elt Ideal)) (RNames.fin V (main_cst_0 : DevRef τ sig)) :=
  ssa_unary hW V 3 rfl (by decide) (by decide)

theorem e4 : (RNames.fin V (main_v2 : DevRef τ sig))
    = (broadcastInDim S800000x1 ![0] bcast_S800000_S800000x1_0 : (⟨S800000, .i32⟩ : BufTy).Contents (Elt Ideal) → (⟨S800000x1, .i32⟩ : BufTy).Contents (Elt Ideal)) (RNames.fin V (main_arg1 : DevRef τ sig)) :=
  ssa_unary hW V 4 rfl (by decide) (by decide)

theorem e5 : (RNames.fin V (main_v3 : DevRef τ sig))
    = (Host.scatterAdd (F := Ideal) (φ := .f32) scatter_S50000_S800000x1_S800000_n_0_0_1 (RNames.fin V (main_v1 : DevRef τ sig)) (RNames.fin V (main_v2 : DevRef τ sig)) (RNames.fin V (main_v0 : DevRef τ sig)) : (⟨S50000, .f32⟩ : BufTy).Contents (Elt Ideal)) :=
  ssa_ternary hW V 5 rfl (by decide) (by decide) (by decide) (by decide)

theorem e6 : (RNames.fin V (main_cst_1 : DevRef τ sig))
    = (constant (F := Ideal) S_ .f32 0x00000000#32 : (⟨S_, .f32⟩ : BufTy).Contents (Elt Ideal)) :=
  ssa_nullary hW V 6 rfl (by decide)

theorem e7 : (RNames.fin V (main_v4 : DevRef τ sig))
    = (broadcastInDim S50000 ![] bcast_S_S50000 : (⟨S_, .f32⟩ : BufTy).Contents (Elt Ideal) → (⟨S50000, .f32⟩ : BufTy).Contents (Elt Ideal)) (RNames.fin V (main_cst_1 : DevRef τ sig)) :=
  ssa_unary hW V 7 rfl (by decide) (by decide)

theorem e8 : (RNames.fin V (main_v5 : DevRef τ sig))
    = (broadcastInDim S800000x1 ![0] bcast_S800000_S800000x1_0 : (⟨S800000, .i32⟩ : BufTy).Contents (Elt Ideal) → (⟨S800000x1, .i32⟩ : BufTy).Contents (Elt Ideal)) (RNames.fin V (main_arg2 : DevRef τ sig)) :=
  ssa_unary hW V 8 rfl (by decide) (by decide)

theorem e9 : (RNames.fin V (main_v6 : DevRef τ sig))
    = (Host.scatterAdd (F := Ideal) (φ := .f32) scatter_S50000_S800000x1_S800000_n_0_0_1 (RNames.fin V (main_v4 : DevRef τ sig)) (RNames.fin V (main_v5 : DevRef τ sig)) (RNames.fin V (main_v0 : DevRef τ sig)) : (⟨S50000, .f32⟩ : BufTy).Contents (Elt Ideal)) :=
  ssa_ternary hW V 9 rfl (by decide) (by decide) (by decide) (by decide)

theorem e10 : (RNames.fin V (main_cst_2 : DevRef τ sig))
    = (constant (F := Ideal) S_ .f32 0x3F800000#32 : (⟨S_, .f32⟩ : BufTy).Contents (Elt Ideal)) :=
  ssa_nullary hW V 10 rfl (by decide)

theorem e11 : (RNames.fin V (main_v7 : DevRef τ sig))
    = (broadcastInDim S50000 ![] bcast_S_S50000 : (⟨S_, .f32⟩ : BufTy).Contents (Elt Ideal) → (⟨S50000, .f32⟩ : BufTy).Contents (Elt Ideal)) (RNames.fin V (main_cst_2 : DevRef τ sig)) :=
  ssa_unary hW V 11 rfl (by decide) (by decide)

theorem e12 : (RNames.fin V (main_v8 : DevRef τ sig))
    = (maximumf (F := Ideal) (φ := .f32) : (⟨S50000, .f32⟩ : BufTy).Contents (Elt Ideal) → (⟨S50000, .f32⟩ : BufTy).Contents (Elt Ideal) → (⟨S50000, .f32⟩ : BufTy).Contents (Elt Ideal)) (RNames.fin V (main_v3 : DevRef τ sig)) (RNames.fin V (main_v7 : DevRef τ sig)) :=
  ssa_binary hW V 12 rfl (by decide) (by decide) (by decide)

theorem e13 : (RNames.fin V (main_v9 : DevRef τ sig))
    = (Host.rsqrt (F := Ideal) (φ := .f32) : (⟨S50000, .f32⟩ : BufTy).Contents (Elt Ideal) → (⟨S50000, .f32⟩ : BufTy).Contents (Elt Ideal)) (RNames.fin V (main_v8 : DevRef τ sig)) :=
  ssa_unary hW V 13 rfl (by decide) (by decide)

theorem e14 : (RNames.fin V (main_cst_3 : DevRef τ sig))
    = (constant (F := Ideal) S_ .f32 0x3F800000#32 : (⟨S_, .f32⟩ : BufTy).Contents (Elt Ideal)) :=
  ssa_nullary hW V 14 rfl (by decide)

theorem e15 : (RNames.fin V (main_v10 : DevRef τ sig))
    = (broadcastInDim S50000 ![] bcast_S_S50000 : (⟨S_, .f32⟩ : BufTy).Contents (Elt Ideal) → (⟨S50000, .f32⟩ : BufTy).Contents (Elt Ideal)) (RNames.fin V (main_cst_3 : DevRef τ sig)) :=
  ssa_unary hW V 15 rfl (by decide) (by decide)

theorem e16 : (RNames.fin V (main_v11 : DevRef τ sig))
    = (maximumf (F := Ideal) (φ := .f32) : (⟨S50000, .f32⟩ : BufTy).Contents (Elt Ideal) → (⟨S50000, .f32⟩ : BufTy).Contents (Elt Ideal) → (⟨S50000, .f32⟩ : BufTy).Contents (Elt Ideal)) (RNames.fin V (main_v6 : DevRef τ sig)) (RNames.fin V (main_v10 : DevRef τ sig)) :=
  ssa_binary hW V 16 rfl (by decide) (by decide) (by decide)

theorem e17 : (RNames.fin V (main_v12 : DevRef τ sig))
    = (Host.rsqrt (F := Ideal) (φ := .f32) : (⟨S50000, .f32⟩ : BufTy).Contents (Elt Ideal) → (⟨S50000, .f32⟩ : BufTy).Contents (Elt Ideal)) (RNames.fin V (main_v11 : DevRef τ sig)) :=
  ssa_unary hW V 17 rfl (by decide) (by decide)

theorem e18 : (RNames.fin V (main_v13 : DevRef τ sig))
    = (broadcastInDim S50000x1 ![0] bcast_S50000_S50000x1_0 : (⟨S50000, .f32⟩ : BufTy).Contents (Elt Ideal) → (⟨S50000x1, .f32⟩ : BufTy).Contents (Elt Ideal)) (RNames.fin V (main_v9 : DevRef τ sig)) :=
  ssa_unary hW V 18 rfl (by decide) (by decide)

theorem e19 : (RNames.fin V (main_v14 : DevRef τ sig))
    = (broadcastInDim S50000x128 ![0, 1] bcast_S50000x1_S50000x128_0_1 : (⟨S50000x1, .f32⟩ : BufTy).Contents (Elt Ideal) → (⟨S50000x128, .f32⟩ : BufTy).Contents (Elt Ideal)) (RNames.fin V (main_v13 : DevRef τ sig)) :=
  ssa_unary hW V 19 rfl (by decide) (by decide)

theorem e20 : (RNames.fin V (main_v15 : DevRef τ sig))
    = (mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (RNames.fin V (main_arg0 : DevRef τ sig)) (RNames.fin V (main_v14 : DevRef τ sig)) :=
  ssa_binary hW V 20 rfl (by decide) (by decide) (by decide)

theorem e21 : (RNames.fin V (main_c : DevRef τ sig))
    = (constantI S_ 32 0#32 : (⟨S_, .i32⟩ : BufTy).Contents (Elt Ideal)) :=
  ssa_nullary hW V 21 rfl (by decide)

theorem e22 : (RNames.fin V (main_v16 : DevRef τ sig))
    = (broadcastInDim S800000 ![] bcast_S_S800000 : (⟨S_, .i32⟩ : BufTy).Contents (Elt Ideal) → (⟨S800000, .i32⟩ : BufTy).Contents (Elt Ideal)) (RNames.fin V (main_c : DevRef τ sig)) :=
  ssa_unary hW V 22 rfl (by decide) (by decide)

theorem e23 : (RNames.fin V (main_v17 : DevRef τ sig))
    = (cmpi .slt : (⟨S800000, .i32⟩ : BufTy).Contents (Elt Ideal) → (⟨S800000, .i32⟩ : BufTy).Contents (Elt Ideal) → (⟨S800000, .i1⟩ : BufTy).Contents (Elt Ideal)) (RNames.fin V (main_arg1 : DevRef τ sig)) (RNames.fin V (main_v16 : DevRef τ sig)) :=
  ssa_binary hW V 23 rfl (by decide) (by decide) (by decide)

theorem e24 : (RNames.fin V (main_c_4 : DevRef τ sig))
    = (constantI S_ 32 50000#32 : (⟨S_, .i32⟩ : BufTy).Contents (Elt Ideal)) :=
  ssa_nullary hW V 24 rfl (by decide)

theorem e25 : (RNames.fin V (main_v18 : DevRef τ sig))
    = (broadcastInDim S800000 ![] bcast_S_S800000 : (⟨S_, .i32⟩ : BufTy).Contents (Elt Ideal) → (⟨S800000, .i32⟩ : BufTy).Contents (Elt Ideal)) (RNames.fin V (main_c_4 : DevRef τ sig)) :=
  ssa_unary hW V 25 rfl (by decide) (by decide)

theorem e26 : (RNames.fin V (main_v19 : DevRef τ sig))
    = (addi : (⟨S800000, .i32⟩ : BufTy).Contents (Elt Ideal) → (⟨S800000, .i32⟩ : BufTy).Contents (Elt Ideal) → (⟨S800000, .i32⟩ : BufTy).Contents (Elt Ideal)) (RNames.fin V (main_arg1 : DevRef τ sig)) (RNames.fin V (main_v18 : DevRef τ sig)) :=
  ssa_binary hW V 26 rfl (by decide) (by decide) (by decide)

theorem e27 : (RNames.fin V (main_v20 : DevRef τ sig))
    = (select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) (RNames.fin V (main_v17 : DevRef τ sig)) (RNames.fin V (main_v19 : DevRef τ sig)) (RNames.fin V (main_arg1 : DevRef τ sig)) :=
  ssa_ternary hW V 27 rfl (by decide) (by decide) (by decide) (by decide)

theorem e28 : (RNames.fin V (main_v21 : DevRef τ sig))
    = (broadcastInDim S800000x1 ![0] bcast_S800000_S800000x1_0 : (⟨S800000, .i32⟩ : BufTy).Contents (Elt Ideal) → (⟨S800000x1, .i32⟩ : BufTy).Contents (Elt Ideal)) (RNames.fin V (main_v20 : DevRef τ sig)) :=
  ssa_unary hW V 28 rfl (by decide) (by decide)

theorem e29 : (RNames.fin V (main_v22 : DevRef τ sig))
    = (Host.gather gather_S50000x128_S800000x1_S800000x128_1_0_n_n_0_1_1128 (RNames.fin V (main_v15 : DevRef τ sig)) (RNames.fin V (main_v21 : DevRef τ sig)) : (⟨S800000x128, .f32⟩ : BufTy).Contents (Elt Ideal)) :=
  ssa_binary hW V 29 rfl (by decide) (by decide) (by decide)

theorem e30 : (RNames.fin V (main_cst_5 : DevRef τ sig))
    = (constant (F := Ideal) S_ .f32 0x00000000#32 : (⟨S_, .f32⟩ : BufTy).Contents (Elt Ideal)) :=
  ssa_nullary hW V 30 rfl (by decide)

theorem e31 : (RNames.fin V (main_v23 : DevRef τ sig))
    = (broadcastInDim S50000x128 ![] bcast_S_S50000x128 : (⟨S_, .f32⟩ : BufTy).Contents (Elt Ideal) → (⟨S50000x128, .f32⟩ : BufTy).Contents (Elt Ideal)) (RNames.fin V (main_cst_5 : DevRef τ sig)) :=
  ssa_unary hW V 31 rfl (by decide) (by decide)

theorem e32 : (RNames.fin V (main_v24 : DevRef τ sig))
    = (broadcastInDim S800000x1 ![0] bcast_S800000_S800000x1_0 : (⟨S800000, .i32⟩ : BufTy).Contents (Elt Ideal) → (⟨S800000x1, .i32⟩ : BufTy).Contents (Elt Ideal)) (RNames.fin V (main_arg2 : DevRef τ sig)) :=
  ssa_unary hW V 32 rfl (by decide) (by decide)

theorem e33 : (RNames.fin V (main_v25 : DevRef τ sig))
    = (Host.scatterAdd (F := Ideal) (φ := .f32) scatter_S50000x128_S800000x1_S800000x128_1_0_0_1 (RNames.fin V (main_v23 : DevRef τ sig)) (RNames.fin V (main_v24 : DevRef τ sig)) (RNames.fin V (main_v22 : DevRef τ sig)) : (⟨S50000x128, .f32⟩ : BufTy).Contents (Elt Ideal)) :=
  ssa_ternary hW V 33 rfl (by decide) (by decide) (by decide) (by decide)

theorem e34 : (RNames.fin V (main_v26 : DevRef τ sig))
    = (broadcastInDim S50000x1 ![0] bcast_S50000_S50000x1_0 : (⟨S50000, .f32⟩ : BufTy).Contents (Elt Ideal) → (⟨S50000x1, .f32⟩ : BufTy).Contents (Elt Ideal)) (RNames.fin V (main_v12 : DevRef τ sig)) :=
  ssa_unary hW V 34 rfl (by decide) (by decide)

theorem e35 : (RNames.fin V (main_v27 : DevRef τ sig))
    = (broadcastInDim S50000x128 ![0, 1] bcast_S50000x1_S50000x128_0_1 : (⟨S50000x1, .f32⟩ : BufTy).Contents (Elt Ideal) → (⟨S50000x128, .f32⟩ : BufTy).Contents (Elt Ideal)) (RNames.fin V (main_v26 : DevRef τ sig)) :=
  ssa_unary hW V 35 rfl (by decide) (by decide)

theorem e36 : (RNames.fin V (main_v28 : DevRef τ sig))
    = (mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (RNames.fin V (main_v25 : DevRef τ sig)) (RNames.fin V (main_v27 : DevRef τ sig)) :=
  ssa_binary hW V 36 rfl (by decide) (by decide) (by decide)

theorem e37 : (RNames.fin V (main_v29 : DevRef τ sig))
    = (Host.dotGeneral (F := Ideal) (φ₁ := .f32) (φ₂ := .f32) dot_S50000x128_S128x150_S50000x150_1_0_0_1_n_n none (RNames.fin V (main_v28 : DevRef τ sig)) (RNames.fin V (main_arg3 : DevRef τ sig)) : (⟨S50000x150, .f32⟩ : BufTy).Contents (Elt Ideal)) :=
  ssa_binary hW V 37 rfl (by decide) (by decide) (by decide)

theorem e38 : (RNames.fin V (main_v30 : DevRef τ sig))
    = (broadcastInDim S1x150 ![1] bcast_S150_S1x150_1 : (⟨S150, .f32⟩ : BufTy).Contents (Elt Ideal) → (⟨S1x150, .f32⟩ : BufTy).Contents (Elt Ideal)) (RNames.fin V (main_arg4 : DevRef τ sig)) :=
  ssa_unary hW V 38 rfl (by decide) (by decide)

theorem e39 : (RNames.fin V (main_v31 : DevRef τ sig))
    = (broadcastInDim S50000x150 ![0, 1] bcast_S1x150_S50000x150_0_1 : (⟨S1x150, .f32⟩ : BufTy).Contents (Elt Ideal) → (⟨S50000x150, .f32⟩ : BufTy).Contents (Elt Ideal)) (RNames.fin V (main_v30 : DevRef τ sig)) :=
  ssa_unary hW V 39 rfl (by decide) (by decide)

theorem e40 : (RNames.fin V (main_v32 : DevRef τ sig))
    = (addf (F := Ideal) (φ := .f32) : (⟨S50000x150, .f32⟩ : BufTy).Contents (Elt Ideal) → (⟨S50000x150, .f32⟩ : BufTy).Contents (Elt Ideal) → (⟨S50000x150, .f32⟩ : BufTy).Contents (Elt Ideal)) (RNames.fin V (main_v29 : DevRef τ sig)) (RNames.fin V (main_v31 : DevRef τ sig)) :=
  ssa_binary hW V 40 rfl (by decide) (by decide) (by decide)

theorem e41 : (RNames.fin V (main_call0_cst : DevRef τ sig))
    = (constant (F := Ideal) S_ .f32 0x00000000#32 : (⟨S_, .f32⟩ : BufTy).Contents (Elt Ideal)) :=
  ssa_nullary hW V 41 rfl (by decide)

theorem e42 : (RNames.fin V (main_call0_v0 : DevRef τ sig))
    = (broadcastInDim S50000x150 ![] bcast_S_S50000x150 : (⟨S_, .f32⟩ : BufTy).Contents (Elt Ideal) → (⟨S50000x150, .f32⟩ : BufTy).Contents (Elt Ideal)) (RNames.fin V (main_call0_cst : DevRef τ sig)) :=
  ssa_unary hW V 42 rfl (by decide) (by decide)

theorem e43 : (RNames.fin V (main_call0_v1 : DevRef τ sig))
    = (cmpf (F := Ideal) (φ := .f32) .ogt : (⟨S50000x150, .f32⟩ : BufTy).Contents (Elt Ideal) → (⟨S50000x150, .f32⟩ : BufTy).Contents (Elt Ideal) → (⟨S50000x150, .i1⟩ : BufTy).Contents (Elt Ideal)) (RNames.fin V (main_v32 : DevRef τ sig)) (RNames.fin V (main_call0_v0 : DevRef τ sig)) :=
  ssa_binary hW V 43 rfl (by decide) (by decide) (by decide)

theorem e44 : (RNames.fin V (main_call0_cst_0 : DevRef τ sig))
    = (constant (F := Ideal) S_ .f32 0x00000000#32 : (⟨S_, .f32⟩ : BufTy).Contents (Elt Ideal)) :=
  ssa_nullary hW V 44 rfl (by decide)

theorem e45 : (RNames.fin V (main_call0_v2 : DevRef τ sig))
    = (broadcastInDim S50000x150 ![] bcast_S_S50000x150 : (⟨S_, .f32⟩ : BufTy).Contents (Elt Ideal) → (⟨S50000x150, .f32⟩ : BufTy).Contents (Elt Ideal)) (RNames.fin V (main_call0_cst_0 : DevRef τ sig)) :=
  ssa_unary hW V 45 rfl (by decide) (by decide)

theorem e46 : (RNames.fin V (main_call0_v3 : DevRef τ sig))
    = (cmpf (F := Ideal) (φ := .f32) .ogt : (⟨S50000x150, .f32⟩ : BufTy).Contents (Elt Ideal) → (⟨S50000x150, .f32⟩ : BufTy).Contents (Elt Ideal) → (⟨S50000x150, .i1⟩ : BufTy).Contents (Elt Ideal)) (RNames.fin V (main_v32 : DevRef τ sig)) (RNames.fin V (main_call0_v2 : DevRef τ sig)) :=
  ssa_binary hW V 46 rfl (by decide) (by decide) (by decide)

theorem e47 : (RNames.fin V (main_call0_cst_1 : DevRef τ sig))
    = (constant (F := Ideal) S_ .f32 0x00000000#32 : (⟨S_, .f32⟩ : BufTy).Contents (Elt Ideal)) :=
  ssa_nullary hW V 47 rfl (by decide)

theorem e48 : (RNames.fin V (main_call0_call0_v0 : DevRef τ sig))
    = (id : (⟨S_, .f32⟩ : BufTy).Contents (Elt Ideal) → (⟨S_, .f32⟩ : BufTy).Contents (Elt Ideal)) (RNames.fin V (main_call0_cst_1 : DevRef τ sig)) :=
  ssa_unary hW V 48 rfl (by decide) (by decide)

theorem e49 : (RNames.fin V (main_call0_call0_v1 : DevRef τ sig))
    = (broadcastInDim S50000x150 ![] bcast_S_S50000x150 : (⟨S_, .f32⟩ : BufTy).Contents (Elt Ideal) → (⟨S50000x150, .f32⟩ : BufTy).Contents (Elt Ideal)) (RNames.fin V (main_call0_call0_v0 : DevRef τ sig)) :=
  ssa_unary hW V 49 rfl (by decide) (by decide)

theorem e50 : (RNames.fin V (main_call0_v4 : DevRef τ sig))
    = (select : (⟨S50000x150, .i1⟩ : BufTy).Contents (Elt Ideal) → (⟨S50000x150, .f32⟩ : BufTy).Contents (Elt Ideal) → (⟨S50000x150, .f32⟩ : BufTy).Contents (Elt Ideal) → (⟨S50000x150, .f32⟩ : BufTy).Contents (Elt Ideal)) (RNames.fin V (main_call0_v3 : DevRef τ sig)) (RNames.fin V (main_call0_call0_v1 : DevRef τ sig)) (RNames.fin V (main_v32 : DevRef τ sig)) :=
  ssa_ternary hW V 50 rfl (by decide) (by decide) (by decide) (by decide)

theorem e51 : (RNames.fin V (main_call0_v5 : DevRef τ sig))
    = (Host.expm1 (F := Ideal) (φ := .f32) : (⟨S50000x150, .f32⟩ : BufTy).Contents (Elt Ideal) → (⟨S50000x150, .f32⟩ : BufTy).Contents (Elt Ideal)) (RNames.fin V (main_call0_v4 : DevRef τ sig)) :=
  ssa_unary hW V 51 rfl (by decide) (by decide)

theorem e52 : (RNames.fin V (main_call0_cst_2 : DevRef τ sig))
    = (constant (F := Ideal) S_ .f32 0x3F800000#32 : (⟨S_, .f32⟩ : BufTy).Contents (Elt Ideal)) :=
  ssa_nullary hW V 52 rfl (by decide)

theorem e53 : (RNames.fin V (main_call0_v6 : DevRef τ sig))
    = (broadcastInDim S50000x150 ![] bcast_S_S50000x150 : (⟨S_, .f32⟩ : BufTy).Contents (Elt Ideal) → (⟨S50000x150, .f32⟩ : BufTy).Contents (Elt Ideal)) (RNames.fin V (main_call0_cst_2 : DevRef τ sig)) :=
  ssa_unary hW V 53 rfl (by decide) (by decide)

theorem e54 : (RNames.fin V (main_call0_v7 : DevRef τ sig))
    = (mulf (F := Ideal) (φ := .f32) : (⟨S50000x150, .f32⟩ : BufTy).Contents (Elt Ideal) → (⟨S50000x150, .f32⟩ : BufTy).Contents (Elt Ideal) → (⟨S50000x150, .f32⟩ : BufTy).Contents (Elt Ideal)) (RNames.fin V (main_call0_v6 : DevRef τ sig)) (RNames.fin V (main_call0_v5 : DevRef τ sig)) :=
  ssa_binary hW V 54 rfl (by decide) (by decide) (by decide)

theorem e55 : (RNames.fin V (main_v33 : DevRef τ sig))
    = (select : (⟨S50000x150, .i1⟩ : BufTy).Contents (Elt Ideal) → (⟨S50000x150, .f32⟩ : BufTy).Contents (Elt Ideal) → (⟨S50000x150, .f32⟩ : BufTy).Contents (Elt Ideal) → (⟨S50000x150, .f32⟩ : BufTy).Contents (Elt Ideal)) (RNames.fin V (main_call0_v1 : DevRef τ sig)) (RNames.fin V (main_v32 : DevRef τ sig)) (RNames.fin V (main_call0_v7 : DevRef τ sig)) :=
  ssa_ternary hW V 55 rfl (by decide) (by decide) (by decide) (by decide)

/-! ## The five arguments the first half reads are written by no operation: they hold at the end what they held at the start -/

theorem k_arg0 : (RNames.fin V (main_arg0 : DevRef τ sig)) = V (main_arg0 : DevRef τ sig) :=
  after_keep hW V (r := main_arg0) (by decide)

theorem k_arg1 : (RNames.fin V (main_arg1 : DevRef τ sig)) = V (main_arg1 : DevRef τ sig) :=
  after_keep hW V (r := main_arg1) (by decide)

theorem k_arg2 : (RNames.fin V (main_arg2 : DevRef τ sig)) = V (main_arg2 : DevRef τ sig) :=
  after_keep hW V (r := main_arg2) (by decide)

theorem k_arg3 : (RNames.fin V (main_arg3 : DevRef τ sig)) = V (main_arg3 : DevRef τ sig) :=
  after_keep hW V (r := main_arg3) (by decide)

theorem k_arg4 : (RNames.fin V (main_arg4 : DevRef τ sig)) = V (main_arg4 : DevRef τ sig) :=
  after_keep hW V (r := main_arg4) (by decide)

/-! ## Broadcasts read at an index -/

/-- A vector made a one-column matrix: entry (e, c) is entry e. -/
theorem col_apply {α : Type} {N : Nat} (h : (⟨1, ![N]⟩ : Shape).BroadcastsInDim (⟨2, ![N, 1]⟩ : Shape) ![0])
    (x : (⟨1, ![N]⟩ : Shape).Idx → α) (e : Fin N) (c : Fin 1) :
    broadcastInDim (⟨2, ![N, 1]⟩ : Shape) ![0] h x (ix2 e c) = x (ix1 e) :=
  by
  refine broadcastInDim_apply _ h x _ (ix1 e) fun a => ?_
  match a with
  | ⟨0, _⟩ =>
    show e.val = if N = 1 then 0 else e.val
    split_ifs with h1
    · have := e.isLt; omega
    · rfl

/-- A one-column matrix copied along the columns: entry (p, k) is entry (p, 0). -/
theorem spread_apply {α : Type} {P C : Nat} (hP : P ≠ 1)
    (h : (⟨2, ![P, 1]⟩ : Shape).BroadcastsInDim (⟨2, ![P, C]⟩ : Shape) ![0, 1])
    (x : (⟨2, ![P, 1]⟩ : Shape).Idx → α) (p : Fin P) (k : Fin C) :
    broadcastInDim (⟨2, ![P, C]⟩ : Shape) ![0, 1] h x (ix2 p k) = x (ix2 p (0 : Fin 1)) :=
  by
  refine broadcastInDim_apply _ h x _ (ix2 p (0 : Fin 1)) fun a => ?_
  match a with
  | ⟨0, _⟩ =>
    show p.val = if P = 1 then 0 else p.val
    rw [if_neg hP]
  | ⟨1, _⟩ => rfl

/-- A vector made a one-row matrix: entry (r, j) is entry j. -/
theorem row_apply {α : Type} {C : Nat} (h : (⟨1, ![C]⟩ : Shape).BroadcastsInDim (⟨2, ![1, C]⟩ : Shape) ![1])
    (x : (⟨1, ![C]⟩ : Shape).Idx → α) (r : Fin 1) (j : Fin C) :
    broadcastInDim (⟨2, ![1, C]⟩ : Shape) ![1] h x (ix2 r j) = x (ix1 j) :=
  by
  refine broadcastInDim_apply _ h x _ (ix1 j) fun a => ?_
  match a with
  | ⟨0, _⟩ =>
    show j.val = if C = 1 then 0 else j.val
    split_ifs with h1
    · have := j.isLt; omega
    · rfl

/-- A one-row matrix copied down the rows: entry (n, j) is entry (0, j). -/
theorem rows_apply {α : Type} {P C : Nat} (hC : C ≠ 1)
    (h : (⟨2, ![1, C]⟩ : Shape).BroadcastsInDim (⟨2, ![P, C]⟩ : Shape) ![0, 1])
    (x : (⟨2, ![1, C]⟩ : Shape).Idx → α) (n : Fin P) (j : Fin C) :
    broadcastInDim (⟨2, ![P, C]⟩ : Shape) ![0, 1] h x (ix2 n j) = x (ix2 (0 : Fin 1) j) :=
  by
  refine broadcastInDim_apply _ h x _ (ix2 (0 : Fin 1) j) fun a => ?_
  match a with
  | ⟨0, _⟩ => rfl
  | ⟨1, _⟩ =>
    show j.val = if C = 1 then 0 else j.val
    rw [if_neg hC]

/-! ## Host operations unfolded once, over variable arrays -/

theorem hostRsqrt_apply {s : Shape} {φ : FTy} (x : FVec Ideal s φ) (i : s.Idx) :
    Host.rsqrt x i = Ideal.rsqrt (x i) := rfl

theorem hostScatterAdd_eq {s si u : Shape} {φ : FTy} {w : Nat} (d : ScatterDims s si u) (x : FVec Ideal s φ)
    (idx : IVec si w) (upd : FVec Ideal u φ) :
    Host.scatterAdd d x idx upd = Ideal.hostScatterAdd d x idx upd := rfl

/-! ## The degrees and the norms -/

/-- The scatter of ones from zero, over the one-column copy of an index array, counts the edges at a node. -/
theorem deg_apply (idx : Gnn.Ids) (n : Fin 50000) :
    Host.scatterAdd (F := Ideal) (φ := .f32) scatter_S50000_S800000x1_S800000_n_0_0_1
      (broadcastInDim S50000 ![] bcast_S_S50000 (constant (F := Ideal) S_ .f32 0x00000000#32))
      (broadcastInDim S800000x1 ![0] bcast_S800000_S800000x1_0 idx)
      (broadcastInDim S800000 ![] bcast_S_S800000 (constant (F := Ideal) S_ .f32 0x3F800000#32)) (ix1 n)
      = Gnn.degAt idx n := by
  unfold Gnn.degAt Gnn.edgesAt
  rw [hostScatterAdd_eq, ScatterSum.scatterAdd_flat_apply _ rfl rfl rfl rfl, broadcastInDim_scalar_apply,
    constant_apply, Ideal.ofBits_zero_f32]
  refine congrArg (fun t => (0 : EReal) + t) ?_
  refine Finset.sum_congr (Finset.filter_congr fun e _ => by rw [col_apply]) fun e _ => ?_
  rw [broadcastInDim_scalar_apply, constant_apply, Ideal.ofBits_one_f32]

/-- The inverse square root of a degree clamped below by the broadcast one. -/
theorem norm_of_deg (d : (⟨1, ![50000]⟩ : Shape).Idx → EReal) (idx : Gnn.Ids) (n : Fin 50000)
    (hd : d (ix1 n) = Gnn.degAt idx n) :
    Host.rsqrt (F := Ideal) (φ := .f32) (maximumf (F := Ideal) (φ := .f32) d
      (broadcastInDim S50000 ![] bcast_S_S50000 (constant (F := Ideal) S_ .f32 0x3F800000#32))) (ix1 n)
      = Gnn.normAt idx n := by
  unfold Gnn.normAt Gnn.ddAt
  rw [hostRsqrt_apply, maximumf_apply, hd, broadcastInDim_scalar_apply, constant_apply, Ideal.ofBits_one_f32]

/-! ## The scaled rows, the wrapped indices, the gather and the aggregate, over variable arrays -/

/-- A matrix times a vector copied along the columns: entry (p, k) times entry p. -/
theorem scaled_apply (x : Gnn.Mat 50000 128) (nv : Gnn.Arr 50000) (p : Fin 50000) (k : Fin 128) :
    mulf (F := Ideal) (φ := .f32) x
      (broadcastInDim S50000x128 ![0, 1] bcast_S50000x1_S50000x128_0_1
        (broadcastInDim S50000x1 ![0] bcast_S50000_S50000x1_0 nv)) (ix2 p k)
      = x (ix2 p k) * nv (ix1 p) := by
  rw [mulf_apply, spread_apply (by decide), col_apply]

/-- A negative index has 50000 added: the wrapped index at an edge. -/
theorem wrapped_apply (s : Gnn.Ids) (e : Fin 800000) :
    select (cmpi .slt s (broadcastInDim S800000 ![] bcast_S_S800000 (constantI S_ 32 0#32)))
      (addi s (broadcastInDim S800000 ![] bcast_S_S800000 (constantI S_ 32 50000#32))) s (ix1 e)
      = Gnn.wrap (s (ix1 e)) := rfl

/-- The gather of whole rows at the one-column copy of the wrapped indices reads the row of the specification. -/
theorem gathered_apply (xs : Gnn.Mat 50000 128) (w s : Gnn.Ids) (e : Fin 800000) (k : Fin 128)
    (hw : w (ix1 e) = Gnn.wrap (s (ix1 e))) :
    Host.gather gather_S50000x128_S800000x1_S800000x128_1_0_n_n_0_1_1128 xs
      (broadcastInDim S800000x1 ![0] bcast_S800000_S800000x1_0 w) (ix2 e k)
      = xs (ix2 (Gnn.rowOf s e) k) := by
  rw [GatherRows.gather_rows_apply (by decide) _ rfl rfl rfl rfl rfl rfl rfl]
  have hrow : ∀ h, (⟨min ((broadcastInDim S800000x1 ![0] bcast_S800000_S800000x1_0 w) (ix2 e (0 : Fin 1))).toInt.toNat
      (50000 - 1), h⟩ : Fin 50000) = Gnn.rowOf s e :=
    fun h => Fin.ext (by show min _ _ = min _ _; rw [col_apply, hw])
  rw [hrow]

/-- The row scatter from zero, over the one-column copy of an index array, sums the update rows of the edges at a
    node. -/
theorem summed_apply (g : Gnn.Mat 800000 128) (idx : Gnn.Ids) (n : Fin 50000) (k : Fin 128) :
    Host.scatterAdd (F := Ideal) (φ := .f32) scatter_S50000x128_S800000x1_S800000x128_1_0_0_1
      (broadcastInDim S50000x128 ![] bcast_S_S50000x128 (constant (F := Ideal) S_ .f32 0x00000000#32))
      (broadcastInDim S800000x1 ![0] bcast_S800000_S800000x1_0 idx) g (ix2 n k)
      = 0 + ∑ e ∈ Gnn.edgesAt idx n, g (ix2 e k) := by
  unfold Gnn.edgesAt
  rw [hostScatterAdd_eq, ScatterSum.scatterAdd_rows_apply _ rfl rfl rfl rfl, broadcastInDim_scalar_apply,
    constant_apply, Ideal.ofBits_zero_f32]
  refine congrArg (fun t => (0 : EReal) + t) ?_
  exact Finset.sum_congr (Finset.filter_congr fun e _ => by rw [col_apply]) fun e _ => rfl

/-! ## The first dense layer, over variable arrays -/

/-- The product with the weights at (n, j): the sum over the 128 columns. -/
theorem dot_apply (A : Gnn.Mat 50000 128) (B : Gnn.Mat 128 150) (n : Fin 50000) (j : Fin 150) :
    Host.dotGeneral (F := Ideal) (φ₁ := .f32) (φ₂ := .f32) dot_S50000x128_S128x150_S50000x150_1_0_0_1_n_n none A B
      (ix2 n j) = ∑ k : Fin 128, A (ix2 n k) * B (ix2 k j) :=
  StackMember.dotGeneral_plain_apply (m := 50000) (n := 150) (k := 128) none A B n j

/-- The bias copied down the rows: entry (n, j) is entry j. -/
theorem bias_apply (b : Gnn.Arr 150) (n : Fin 50000) (j : Fin 150) :
    broadcastInDim S50000x150 ![0, 1] bcast_S1x150_S50000x150_0_1
      (broadcastInDim S1x150 ![1] bcast_S150_S1x150_1 b) (ix2 n j) = b (ix1 j) := by
  rw [rows_apply (by decide), row_apply]

/-! ## The stages of the line read at an index -/

theorem degOut_apply (n : Fin 50000) :
    RNames.fin V (main_v3 : DevRef τ sig) (ix1 n) = Gnn.degAt (RNames.src V) n := by
  rw [e5, e3, e2, e4, k_arg1, e1, e0]
  exact deg_apply (RNames.src V) n

theorem degIn_fin (n : Fin 50000) :
    RNames.fin V (main_v6 : DevRef τ sig) (ix1 n) = Gnn.degAt (RNames.dst V) n := by
  rw [e9, e7, e6, e8, k_arg2, e1, e0]
  exact deg_apply (RNames.dst V) n

theorem degIn_apply (n : Fin 50000) : RNames.degIn V (ix1 n) = Gnn.degAt (RNames.dst V) n :=
  degIn_fin V n

theorem normOut_apply (n : Fin 50000) :
    RNames.fin V (main_v9 : DevRef τ sig) (ix1 n) = Gnn.normAt (RNames.src V) n := by
  rw [e13, e12, e11, e10]
  exact norm_of_deg _ _ n (degOut_apply V n)

theorem normIn_apply (n : Fin 50000) :
    RNames.fin V (main_v12 : DevRef τ sig) (ix1 n) = Gnn.normAt (RNames.dst V) n := by
  rw [e17, e16, e15, e14]
  exact norm_of_deg _ _ n (degIn_fin V n)

theorem xs_apply (p : Fin 50000) (k : Fin 128) :
    RNames.fin V (main_v15 : DevRef τ sig) (ix2 p k)
      = RNames.x V (ix2 p k) * Gnn.normAt (RNames.src V) p := by
  rw [e20, e19, e18, k_arg0, scaled_apply, normOut_apply]

theorem wrap_apply (e : Fin 800000) :
    RNames.fin V (main_v20 : DevRef τ sig) (ix1 e) = Gnn.wrap (RNames.src V (ix1 e)) := by
  rw [e27, e23, e22, e21, e26, e25, e24, k_arg1]
  exact wrapped_apply (RNames.src V) e

theorem gath_apply (e : Fin 800000) (k : Fin 128) :
    RNames.fin V (main_v22 : DevRef τ sig) (ix2 e k)
      = RNames.x V (ix2 (Gnn.rowOf (RNames.src V) e) k)
        * Gnn.normAt (RNames.src V) (Gnn.rowOf (RNames.src V) e) := by
  rw [e29, e28, gathered_apply _ _ (RNames.src V) e k (wrap_apply V e), xs_apply]

theorem agg_apply (n : Fin 50000) (k : Fin 128) :
    RNames.fin V (main_v25 : DevRef τ sig) (ix2 n k)
      = Gnn.aggAt (RNames.x V) (RNames.src V) (RNames.dst V) n k := by
  unfold Gnn.aggAt
  rw [e33, e31, e30, e32, k_arg2, summed_apply]
  exact congrArg (fun t => (0 : EReal) + t) (Finset.sum_congr rfl fun e _ => gath_apply V e k)

theorem aggN_apply (n : Fin 50000) (k : Fin 128) :
    RNames.fin V (main_v28 : DevRef τ sig) (ix2 n k)
      = Gnn.aggAt (RNames.x V) (RNames.src V) (RNames.dst V) n k * Gnn.normAt (RNames.dst V) n := by
  rw [e36, e35, e34, scaled_apply, agg_apply, normIn_apply]

theorem lin_apply (n : Fin 50000) (j : Fin 150) :
    RNames.fin V (main_v32 : DevRef τ sig) (ix2 n j)
      = (∑ k : Fin 128, (Gnn.aggAt (RNames.x V) (RNames.src V) (RNames.dst V) n k * Gnn.normAt (RNames.dst V) n)
            * RNames.W1 V (ix2 k j)) + RNames.b1 V (ix1 j) := by
  rw [e40, e39, e38, k_arg4, e37, k_arg3, addf_apply, dot_apply, bias_apply]
  refine congrArg (fun t => t + RNames.b1 V (ix1 j)) (Finset.sum_congr rfl fun k _ => ?_)
  rw [aggN_apply]

theorem h1_apply (n : Fin 50000) (j : Fin 150) :
    RNames.h1 V (ix2 n j) = Gnn.h1At (RNames.x V) (RNames.src V) (RNames.dst V) (RNames.W1 V) (RNames.b1 V) n j := by
  show RNames.fin V (main_v33 : DevRef τ sig) (ix2 n j) = _
  unfold Gnn.h1At
  rw [e55, e43, e42, e41, e54, e53, e52, e51, e50, e46, e45, e44, e49, e48, e47]
  refine (RElu.elu_apply bcast_S_S50000x150 (RNames.fin V (main_v32 : DevRef τ sig)) (ix2 n j)).trans ?_
  rw [lin_apply]

end Cert.ReferenceIdeal.RValA

end
-- ==== Proof.RValB.lean ====
/-
  The reference's second half read index by index at the end of the line, over its first layer and in-degree there:
  the first layer gathered along the edges and summed at their destinations, divided by the clamped in-degree, through
  Wn; beside it the first layer through Ws; the bias and the unit; then W3, the last bias and the unit again.
-/
import proofs.«407557_j3874060501607_3_alg».proof.Proof.RNames
import proofs.«407557_j3874060501607_3_alg».proof.Proof.LibSsa
import proofs.«407557_j3874060501607_3_alg».proof.Proof.RSsa
import proofs.«407557_j3874060501607_3_alg».proof.Proof.RElu
import proofs.«407557_j3874060501607_3_alg».proof.Proof.LibScatterSum
import proofs.«407557_j3874060501607_3_alg».proof.Proof.LibGatherRows
import Idealize.ShloMosaic.Lib.IdealHost
import Idealize.ShloMosaic.Lib.Pipeline.Value

noncomputable section

open scoped BigOperators
open Idealize.ShloMosaic Idealize.ShloMosaic.TcCoe Idealize.SL.Sem Idealize.ShloMosaic.ValueIdx
open Cert.ReferenceIdeal Cert.ReferenceIdeal.ROps Cert.ReferenceIdeal.Gen Idealize.ShloMosaic.StableHlo
namespace Cert.ReferenceIdeal.RValB

variable (V : Valuation τ sig (Elt Ideal))

/-- The middle addend over the first layer and the in-degree AS THE LINE LEAVES THEM. -/
def mid (n : Fin 50000) (k : Fin 100) : EReal :=
  ∑ k' : Fin 150, Ideal.div (0 + ∑ e ∈ Gnn.edgesAt (RNames.dst V) n, RNames.h1 V (ix2 (Gnn.rowOf (RNames.src V) e) k'))
      (max (RNames.degIn V (ix1 n)) 1) * RNames.Wn V (ix2 k' k)

/-! ## The host operations of the second half read at an index, over any arrays of the literal shapes -/

section AtIndex

/-- The product [50000,150] x [150,100]: on the left operand, axis 0 is the result's row … -/
theorem lhsA_0 (j : S50000x100.Idx) (q : dot_S50000x150_S150x100_S50000x100_1_0_0_1_n_n.contr.Idx) :
    (dot_S50000x150_S150x100_S50000x100_1_0_0_1_n_n.lhsIdx j q 0).val = (j 0).val := rfl
/-- … and axis 1 the contraction position; -/
theorem lhsA_1 (j : S50000x100.Idx) (q : dot_S50000x150_S150x100_S50000x100_1_0_0_1_n_n.contr.Idx) :
    (dot_S50000x150_S150x100_S50000x100_1_0_0_1_n_n.lhsIdx j q 1).val = (q ⟨0, by decide⟩).val :=
  DotDims.lhsIdx_val_of_single _ rfl j q
/-- on the right operand, axis 0 is the contraction position … -/
theorem rhsA_0 (j : S50000x100.Idx) (q : dot_S50000x150_S150x100_S50000x100_1_0_0_1_n_n.contr.Idx) :
    (dot_S50000x150_S150x100_S50000x100_1_0_0_1_n_n.rhsIdx j q 0).val = (q ⟨0, by decide⟩).val :=
  DotDims.rhsIdx_val_of_single _ rfl j q
/-- … and axis 1 the result's column. -/
theorem rhsA_1 (j : S50000x100.Idx) (q : dot_S50000x150_S150x100_S50000x100_1_0_0_1_n_n.contr.Idx) :
    (dot_S50000x150_S150x100_S50000x100_1_0_0_1_n_n.rhsIdx j q 1).val = (j 1).val := rfl

/-- The product [50000,150] x [150,100] at (n, k): the sum over the 150 contraction positions. -/
theorem dotA_apply (l : FVec Ideal S50000x150 .f32) (r : FVec Ideal S150x100 .f32) (n : Fin 50000) (k : Fin 100) :
    Host.dotGeneral (F := Ideal) dot_S50000x150_S150x100_S50000x100_1_0_0_1_n_n none l r (ix2 n k)
      = ∑ k' : Fin 150, l (ix2 n k') * r (ix2 k' k) := by
  refine (Ideal.dotGeneral_apply _ none .single l r (ix2 n k)).trans ?_
  rw [← Equiv.sum_comp (contrEquiv1 dot_S50000x150_S150x100_S50000x100_1_0_0_1_n_n 150 rfl rfl).symm]
  refine Finset.sum_congr rfl fun k' _ => ?_
  have hl : dot_S50000x150_S150x100_S50000x100_1_0_0_1_n_n.lhsIdx (ix2 n k)
      ((contrEquiv1 dot_S50000x150_S150x100_S50000x100_1_0_0_1_n_n 150 rfl rfl).symm k') = ix2 n k' := by
    funext a
    refine Fin.ext ?_
    match a with
    | ⟨0, _⟩ => exact lhsA_0 _ _
    | ⟨1, _⟩ => exact (lhsA_1 _ _).trans (contrEquiv1_symm_val _ 150 rfl rfl k')
  have hr : dot_S50000x150_S150x100_S50000x100_1_0_0_1_n_n.rhsIdx (ix2 n k)
      ((contrEquiv1 dot_S50000x150_S150x100_S50000x100_1_0_0_1_n_n 150 rfl rfl).symm k') = ix2 k' k := by
    funext a
    refine Fin.ext ?_
    match a with
    | ⟨0, _⟩ => exact (rhsA_0 _ _).trans (contrEquiv1_symm_val _ 150 rfl rfl k')
    | ⟨1, _⟩ => exact rhsA_1 _ _
  rw [hl, hr]

/-- The product [50000,100] x [100,64]: the same four axis facts … -/
theorem lhsB_0 (j : S50000x64.Idx) (q : dot_S50000x100_S100x64_S50000x64_1_0_0_1_n_n.contr.Idx) :
    (dot_S50000x100_S100x64_S50000x64_1_0_0_1_n_n.lhsIdx j q 0).val = (j 0).val := rfl
theorem lhsB_1 (j : S50000x64.Idx) (q : dot_S50000x100_S100x64_S50000x64_1_0_0_1_n_n.contr.Idx) :
    (dot_S50000x100_S100x64_S50000x64_1_0_0_1_n_n.lhsIdx j q 1).val = (q ⟨0, by decide⟩).val :=
  DotDims.lhsIdx_val_of_single _ rfl j q
theorem rhsB_0 (j : S50000x64.Idx) (q : dot_S50000x100_S100x64_S50000x64_1_0_0_1_n_n.contr.Idx) :
    (dot_S50000x100_S100x64_S50000x64_1_0_0_1_n_n.rhsIdx j q 0).val = (q ⟨0, by decide⟩).val :=
  DotDims.rhsIdx_val_of_single _ rfl j q
theorem rhsB_1 (j : S50000x64.Idx) (q : dot_S50000x100_S100x64_S50000x64_1_0_0_1_n_n.contr.Idx) :
    (dot_S50000x100_S100x64_S50000x64_1_0_0_1_n_n.rhsIdx j q 1).val = (j 1).val := rfl

/-- … and the product at (n, j): the sum over the 100 contraction positions. -/
theorem dotB_apply (l : FVec Ideal S50000x100 .f32) (r : FVec Ideal S100x64 .f32) (n : Fin 50000) (j : Fin 64) :
    Host.dotGeneral (F := Ideal) dot_S50000x100_S100x64_S50000x64_1_0_0_1_n_n none l r (ix2 n j)
      = ∑ k : Fin 100, l (ix2 n k) * r (ix2 k j) := by
  refine (Ideal.dotGeneral_apply _ none .single l r (ix2 n j)).trans ?_
  rw [← Equiv.sum_comp (contrEquiv1 dot_S50000x100_S100x64_S50000x64_1_0_0_1_n_n 100 rfl rfl).symm]
  refine Finset.sum_congr rfl fun k _ => ?_
  have hl : dot_S50000x100_S100x64_S50000x64_1_0_0_1_n_n.lhsIdx (ix2 n j)
      ((contrEquiv1 dot_S50000x100_S100x64_S50000x64_1_0_0_1_n_n 100 rfl rfl).symm k) = ix2 n k := by
    funext a
    refine Fin.ext ?_
    match a with
    | ⟨0, _⟩ => exact lhsB_0 _ _
    | ⟨1, _⟩ => exact (lhsB_1 _ _).trans (contrEquiv1_symm_val _ 100 rfl rfl k)
  have hr : dot_S50000x100_S100x64_S50000x64_1_0_0_1_n_n.rhsIdx (ix2 n j)
      ((contrEquiv1 dot_S50000x100_S100x64_S50000x64_1_0_0_1_n_n 100 rfl rfl).symm k) = ix2 k j := by
    funext a
    refine Fin.ext ?_
    match a with
    | ⟨0, _⟩ => exact (rhsB_0 _ _).trans (contrEquiv1_symm_val _ 100 rfl rfl k)
    | ⟨1, _⟩ => exact rhsB_1 _ _
  rw [hl, hr]

/-- The gather of whole rows of a [50000,150] array at (e, c): the row is the start index read signed and clamped. -/
theorem gatherH_apply (x : FVec Ideal S50000x150 .f32) (idx : IVec S800000x1 32) (e : Fin 800000) (c : Fin 150) :
    Host.gather gather_S50000x150_S800000x1_S800000x150_1_0_n_n_0_1_1150 x idx (ix2 e c)
      = x (ix2 (⟨min (idx (ix2 e (0 : Fin 1))).toInt.toNat (50000 - 1), by omega⟩ : Fin 50000) c) :=
  GatherRows.gather_rows_apply (by omega) _ rfl rfl rfl rfl rfl rfl rfl x idx e c

/-- The accumulating scatter into a [50000,150] array at (p, c): the operand there plus the updates of the rows whose
    index, read signed, is p. -/
theorem scatterH_apply (x : FVec Ideal S50000x150 .f32) (idx : IVec S800000x1 32) (upd : FVec Ideal S800000x150 .f32)
    (p : Fin 50000) (c : Fin 150) :
    Host.scatterAdd (F := Ideal) scatter_S50000x150_S800000x1_S800000x150_1_0_0_1 x idx upd (ix2 p c)
      = x (ix2 p c)
        + ∑ e ∈ Finset.univ.filter (fun e : Fin 800000 => (idx (ix2 e (0 : Fin 1))).toInt = (p.val : Int)),
            upd (ix2 e c) :=
  ScatterSum.scatterAdd_rows_apply _ rfl rfl rfl rfl x idx upd p c

/-- An index vector [800000] laid as a column [800000,1] reads its entry. -/
theorem colIdx_apply (v : IVec S800000 32) (e : Fin 800000) :
    broadcastInDim S800000x1 ![0] bcast_S800000_S800000x1_0 v (ix2 e (0 : Fin 1)) = v (ix1 e) :=
  broadcastInDim_apply _ _ v (ix2 e (0 : Fin 1)) (ix1 e) (fun a => by match a with | ⟨0, _⟩ => rfl)

/-- A vector [50000] laid as a column and the column broadcast along 150 columns reads the vector's entry of the row. -/
theorem rowsB_apply (v : FVec Ideal S50000 .f32) (n : Fin 50000) (c : Fin 150) :
    broadcastInDim S50000x150 ![0, 1] bcast_S50000x1_S50000x150_0_1
      (broadcastInDim S50000x1 ![0] bcast_S50000_S50000x1_0 v) (ix2 n c) = v (ix1 n) := by
  rw [broadcastInDim_apply _ _ _ (ix2 n c) (ix2 n (0 : Fin 1)) (fun a => by match a with | ⟨0, _⟩ => rfl | ⟨1, _⟩ => rfl),
    broadcastInDim_apply _ _ v (ix2 n (0 : Fin 1)) (ix1 n) (fun a => by match a with | ⟨0, _⟩ => rfl)]

/-- A vector [100] laid as a row and the row broadcast down 50000 rows reads the vector's entry of the column. -/
theorem cols100_apply (v : FVec Ideal S100 .f32) (n : Fin 50000) (k : Fin 100) :
    broadcastInDim S50000x100 ![0, 1] bcast_S1x100_S50000x100_0_1
      (broadcastInDim S1x100 ![1] bcast_S100_S1x100_1 v) (ix2 n k) = v (ix1 k) := by
  rw [broadcastInDim_apply _ _ _ (ix2 n k) (ix2 (0 : Fin 1) k) (fun a => by match a with | ⟨0, _⟩ => rfl | ⟨1, _⟩ => rfl),
    broadcastInDim_apply _ _ v (ix2 (0 : Fin 1) k) (ix1 k) (fun a => by match a with | ⟨0, _⟩ => rfl)]

/-- A vector [64] laid as a row and the row broadcast down 50000 rows reads the vector's entry of the column. -/
theorem cols64_apply (v : FVec Ideal S64 .f32) (n : Fin 50000) (j : Fin 64) :
    broadcastInDim S50000x64 ![0, 1] bcast_S1x64_S50000x64_0_1
      (broadcastInDim S1x64 ![1] bcast_S64_S1x64_1 v) (ix2 n j) = v (ix1 j) := by
  rw [broadcastInDim_apply _ _ _ (ix2 n j) (ix2 (0 : Fin 1) j) (fun a => by match a with | ⟨0, _⟩ => rfl | ⟨1, _⟩ => rfl),
    broadcastInDim_apply _ _ v (ix2 (0 : Fin 1) j) (ix1 j) (fun a => by match a with | ⟨0, _⟩ => rfl)]

end AtIndex

/-! ## The buffers of the second half at their literal types, as the line leaves them -/

/-- The gathered first-layer rows, one per edge. -/
abbrev v40 : FVec Ideal S800000x150 .f32 := RNames.fin V (main_v40 : DevRef τ sig)
/-- Their sums at the destinations. -/
abbrev v43 : FVec Ideal S50000x150 .f32 := RNames.fin V (main_v43 : DevRef τ sig)
/-- The sums divided by the clamped in-degree. -/
abbrev v48 : FVec Ideal S50000x150 .f32 := RNames.fin V (main_v48 : DevRef τ sig)
/-- The first layer through Ws. -/
abbrev v49 : FVec Ideal S50000x100 .f32 := RNames.fin V (main_v49 : DevRef τ sig)
/-- The mean through Wn. -/
abbrev v50 : FVec Ideal S50000x100 .f32 := RNames.fin V (main_v50 : DevRef τ sig)
/-- Their sum plus the bias. -/
abbrev v54 : FVec Ideal S50000x100 .f32 := RNames.fin V (main_v54 : DevRef τ sig)
/-- The unit of it. -/
abbrev v55 : FVec Ideal S50000x100 .f32 := RNames.fin V (main_v55 : DevRef τ sig)
/-- That through W3. -/
abbrev v56 : FVec Ideal S50000x64 .f32 := RNames.fin V (main_v56 : DevRef τ sig)
/-- Plus the last bias. -/
abbrev v59 : FVec Ideal S50000x64 .f32 := RNames.fin V (main_v59 : DevRef τ sig)

/-! ## One equation per stage: what each of these buffers holds at the end, over what its operands hold at the end -/

/-- The gathered rows: the first layer's rows at the wrapped source indices laid as a column. -/
theorem v40_eq :
    v40 V = Host.gather gather_S50000x150_S800000x1_S800000x150_1_0_n_n_0_1_1150 (RNames.h1 V)
      (broadcastInDim S800000x1 ![0] bcast_S800000_S800000x1_0
        (select (cmpi .slt (RNames.src V) (broadcastInDim S800000 ![] bcast_S_S800000 (constantI S_ 32 0#32)))
          (addi (RNames.src V) (broadcastInDim S800000 ![] bcast_S_S800000 (constantI S_ 32 50000#32)))
          (RNames.src V))) := by
  unfold v40 RNames.h1 RNames.src RNames.fin
  rw [ssa_binary RSsa.hW V 64 rfl (by decide) (by decide) (by decide),
    ssa_unary RSsa.hW V 63 rfl (by decide) (by decide),
    ssa_ternary RSsa.hW V 62 rfl (by decide) (by decide) (by decide) (by decide),
    ssa_binary RSsa.hW V 58 rfl (by decide) (by decide) (by decide),
    ssa_unary RSsa.hW V 57 rfl (by decide) (by decide), ssa_nullary RSsa.hW V 56 rfl (by decide),
    ssa_binary RSsa.hW V 61 rfl (by decide) (by decide) (by decide),
    ssa_unary RSsa.hW V 60 rfl (by decide) (by decide), ssa_nullary RSsa.hW V 59 rfl (by decide),
    after_keep RSsa.hW V (r := main_arg1) (by decide)]

/-- The sums at the destinations: the scatter of the gathered rows into zeros at the destination indices laid as a column. -/
theorem v43_eq :
    v43 V = Host.scatterAdd (F := Ideal) scatter_S50000x150_S800000x1_S800000x150_1_0_0_1
      (broadcastInDim S50000x150 ![] bcast_S_S50000x150 (constant (F := Ideal) S_ .f32 0x00000000#32))
      (broadcastInDim S800000x1 ![0] bcast_S800000_S800000x1_0 (RNames.dst V)) (v40 V) := by
  unfold v43 v40 RNames.dst RNames.fin
  rw [ssa_ternary RSsa.hW V 68 rfl (by decide) (by decide) (by decide) (by decide),
    ssa_unary RSsa.hW V 66 rfl (by decide) (by decide), ssa_nullary RSsa.hW V 65 rfl (by decide),
    ssa_unary RSsa.hW V 67 rfl (by decide) (by decide),
    after_keep RSsa.hW V (r := main_arg2) (by decide)]

/-- The mean: the sums over the in-degree clamped below by one, the clamped degree broadcast along the columns. -/
theorem v48_eq :
    v48 V = Host.divf (F := Ideal) (v43 V)
      (broadcastInDim S50000x150 ![0, 1] bcast_S50000x1_S50000x150_0_1
        (broadcastInDim S50000x1 ![0] bcast_S50000_S50000x1_0
          (maximumf (RNames.degIn V)
            (broadcastInDim S50000 ![] bcast_S_S50000 (constant (F := Ideal) S_ .f32 0x3F800000#32))))) := by
  unfold v48 v43 RNames.degIn RNames.fin
  rw [ssa_binary RSsa.hW V 74 rfl (by decide) (by decide) (by decide),
    ssa_unary RSsa.hW V 73 rfl (by decide) (by decide),
    ssa_unary RSsa.hW V 72 rfl (by decide) (by decide),
    ssa_binary RSsa.hW V 71 rfl (by decide) (by decide) (by decide),
    ssa_unary RSsa.hW V 70 rfl (by decide) (by decide), ssa_nullary RSsa.hW V 69 rfl (by decide)]

/-- The first layer through Ws. -/
theorem v49_eq :
    v49 V = Host.dotGeneral (F := Ideal) (φ₁ := .f32) (φ₂ := .f32) dot_S50000x150_S150x100_S50000x100_1_0_0_1_n_n none (RNames.h1 V) (RNames.Ws V) := by
  unfold v49 RNames.h1 RNames.Ws RNames.fin
  rw [ssa_binary RSsa.hW V 75 rfl (by decide) (by decide) (by decide),
    after_keep RSsa.hW V (r := main_arg6) (by decide)]

/-- The mean through Wn. -/
theorem v50_eq :
    v50 V = Host.dotGeneral (F := Ideal) (φ₁ := .f32) (φ₂ := .f32) dot_S50000x150_S150x100_S50000x100_1_0_0_1_n_n none (v48 V) (RNames.Wn V) := by
  unfold v50 v48 RNames.Wn RNames.fin
  rw [ssa_binary RSsa.hW V 76 rfl (by decide) (by decide) (by decide),
    after_keep RSsa.hW V (r := main_arg5) (by decide)]

/-- The two products added, plus the bias laid as a row and broadcast down the rows. -/
theorem v54_eq :
    v54 V = addf (addf (v49 V) (v50 V))
      (broadcastInDim S50000x100 ![0, 1] bcast_S1x100_S50000x100_0_1
        (broadcastInDim S1x100 ![1] bcast_S100_S1x100_1 (RNames.b2 V))) := by
  unfold v54 v49 v50 RNames.b2 RNames.fin
  rw [ssa_binary RSsa.hW V 80 rfl (by decide) (by decide) (by decide),
    ssa_binary RSsa.hW V 77 rfl (by decide) (by decide) (by decide),
    ssa_unary RSsa.hW V 79 rfl (by decide) (by decide),
    ssa_unary RSsa.hW V 78 rfl (by decide) (by decide),
    after_keep RSsa.hW V (r := main_arg7) (by decide)]

/-! ### The unit's call on the second layer's sum: what each of its buffers holds at the end -/

/-- The first zero array. -/
theorem c1_v0 :
    RNames.fin V (main_call1_v0 : DevRef τ sig)
      = broadcastInDim S50000x100 ![] bcast_S_S50000x100 (constant (F := Ideal) S_ .f32 0x00000000#32) := by
  unfold RNames.fin
  rw [ssa_unary RSsa.hW V 82 rfl (by decide) (by decide), ssa_nullary RSsa.hW V 81 rfl (by decide)] <;> rfl

/-- The outer comparison with zero. -/
theorem c1_v1 :
    RNames.fin V (main_call1_v1 : DevRef τ sig)
      = cmpf (F := Ideal) (s := S50000x100) (φ := .f32) .ogt (v54 V) (RNames.fin V (main_call1_v0 : DevRef τ sig)) :=
  ssa_binary RSsa.hW V 83 rfl (by decide) (by decide) (by decide)

/-- The second zero array. -/
theorem c1_v2 :
    RNames.fin V (main_call1_v2 : DevRef τ sig)
      = broadcastInDim S50000x100 ![] bcast_S_S50000x100 (constant (F := Ideal) S_ .f32 0x00000000#32) := by
  unfold RNames.fin
  rw [ssa_unary RSsa.hW V 85 rfl (by decide) (by decide), ssa_nullary RSsa.hW V 84 rfl (by decide)] <;> rfl

/-- The inner comparison with zero. -/
theorem c1_v3 :
    RNames.fin V (main_call1_v3 : DevRef τ sig)
      = cmpf (F := Ideal) (s := S50000x100) (φ := .f32) .ogt (v54 V) (RNames.fin V (main_call1_v2 : DevRef τ sig)) :=
  ssa_binary RSsa.hW V 86 rfl (by decide) (by decide) (by decide)

/-- The inner choice's zero array. -/
theorem c1_w1 :
    RNames.fin V (main_call1_call0_v1 : DevRef τ sig)
      = broadcastInDim S50000x100 ![] bcast_S_S50000x100 (id (constant (F := Ideal) S_ .f32 0x00000000#32)) := by
  unfold RNames.fin
  rw [ssa_unary RSsa.hW V 89 rfl (by decide) (by decide), ssa_unary RSsa.hW V 88 rfl (by decide) (by decide),
    ssa_nullary RSsa.hW V 87 rfl (by decide)] <;> rfl

/-- The inner choice between zero and the sum. -/
theorem c1_v4 :
    RNames.fin V (main_call1_v4 : DevRef τ sig)
      = select (RNames.fin V (main_call1_v3 : DevRef τ sig)) (RNames.fin V (main_call1_call0_v1 : DevRef τ sig)) (v54 V) :=
  ssa_ternary RSsa.hW V 90 rfl (by decide) (by decide) (by decide) (by decide)

/-- e^· - 1 of the inner choice. -/
theorem c1_v5 :
    RNames.fin V (main_call1_v5 : DevRef τ sig)
      = Host.expm1 (F := Ideal) (s := S50000x100) (φ := .f32) (RNames.fin V (main_call1_v4 : DevRef τ sig)) :=
  ssa_unary RSsa.hW V 91 rfl (by decide) (by decide)

/-- The array of ones. -/
theorem c1_v6 :
    RNames.fin V (main_call1_v6 : DevRef τ sig)
      = broadcastInDim S50000x100 ![] bcast_S_S50000x100 (constant (F := Ideal) S_ .f32 0x3F800000#32) := by
  unfold RNames.fin
  rw [ssa_unary RSsa.hW V 93 rfl (by decide) (by decide), ssa_nullary RSsa.hW V 92 rfl (by decide)] <;> rfl

/-- The product with one. -/
theorem c1_v7 :
    RNames.fin V (main_call1_v7 : DevRef τ sig)
      = mulf (F := Ideal) (s := S50000x100) (φ := .f32) (RNames.fin V (main_call1_v6 : DevRef τ sig))
          (RNames.fin V (main_call1_v5 : DevRef τ sig)) :=
  ssa_binary RSsa.hW V 94 rfl (by decide) (by decide) (by decide)

/-- The outer choice between the sum and that product. -/
theorem c1_out :
    v55 V = select (RNames.fin V (main_call1_v1 : DevRef τ sig)) (v54 V) (RNames.fin V (main_call1_v7 : DevRef τ sig)) :=
  ssa_ternary RSsa.hW V 95 rfl (by decide) (by decide) (by decide) (by decide)

/-- The unit of the second layer's sum: the ten equations above put together. -/
theorem v55_eq : v55 V = RElu.eluArr bcast_S_S50000x100 (v54 V) := by
  unfold RElu.eluArr
  rw [c1_out, c1_v7, c1_v6, c1_v5, c1_v4, c1_w1, c1_v3, c1_v2, c1_v1, c1_v0]

/-- That through W3. -/
theorem v56_eq :
    v56 V = Host.dotGeneral (F := Ideal) (φ₁ := .f32) (φ₂ := .f32) dot_S50000x100_S100x64_S50000x64_1_0_0_1_n_n none (v55 V) (RNames.W3 V) := by
  unfold v56 v55 RNames.W3 RNames.fin
  rw [ssa_binary RSsa.hW V 96 rfl (by decide) (by decide) (by decide),
    after_keep RSsa.hW V (r := main_arg8) (by decide)]

/-- Plus the last bias laid as a row and broadcast down the rows. -/
theorem v59_eq :
    v59 V = addf (v56 V)
      (broadcastInDim S50000x64 ![0, 1] bcast_S1x64_S50000x64_0_1
        (broadcastInDim S1x64 ![1] bcast_S64_S1x64_1 (RNames.b3 V))) := by
  unfold v59 v56 RNames.b3 RNames.fin
  rw [ssa_binary RSsa.hW V 99 rfl (by decide) (by decide) (by decide),
    ssa_unary RSsa.hW V 98 rfl (by decide) (by decide),
    ssa_unary RSsa.hW V 97 rfl (by decide) (by decide),
    after_keep RSsa.hW V (r := main_arg9) (by decide)]

/-! ### The unit's call on the third layer's sum: what each of its buffers holds at the end -/

/-- The first zero array. -/
theorem c2_v0 :
    RNames.fin V (main_call2_v0 : DevRef τ sig)
      = broadcastInDim S50000x64 ![] bcast_S_S50000x64 (constant (F := Ideal) S_ .f32 0x00000000#32) := by
  unfold RNames.fin
  rw [ssa_unary RSsa.hW V 101 rfl (by decide) (by decide), ssa_nullary RSsa.hW V 100 rfl (by decide)] <;> rfl

/-- The outer comparison with zero. -/
theorem c2_v1 :
    RNames.fin V (main_call2_v1 : DevRef τ sig)
      = cmpf (F := Ideal) (s := S50000x64) (φ := .f32) .ogt (v59 V) (RNames.fin V (main_call2_v0 : DevRef τ sig)) :=
  ssa_binary RSsa.hW V 102 rfl (by decide) (by decide) (by decide)

/-- The second zero array. -/
theorem c2_v2 :
    RNames.fin V (main_call2_v2 : DevRef τ sig)
      = broadcastInDim S50000x64 ![] bcast_S_S50000x64 (constant (F := Ideal) S_ .f32 0x00000000#32) := by
  unfold RNames.fin
  rw [ssa_unary RSsa.hW V 104 rfl (by decide) (by decide), ssa_nullary RSsa.hW V 103 rfl (by decide)] <;> rfl

/-- The inner comparison with zero. -/
theorem c2_v3 :
    RNames.fin V (main_call2_v3 : DevRef τ sig)
      = cmpf (F := Ideal) (s := S50000x64) (φ := .f32) .ogt (v59 V) (RNames.fin V (main_call2_v2 : DevRef τ sig)) :=
  ssa_binary RSsa.hW V 105 rfl (by decide) (by decide) (by decide)

/-- The inner choice's zero array. -/
theorem c2_w1 :
    RNames.fin V (main_call2_call0_v1 : DevRef τ sig)
      = broadcastInDim S50000x64 ![] bcast_S_S50000x64 (id (constant (F := Ideal) S_ .f32 0x00000000#32)) := by
  unfold RNames.fin
  rw [ssa_unary RSsa.hW V 108 rfl (by decide) (by decide), ssa_unary RSsa.hW V 107 rfl (by decide) (by decide),
    ssa_nullary RSsa.hW V 106 rfl (by decide)] <;> rfl

/-- The inner choice between zero and the sum. -/
theorem c2_v4 :
    RNames.fin V (main_call2_v4 : DevRef τ sig)
      = select (RNames.fin V (main_call2_v3 : DevRef τ sig)) (RNames.fin V (main_call2_call0_v1 : DevRef τ sig)) (v59 V) :=
  ssa_ternary RSsa.hW V 109 rfl (by decide) (by decide) (by decide) (by decide)

/-- e^· - 1 of the inner choice. -/
theorem c2_v5 :
    RNames.fin V (main_call2_v5 : DevRef τ sig)
      = Host.expm1 (F := Ideal) (s := S50000x64) (φ := .f32) (RNames.fin V (main_call2_v4 : DevRef τ sig)) :=
  ssa_unary RSsa.hW V 110 rfl (by decide) (by decide)

/-- The array of ones. -/
theorem c2_v6 :
    RNames.fin V (main_call2_v6 : DevRef τ sig)
      = broadcastInDim S50000x64 ![] bcast_S_S50000x64 (constant (F := Ideal) S_ .f32 0x3F800000#32) := by
  unfold RNames.fin
  rw [ssa_unary RSsa.hW V 112 rfl (by decide) (by decide), ssa_nullary RSsa.hW V 111 rfl (by decide)] <;> rfl

/-- The product with one. -/
theorem c2_v7 :
    RNames.fin V (main_call2_v7 : DevRef τ sig)
      = mulf (F := Ideal) (s := S50000x64) (φ := .f32) (RNames.fin V (main_call2_v6 : DevRef τ sig))
          (RNames.fin V (main_call2_v5 : DevRef τ sig)) :=
  ssa_binary RSsa.hW V 113 rfl (by decide) (by decide) (by decide)

/-- The outer choice between the sum and that product: the result's buffer. -/
theorem c2_out :
    RNames.res V
      = select (RNames.fin V (main_call2_v1 : DevRef τ sig)) (v59 V) (RNames.fin V (main_call2_v7 : DevRef τ sig)) :=
  ssa_ternary RSsa.hW V 114 rfl (by decide) (by decide) (by decide) (by decide)

/-- The result is the unit of the third layer's sum: the ten equations above put together. -/
theorem res_eq : RNames.res V = RElu.eluArr bcast_S_S50000x64 (v59 V) := by
  unfold RElu.eluArr
  rw [c2_out, c2_v7, c2_v6, c2_v5, c2_v4, c2_w1, c2_v3, c2_v2, c2_v1, c2_v0]

/-! ## The stages at an index -/

/-- The column the gather reads holds, for edge e, the wrapped source index. -/
theorem wrapCol_apply (e : Fin 800000) :
    broadcastInDim S800000x1 ![0] bcast_S800000_S800000x1_0
        (select (cmpi .slt (RNames.src V) (broadcastInDim S800000 ![] bcast_S_S800000 (constantI S_ 32 0#32)))
          (addi (RNames.src V) (broadcastInDim S800000 ![] bcast_S_S800000 (constantI S_ 32 50000#32)))
          (RNames.src V)) (ix2 e (0 : Fin 1))
      = Gnn.wrap (RNames.src V (ix1 e)) := by
  rw [colIdx_apply]
  rfl

/-- The gathered row of edge e is the first layer's row at the edge's source row. -/
theorem v40_apply (e : Fin 800000) (c : Fin 150) :
    v40 V (ix2 e c) = RNames.h1 V (ix2 (Gnn.rowOf (RNames.src V) e) c) := by
  rw [v40_eq, gatherH_apply]
  refine congrArg (fun r => RNames.h1 V (ix2 r c)) (Fin.ext ?_)
  exact congrArg (fun w : BitVec 32 => min w.toInt.toNat (50000 - 1)) (wrapCol_apply V e)

/-- The scatter at (n, c): zero plus the gathered rows of the edges into n. -/
theorem v43_apply (n : Fin 50000) (c : Fin 150) :
    v43 V (ix2 n c)
      = 0 + ∑ e ∈ Gnn.edgesAt (RNames.dst V) n, RNames.h1 V (ix2 (Gnn.rowOf (RNames.src V) e) c) := by
  rw [v43_eq, scatterH_apply, RElu.zeroB_apply]
  refine congrArg (fun s => (0 : EReal) + s) ?_
  have hf : (Finset.univ.filter fun e : Fin 800000 =>
      (broadcastInDim S800000x1 ![0] bcast_S800000_S800000x1_0 (RNames.dst V) (ix2 e (0 : Fin 1))).toInt = (n.val : Int))
      = Gnn.edgesAt (RNames.dst V) n := by
    unfold Gnn.edgesAt
    exact Finset.filter_congr fun e _ => by rw [colIdx_apply]
  rw [hf]
  exact Finset.sum_congr rfl fun e _ => v40_apply V e c

/-- The mean at (n, c): that sum over the in-degree clamped below by one. -/
theorem v48_apply (n : Fin 50000) (c : Fin 150) :
    v48 V (ix2 n c)
      = Ideal.div (0 + ∑ e ∈ Gnn.edgesAt (RNames.dst V) n, RNames.h1 V (ix2 (Gnn.rowOf (RNames.src V) e) c))
          (max (RNames.degIn V (ix1 n)) 1) := by
  rw [v48_eq, hostDivf_apply, v43_apply, rowsB_apply, maximumf_apply, RElu.oneB_apply]

/-- The first layer through Ws at (n, k). -/
theorem v49_apply (n : Fin 50000) (k : Fin 100) :
    v49 V (ix2 n k) = ∑ k' : Fin 150, RNames.h1 V (ix2 n k') * RNames.Ws V (ix2 k' k) := by
  rw [v49_eq, dotA_apply]

/-- The mean through Wn at (n, k): the middle addend. -/
theorem v50_apply (n : Fin 50000) (k : Fin 100) : v50 V (ix2 n k) = mid V n k := by
  rw [v50_eq, dotA_apply]
  unfold mid
  exact Finset.sum_congr rfl fun k' _ => by rw [v48_apply]

/-- The second layer's sum at (n, k). -/
theorem v54_apply (n : Fin 50000) (k : Fin 100) :
    v54 V (ix2 n k)
      = ((∑ k' : Fin 150, RNames.h1 V (ix2 n k') * RNames.Ws V (ix2 k' k)) + mid V n k) + RNames.b2 V (ix1 k) := by
  rw [v54_eq, addf_apply, addf_apply, v49_apply, v50_apply, cols100_apply]

/-- Its unit at (n, k). -/
theorem v55_apply (n : Fin 50000) (k : Fin 100) :
    v55 V (ix2 n k)
      = Gnn.elu (((∑ k' : Fin 150, RNames.h1 V (ix2 n k') * RNames.Ws V (ix2 k' k)) + mid V n k) + RNames.b2 V (ix1 k)) := by
  rw [v55_eq, RElu.eluArr_apply, v54_apply]

/-- That through W3 at (n, j). -/
theorem v56_apply (n : Fin 50000) (j : Fin 64) :
    v56 V (ix2 n j)
      = ∑ k : Fin 100,
          Gnn.elu (((∑ k' : Fin 150, RNames.h1 V (ix2 n k') * RNames.Ws V (ix2 k' k)) + mid V n k) + RNames.b2 V (ix1 k))
            * RNames.W3 V (ix2 k j) := by
  rw [v56_eq, dotB_apply]
  exact Finset.sum_congr rfl fun k _ => by rw [v55_apply]

/-- Plus the last bias at (n, j). -/
theorem v59_apply (n : Fin 50000) (j : Fin 64) :
    v59 V (ix2 n j)
      = (∑ k : Fin 100,
          Gnn.elu (((∑ k' : Fin 150, RNames.h1 V (ix2 n k') * RNames.Ws V (ix2 k' k)) + mid V n k) + RNames.b2 V (ix1 k))
            * RNames.W3 V (ix2 k j)) + RNames.b3 V (ix1 j) := by
  rw [v59_eq, addf_apply, v56_apply, cols64_apply]

/-! ## The result at an index -/

theorem res_apply (n : Fin 50000) (j : Fin 64) :
    RNames.res V (ix2 n j)
      = Gnn.outAt (fun n k => RNames.h1 V (ix2 n k)) (mid V) (RNames.Ws V) (RNames.b2 V) (RNames.W3 V) (RNames.b3 V) n j := by
  rw [res_eq, RElu.eluArr_apply, v59_apply]
  rfl

/-- The arguments end as launched. -/
theorem kept (V : Valuation τ sig (Elt Ideal)) :
    RNames.fin V (main_arg0 : DevRef τ sig) = V (main_arg0 : DevRef τ sig)
    ∧ RNames.fin V (main_arg1 : DevRef τ sig) = V (main_arg1 : DevRef τ sig)
    ∧ RNames.fin V (main_arg2 : DevRef τ sig) = V (main_arg2 : DevRef τ sig)
    ∧ RNames.fin V (main_arg3 : DevRef τ sig) = V (main_arg3 : DevRef τ sig)
    ∧ RNames.fin V (main_arg4 : DevRef τ sig) = V (main_arg4 : DevRef τ sig)
    ∧ RNames.fin V (main_arg5 : DevRef τ sig) = V (main_arg5 : DevRef τ sig)
    ∧ RNames.fin V (main_arg6 : DevRef τ sig) = V (main_arg6 : DevRef τ sig)
    ∧ RNames.fin V (main_arg7 : DevRef τ sig) = V (main_arg7 : DevRef τ sig)
    ∧ RNames.fin V (main_arg8 : DevRef τ sig) = V (main_arg8 : DevRef τ sig)
    ∧ RNames.fin V (main_arg9 : DevRef τ sig) = V (main_arg9 : DevRef τ sig) := by
  exact ⟨after_keep RSsa.hW V (r := main_arg0) (by decide), after_keep RSsa.hW V (r := main_arg1) (by decide),
    after_keep RSsa.hW V (r := main_arg2) (by decide), after_keep RSsa.hW V (r := main_arg3) (by decide),
    after_keep RSsa.hW V (r := main_arg4) (by decide), after_keep RSsa.hW V (r := main_arg5) (by decide),
    after_keep RSsa.hW V (r := main_arg6) (by decide), after_keep RSsa.hW V (r := main_arg7) (by decide),
    after_keep RSsa.hW V (r := main_arg8) (by decide), after_keep RSsa.hW V (r := main_arg9) (by decide)⟩

end Cert.ReferenceIdeal.RValB

end
-- ==== Proof.RValue.lean ====
/-
  The idealized reference's result array as a function of its launch contents: its second half over the first layer
  and the in-degree (as the line leaves them), those two read in turn; together, index by index, the program that takes
  the mean first (Spec.lean's resMean).
-/
import proofs.«407557_j3874060501607_3_alg».proof.Proof.RNames
import proofs.«407557_j3874060501607_3_alg».proof.Proof.RValA
import proofs.«407557_j3874060501607_3_alg».proof.Proof.RValB

noncomputable section

open scoped BigOperators
open Idealize.ShloMosaic Idealize.ShloMosaic.TcCoe Idealize.SL.Sem Idealize.ShloMosaic.ValueIdx
open Cert.ReferenceIdeal Cert.ReferenceIdeal.ROps Idealize.ShloMosaic.StableHlo
namespace Cert.ReferenceIdeal.RValue

variable (V : Valuation τ sig (Elt Ideal))

/-- The middle addend over what the line leaves is the specification's mean-then-project. -/
theorem mid_eq :
    RValB.mid V = Gnn.midMean (Gnn.h1At (RNames.x V) (RNames.src V) (RNames.dst V) (RNames.W1 V) (RNames.b1 V))
      (RNames.src V) (RNames.dst V) (RNames.Wn V) := by
  funext n k
  unfold RValB.mid Gnn.midMean Gnn.ddAt
  rw [RValA.degIn_apply V n]
  refine Finset.sum_congr rfl fun k' _ => ?_
  have hs : (∑ e ∈ Gnn.edgesAt (RNames.dst V) n, RNames.h1 V (ix2 (Gnn.rowOf (RNames.src V) e) k'))
      = ∑ e ∈ Gnn.edgesAt (RNames.dst V) n,
          Gnn.h1At (RNames.x V) (RNames.src V) (RNames.dst V) (RNames.W1 V) (RNames.b1 V) (Gnn.rowOf (RNames.src V) e) k' :=
    Finset.sum_congr rfl fun e _ => RValA.h1_apply V (Gnn.rowOf (RNames.src V) e) k'
  rw [hs]

/-- THE REFERENCE'S RESULT: the array the line leaves at the result buffer is the mean-first program's. -/
theorem result :
    RNames.res V = Gnn.resMean (RNames.x V) (RNames.src V) (RNames.dst V) (RNames.W1 V) (RNames.b1 V) (RNames.Wn V)
      (RNames.Ws V) (RNames.b2 V) (RNames.W3 V) (RNames.b3 V) := by
  funext i
  obtain ⟨n, j, rfl⟩ : ∃ (n : Fin 50000) (j : Fin 64), i = ix2 n j := ⟨i 0, i 1, eq_ix2 i⟩
  rw [RValB.res_apply]
  unfold Gnn.resMean
  rw [Gnn.outArr_apply, mid_eq]
  have hH : (fun n k => RNames.h1 V (ix2 n k))
      = Gnn.h1At (RNames.x V) (RNames.src V) (RNames.dst V) (RNames.W1 V) (RNames.b1 V) := by
    funext n k; exact RValA.h1_apply V n k
  rw [hH]

end Cert.ReferenceIdeal.RValue

end
-- ==== Proof.Law.lean ====
/-
  Projecting before or after the aggregation and the mean is the same where the numbers are real.

  For a node n with incoming edges E and clamped in-degree d (a real number at least one):
    (Σ_{e ∈ E} Σ_k' h (row e) k' · w k' k) / d  =  Σ_k' ((Σ_{e ∈ E} h (row e) k') / d) · w k' k
  when every h and w entry is a real number: both sides are then the real number (Σ_k' (Σ_e h) · w) / d, by commuting
  the two finite sums, distributing the product over the inner sum, and writing division by d as the product with 1/d.
  The first layer's entries are real when the inputs are: a degree is a natural number, its clamp at least one, its
  inverse square root a positive real; the aggregate a finite sum of products of reals; the layer's argument a finite
  sum of products of reals plus a real; and the unit of a real y is y or e^y - 1, real either way.
-/
import proofs.«407557_j3874060501607_3_alg».proof.Proof.Spec
import Idealize.ShloMosaic.Lib.IdealHost

noncomputable section

open scoped BigOperators
open Idealize.ShloMosaic Idealize.ShloMosaic.TcCoe Idealize.SL.Sem Idealize.ShloMosaic.ValueIdx

namespace Gnn

/-- The embedding of the reals into the extended reals carries a finite sum to the finite sum: it carries zero to zero
    and a sum of two to the sum of two, and a finite sum is built from these one term at a time. -/
theorem coe_sum {ι : Type} (s : Finset ι) (f : ι → ℝ) :
    (∑ i ∈ s, ((f i : ℝ) : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The degree is the number of edges at the node, a real number that is not negative. -/
theorem degAt_eq (idx : Ids) (p : Fin 50000) : degAt idx p = (((edgesAt idx p).card : ℝ) : EReal) := by
  -- a sum of ones over a finite set is the sum of the real ones, which is the set's size
  have hcard : (∑ _e ∈ edgesAt idx p, (1 : ℝ)) = ((edgesAt idx p).card : ℝ) := by
    rw [Finset.sum_const, nsmul_eq_mul, mul_one]
  rw [degAt, zero_add, ← hcard, ← coe_sum]
  exact Finset.sum_congr rfl fun _ _ => EReal.coe_one.symm

/-- The clamped degree is a real number at least one. -/
theorem ddAt_real (idx : Ids) (p : Fin 50000) : ∃ r : ℝ, 1 ≤ r ∧ ddAt idx p = (r : EReal) := by
  -- the larger of two reals is a real, and it is at least the second of them
  refine ⟨max ((edgesAt idx p).card : ℝ) 1, le_max_right _ _, ?_⟩
  rw [ddAt, degAt_eq, ← EReal.coe_one, EReal.coe_strictMono.monotone.map_max]

/-- The norm is a real number. -/
theorem normAt_real (idx : Ids) (p : Fin 50000) : ∃ r : ℝ, normAt idx p = (r : EReal) := by
  -- the clamped degree d is a real with 1 ≤ d, so neither negative nor zero: its inverse square root is 1 / √d
  obtain ⟨d, hd1, hd⟩ := ddAt_real idx p
  refine ⟨(Real.sqrt d)⁻¹, ?_⟩
  rw [normAt, hd, Ideal.rsqrt_coe, if_neg (by linarith), if_neg (by linarith)]

/-- The unit of a real number is a real number. -/
theorem elu_real (r : ℝ) : ∃ s : ℝ, elu (r : EReal) = (s : EReal) := by
  -- whichever way the comparison falls: r itself, or e^r - 1
  unfold elu Scalar.select
  split_ifs with h
  · exact ⟨r, rfl⟩
  · exact ⟨Real.exp r - 1, by rw [Ideal.exp_coe, EReal.coe_sub, EReal.coe_one]⟩

/-- The first aggregate of real features is real: a finite sum of products of two reals. -/
theorem aggAt_real (x : Mat 50000 128) (src dst : Ids) (hx : AllReal x) (p : Fin 50000) (k : Fin 128) :
    ∃ r : ℝ, aggAt x src dst p k = (r : EReal) := by
  choose xr hxr using hx
  choose nr hnr using fun q => normAt_real src q
  refine ⟨∑ e ∈ edgesAt dst p, xr (ix2 (rowOf src e) k) * nr (rowOf src e), ?_⟩
  rw [aggAt, zero_add, ← coe_sum]
  refine Finset.sum_congr rfl fun e _ => ?_
  rw [hxr, hnr, EReal.coe_mul]

/-- The first layer of real inputs is real. -/
theorem h1At_real (x : Mat 50000 128) (src dst : Ids) (W1 : Mat 128 150) (b1 : Arr 150) (hx : AllReal x)
    (hW1 : AllReal W1) (hb1 : AllReal b1) (n : Fin 50000) (j : Fin 150) :
    ∃ r : ℝ, h1At x src dst W1 b1 n j = (r : EReal) := by
  -- the unit's argument is Σ_k (a k · ν) · w k + b over reals a k, ν, w k, b: a real
  choose ar har using fun k => aggAt_real x src dst hx n k
  obtain ⟨nr, hnr⟩ := normAt_real dst n
  choose wr hwr using hW1
  obtain ⟨br, hbr⟩ := hb1 (ix1 j)
  have harg : (∑ k : Fin 128, (aggAt x src dst n k * normAt dst n) * W1 (ix2 k j)) + b1 (ix1 j)
      = (((∑ k : Fin 128, (ar k * nr) * wr (ix2 k j)) + br : ℝ) : EReal) := by
    rw [EReal.coe_add, ← coe_sum, hbr]
    refine congrArg (fun t : EReal => t + (br : EReal)) ?_
    refine Finset.sum_congr rfl fun k _ => ?_
    rw [har, hnr, hwr, EReal.coe_mul, EReal.coe_mul]
  rw [h1At, harg]
  exact elu_real _

/-- Projecting first or last is the same over real entries. -/
theorem midProj_eq_midMean (H : Fin 50000 → Fin 150 → EReal) (hH : ∀ n k, ∃ r : ℝ, H n k = (r : EReal)) (src dst : Ids)
    (Wn : Mat 150 100) (hWn : AllReal Wn) : midProj H src dst Wn = midMean H src dst Wn := by
  funext n k
  -- real witnesses h, w of the entries, and the clamped in-degree d, a real at least one and so other than zero
  choose h hh using hH
  choose w hw using hWn
  obtain ⟨d, hd1, hd⟩ := ddAt_real dst n
  have hd0 : d ≠ 0 := by linarith
  -- projecting first: the real number (Σ_e Σ_k' h (row e) k' · w k' k) · (1/d)
  have hL : midProj H src dst Wn n k
      = (((∑ e ∈ edgesAt dst n, ∑ k' : Fin 150, h (rowOf src e) k' * w (ix2 k' k)) * (1 / d) : ℝ) : EReal) := by
    rw [midProj, hd, Ideal.div_coe hd0, zero_add, EReal.coe_mul, ← coe_sum]
    refine congrArg (fun t : EReal => t * ((1 / d : ℝ) : EReal)) ?_
    refine Finset.sum_congr rfl fun e _ => ?_
    rw [projAt, ← coe_sum]
    refine Finset.sum_congr rfl fun k' _ => ?_
    rw [hh, hw, EReal.coe_mul]
  -- taking the mean first: the real number Σ_k' ((Σ_e h (row e) k') · (1/d)) · w k' k
  have hR : midMean H src dst Wn n k
      = ((∑ k' : Fin 150, ((∑ e ∈ edgesAt dst n, h (rowOf src e) k') * (1 / d)) * w (ix2 k' k) : ℝ) : EReal) := by
    rw [midMean, ← coe_sum]
    refine Finset.sum_congr rfl fun k' _ => ?_
    rw [hd, Ideal.div_coe hd0, zero_add, hw, EReal.coe_mul, EReal.coe_mul, ← coe_sum]
    refine congrArg (fun t : EReal => t * ((1 / d : ℝ) : EReal) * ((w (ix2 k' k) : ℝ) : EReal)) ?_
    exact Finset.sum_congr rfl fun e _ => hh _ _
  -- in the reals: commute the two sums, then for each k' move the two constant factors through the sum over e
  rw [hL, hR]
  refine congrArg (fun t : ℝ => (t : EReal)) ?_
  rw [Finset.sum_comm, Finset.sum_mul]
  refine Finset.sum_congr rfl fun k' _ => ?_
  rw [← Finset.sum_mul]
  ring

/-- The two programs' results agree on real inputs. -/
theorem resProj_eq_resMean (x : Mat 50000 128) (src dst : Ids) (W1 : Mat 128 150) (b1 : Arr 150) (Wn Ws : Mat 150 100)
    (b2 : Arr 100) (W3 : Mat 100 64) (b3 : Arr 64) (hx : AllReal x) (hW1 : AllReal W1) (hb1 : AllReal b1)
    (hWn : AllReal Wn) :
    resProj x src dst W1 b1 Wn Ws b2 W3 b3 = resMean x src dst W1 b1 Wn Ws b2 W3 b3 := by
  unfold resProj resMean
  rw [midProj_eq_midMean _ (h1At_real x src dst W1 b1 hx hW1 hb1) src dst Wn hWn]

end Gnn

end
-- ==== Proof.Finite.lean ====
/-
  From the precondition to the numbers: where the finiteness predicate is all ones on a launch memory, every entry of
  the node features, of W1, of the first bias and of Wn has absolute value below +inf as an extended real, so it is a
  real number.
-/
import proofs.«407557_j3874060501607_3_alg».proof.Defs
import proofs.«407557_j3874060501607_3_alg».proof.Proof.Args
import proofs.«407557_j3874060501607_3_alg».proof.Proof.Gen.Pre_finite_inputs
import Idealize.ShloMosaic.Lib.ReduceAll
import Idealize.ShloMosaic.Lib.StableHlo.Predicate

noncomputable section

open scoped BigOperators
open Idealize.ShloMosaic Idealize.ShloMosaic.TcCoe Idealize.SL.Sem Idealize.ShloMosaic.ValueIdx
open Cert.KernelIdeal
namespace Cert.KernelIdeal.Finite

/-- The shape of a scalar has exactly one index. -/
instance subsingleton_scalar_idx : Subsingleton Cert.Pre_finite_inputs.S_.Idx :=
  ⟨fun a b => funext fun d => d.elim0⟩

/-- The 32-bit pattern with all exponent bits set, sign and fraction zero, denotes +inf. -/
theorem inf_pattern_eq_top : Ideal.ofBits .f32 0x7F800000#32 = (⊤ : EReal) := by
  simp [Ideal.ofBits, Ideal.ieee]

/-- An extended real x whose absolute value max x (-x) lies strictly below +inf is a real number: both infinities
    have absolute value +inf, which is not below itself. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : BitVec.ofBool (decide (max x (-x) < Ideal.ofBits .f32 0x7F800000#32)) = 1#1 := h
  rw [inf_pattern_eq_top, StableHlo.Predicate.ofBool_eq_one_iff, decide_eq_true_eq] at h'
  induction x using EReal.rec with
  | bot => simp at h'
  | coe r => exact ⟨r, rfl⟩
  | top => simp at h'

/-- One conjunct of the predicate, at any shape: where the conjunction over all entries of |a| < +inf is one, every
    entry of a is a real number. -/
theorem allReal_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf a) (broadcastInDim s ![] hb (constant Cert.Pre_finite_inputs.S_ .f32 0x7F800000#32)))
        init hr hu ix0 = 1#1) :
    Gnn.AllReal a := by
  intro i
  exact real_of_abs_lt_inf (a i) (Host.reduce_andi_all _ init hr hu ix0 e i)

theorem real_inputs [hP : Cert.Pre_finite_inputs.Facts] (m : (ℓ : Loc nD τ sig) → Buf (Elt Ideal) ℓ)
    (h : Cert.Pre_KernelIdeal m) (c : Dev nD) :
    Gnn.AllReal (Args.x m c) ∧ Gnn.AllReal (Args.W1 m c) ∧ Gnn.AllReal (Args.b1 m c) ∧ Gnn.AllReal (Args.Wn m c) := by
  have h0 := congrFun (h c) ix0
  dsimp only [Cert.Pre_finite_inputs.fn, Cert.Pre_finite_inputs.fn_part1, Cert.Pre_finite_inputs.fn_part2] at h0
  simp only [Idealize.ShloMosaic.andi, IntOp.andi_eq_one] at h0
  obtain ⟨⟨⟨⟨⟨⟨⟨hx, hW1⟩, hb1⟩, hWn⟩, _⟩, _⟩, _⟩, _⟩ := h0
  exact ⟨allReal_of_all _ _ _ _ _ hx, allReal_of_all _ _ _ _ _ hW1, allReal_of_all _ _ _ _ _ hb1,
    allReal_of_all _ _ _ _ _ hWn⟩

end Cert.KernelIdeal.Finite

end
-- ==== Proof.lean ====
/-
  The certificate of a three-layer graph network over 50000 nodes and 800000 edges: a graph convolution normalised by
  in- and out-degree, a mean-aggregating layer, and a dense layer, each followed by the exponential-linear unit.

  The kernel program keeps the two edge aggregations as host operations and runs the dense algebra in two row-blocked
  regions; it projects the first layer through Wn BEFORE aggregating it over the edges, so that the aggregated rows are
  100 wide. The reference aggregates the 150-wide first layer, divides by the clamped in-degree and projects afterwards.
  Over the extended reals the two agree where the numbers are real: a finite sum of reals times a real distributes,
  finite sums commute and division by a real other than zero is a product (Law.lean). The precondition makes every
  float input a real number (Finite.lean), the degrees are natural numbers, and the first layer is then real.

  The three frames: the two kernel programs' are the generated frames of their two regions among the host stretches;
  the reference is a straight line of host operations (RRun.lean), which runs and writes no argument.
  The idealization rewrote nothing, so it is preserved trivially. The value claim: the kernel's run with its result
  named (KRun.lean) ends at the projecting program's array (KValue.lean, over KHost0 / KReg0 / KHost1 / KReg1), the
  reference's at the mean-first program's (RValue.lean, over RValA / RValB), and the two arrays are equal.
-/
import proofs.«407557_j3874060501607_3_alg».proof.Defs
import proofs.«407557_j3874060501607_3_alg».proof.Proof.Gen.Kernel
import proofs.«407557_j3874060501607_3_alg».proof.Proof.Gen.Kernel.Frame
import proofs.«407557_j3874060501607_3_alg».proof.Proof.Gen.KernelIdeal
import proofs.«407557_j3874060501607_3_alg».proof.Proof.Gen.KernelIdeal.Frame
import proofs.«407557_j3874060501607_3_alg».proof.Proof.Gen.ReferenceIdeal
import proofs.«407557_j3874060501607_3_alg».proof.Proof.Gen.Pre_finite_inputs
import proofs.«407557_j3874060501607_3_alg».proof.Proof.KRun
import proofs.«407557_j3874060501607_3_alg».proof.Proof.KValue
import proofs.«407557_j3874060501607_3_alg».proof.Proof.RRun
import proofs.«407557_j3874060501607_3_alg».proof.Proof.RValue
import proofs.«407557_j3874060501607_3_alg».proof.Proof.Law
import proofs.«407557_j3874060501607_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.StableHlo

namespace Claims

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference runs, and its line of operations writes none of its arguments. -/
theorem frame_ri : @Cert.frame_ReferenceIdeal Cert.ReferenceIdeal.Gen.facts Cert.Pre_finite_inputs.Gen.facts :=
  fun m ρ _ =>
    (θ_run Cert.ReferenceIdeal.defs _ _).mono
      (fun r h c =>
        have k := Cert.ReferenceIdeal.RValB.kept (launchContents m c)
        ⟨(h c _).trans k.1, (h c _).trans k.2.1, (h c _).trans k.2.2.1, (h c _).trans k.2.2.2.1,
          (h c _).trans k.2.2.2.2.1, (h c _).trans k.2.2.2.2.2.1, (h c _).trans k.2.2.2.2.2.2.1,
          (h c _).trans k.2.2.2.2.2.2.2.1, (h c _).trans k.2.2.2.2.2.2.2.2.1, (h c _).trans k.2.2.2.2.2.2.2.2.2⟩)
      (Cert.ReferenceIdeal.RRun.run (F := Ideal) m ρ)

/-- From memories agreeing on the arguments the two idealized programs end with equal result arrays: the kernel's is
    the projecting program's, the reference's the mean-first program's, and on real inputs these are one array. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Gen.W4 (F := Ideal) m ρ c (Proc.devRef .tc Cert.KernelIdeal.main_v42),
    Cert.KernelIdeal.Gen.Named.run (F := Ideal) m ρ, ?_⟩
  refine (θ_run Cert.ReferenceIdeal.defs _ _).mono (fun r h c => ?_) (Cert.ReferenceIdeal.RRun.run (F := Ideal) m' ρ')
  have k := Cert.ReferenceIdeal.RValB.kept (launchContents m' c)
  refine ⟨?_, (h c _).trans k.1, (h c _).trans k.2.1, (h c _).trans k.2.2.1, (h c _).trans k.2.2.2.1,
    (h c _).trans k.2.2.2.2.1, (h c _).trans k.2.2.2.2.2.1, (h c _).trans k.2.2.2.2.2.2.1,
    (h c _).trans k.2.2.2.2.2.2.2.1, (h c _).trans k.2.2.2.2.2.2.2.2.1, (h c _).trans k.2.2.2.2.2.2.2.2.2⟩
  refine (h c _).trans ?_
  obtain ⟨hx, hW1, hb1, hWn⟩ := Cert.KernelIdeal.Finite.real_inputs (hP := Cert.Pre_finite_inputs.Gen.facts) m hpre c
  obtain ⟨a0, a1, a2, a3, a4, a5, a6, a7, a8, a9⟩ := hagree c
  refine (Cert.ReferenceIdeal.RValue.result (launchContents m' c)).trans ?_
  refine Eq.trans ?_ (Cert.KernelIdeal.KValue.result m ρ c).symm
  refine Eq.trans ?_ (Gnn.resProj_eq_resMean _ _ _ _ _ _ _ _ _ _ hx hW1 hb1 hWn).symm
  have e0 : Cert.ReferenceIdeal.RNames.x (launchContents m' c) = Cert.KernelIdeal.Args.x m c := a0
  have e1 : Cert.ReferenceIdeal.RNames.src (launchContents m' c) = Cert.KernelIdeal.Args.src m c := a1
  have e2 : Cert.ReferenceIdeal.RNames.dst (launchContents m' c) = Cert.KernelIdeal.Args.dst m c := a2
  have e3 : Cert.ReferenceIdeal.RNames.W1 (launchContents m' c) = Cert.KernelIdeal.Args.W1 m c := a3
  have e4 : Cert.ReferenceIdeal.RNames.b1 (launchContents m' c) = Cert.KernelIdeal.Args.b1 m c := a4
  have e5 : Cert.ReferenceIdeal.RNames.Wn (launchContents m' c) = Cert.KernelIdeal.Args.Wn m c := a5
  have e6 : Cert.ReferenceIdeal.RNames.Ws (launchContents m' c) = Cert.KernelIdeal.Args.Ws m c := a6
  have e7 : Cert.ReferenceIdeal.RNames.b2 (launchContents m' c) = Cert.KernelIdeal.Args.b2 m c := a7
  have e8 : Cert.ReferenceIdeal.RNames.W3 (launchContents m' c) = Cert.KernelIdeal.Args.W3 m c := a8
  have e9 : Cert.ReferenceIdeal.RNames.b3 (launchContents m' c) = Cert.KernelIdeal.Args.b3 m c := a9
  rw [e0, e1, e2, e3, e4, e5, e6, e7, e8, e9]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
